-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128x8 : Shape := ⟨2, ![128, 8]⟩
abbrev S8 : Shape := ⟨1, ![8]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg1 : IVec S2x800000 32) (main_v98 : IVec S_ 1) (main_v101 : IVec S_ 1) : IVec S_ 1 :=
  let main_v102 : IVec S_ 1 := andi main_v98 main_v101
  let main_c_40 : IVec S_ 32 := constantI S_ 32 50000#32
  let main_v103 : IVec S2x800000 32 := broadcastInDim S2x800000 ![] bcast_S_S2x800000 main_c_40
  let main_v104 : IVec S2x800000 1 := cmpi .slt main_arg1 main_v103
  let main_c_41 : IVec S_ 1 := constantI S_ 1 1#1
  let main_v105 : IVec S_ 1 := (fun x v => Host.reduce IntOp.andi x v reducesTo_S2x800000_S_d0_1 h_S_) main_v104 main_c_41
  let main_v106 : IVec S_ 1 := andi main_v102 main_v105
  main_v106

def fn_part5 {F : FTy → Type} [FloatOps F] (main_arg1 : IVec S2x800000 32) (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_c_38 : IVec S_ 32 := constantI S_ 32 0#32
  let main_v99 : IVec S2x800000 32 := broadcastInDim S2x800000 ![] bcast_S_S2x800000 main_c_38
  let main_v100 : IVec S2x800000 1 := cmpi .sge main_arg1 main_v99
  let main_c_39 : IVec S_ 1 := constantI S_ 1 1#1
  let main_v101 : IVec S_ 1 := (fun x v => Host.reduce IntOp.andi x v reducesTo_S2x800000_S_d0_1 h_S_) main_v100 main_c_39
  fn_part6 (F := F) main_arg1 main_v98 main_v101

def fn_part4 {F : FTy → Type} [FloatOps F] (main_arg1 : IVec S2x800000 32) (main_arg15 : FVec F S128 .f32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x800000 32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_v63 main_v67

def fn_part2 {F : FTy → Type} [FloatOps F] (main_arg1 : IVec S2x800000 32) (main_arg8 : FVec F S8 .f32) (main_arg9 : FVec F S128x256 .f32) (main_arg10 : FVec F S256 .f32) (main_arg11 : FVec F S256x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x800000 32) (main_arg5 : FVec F S128x128 .f32) (main_arg6 : FVec F S128x128 .f32) (main_arg7 : FVec F S128x8 .f32) (main_arg8 : FVec F S8 .f32) (main_arg9 : FVec F S128x256 .f32) (main_arg10 : FVec F S256 .f32) (main_arg11 : FVec F S256x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x8 .f32 := Host.absf main_arg7
  let main_cst_10 : FVec F S_ .f32 := constant S_ .f32 0x7F800000#32
  let main_v30 : FVec F S128x8 .f32 := broadcastInDim S128x8 ![] bcast_S_S128x8 main_cst_10
  let main_v31 : IVec S128x8 1 := cmpf .olt main_v29 main_v30
  let main_c_11 : IVec S_ 1 := constantI S_ 1 1#1
  let main_v32 : IVec S_ 1 := (fun x v => Host.reduce IntOp.andi x v reducesTo_S128x8_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : FVec F S800000x128 .f32) (main_arg3 : FVec F S128x128 .f32) (main_arg4 : FVec F S128x128 .f32) (main_arg5 : FVec F S128x128 .f32) (main_arg6 : FVec F S128x128 .f32) (main_arg7 : FVec F S128x8 .f32) (main_arg8 : FVec F S8 .f32) (main_arg9 : FVec F S128x256 .f32) (main_arg10 : FVec F S256 .f32) (main_arg11 : FVec F S256x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128x8 : Shape := ⟨2, ![128, 8]⟩
abbrev S8 : Shape := ⟨1, ![8]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S128x1 : Shape := ⟨2, ![128, 1]⟩
abbrev S1x8 : Shape := ⟨2, ![1, 8]⟩
abbrev S8x128 : Shape := ⟨2, ![8, 128]⟩
abbrev S5000x128 : Shape := ⟨2, ![5000, 128]⟩
abbrev S800000x8 : Shape := ⟨2, ![800000, 8]⟩
abbrev S8000x128 : Shape := ⟨2, ![8000, 128]⟩
abbrev S8000x8 : Shape := ⟨2, ![8000, 8]⟩
abbrev S800000x1 : Shape := ⟨2, ![800000, 1]⟩
abbrev S1 : Shape := ⟨1, ![1]⟩
abbrev S1x1 : Shape := ⟨2, ![1, 1]⟩
abbrev S4000x128 : Shape := ⟨2, ![4000, 128]⟩
abbrev S4000x8 : Shape := ⟨2, ![4000, 8]⟩
abbrev S50000x8 : Shape := ⟨2, ![50000, 8]⟩
abbrev S5000x8 : Shape := ⟨2, ![5000, 8]⟩
abbrev S1x128 : Shape := ⟨2, ![1, 128]⟩
abbrev S5000x256 : Shape := ⟨2, ![5000, 256]⟩
abbrev S1x256 : Shape := ⟨2, ![1, 256]⟩

abbrev nBuf : Space → Nat
  | .hbm => 137
  | .vmem => 57
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128x128, .f32⟩
  | 4 => ⟨S128x128, .f32⟩
  | 5 => ⟨S128x128, .f32⟩
  | 6 => ⟨S128x128, .f32⟩
  | 7 => ⟨S128x8, .f32⟩
  | 8 => ⟨S8, .f32⟩
  | 9 => ⟨S128x256, .f32⟩
  | 10 => ⟨S256, .f32⟩
  | 11 => ⟨S256x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S128, .i32⟩
  | 26 => ⟨S_, .i32⟩
  | 27 => ⟨S_, .i32⟩
  | 28 => ⟨S128, .i32⟩
  | 29 => ⟨S128, .i32⟩
  | 30 => ⟨S128, .i32⟩
  | 31 => ⟨S_, .i32⟩
  | 32 => ⟨S128, .i32⟩
  | 33 => ⟨S128, .i1⟩
  | 34 => ⟨S128, .i32⟩
  | 35 => ⟨S128, .i32⟩
  | 36 => ⟨S_, .i32⟩
  | 37 => ⟨S128, .i32⟩
  | 38 => ⟨S128, .i1⟩
  | 39 => ⟨S128, .i1⟩
  | 40 => ⟨S_, .i32⟩
  | 41 => ⟨S128, .i32⟩
  | 42 => ⟨S128, .i32⟩
  | 43 => ⟨S128, .i32⟩
  | 44 => ⟨S8, .i32⟩
  | 45 => ⟨S128x1, .i32⟩
  | 46 => ⟨S1x8, .i32⟩
  | 47 => ⟨S128x8, .i32⟩
  | 48 => ⟨S128x8, .i32⟩
  | 49 => ⟨S128x8, .i1⟩
  | 50 => ⟨S128x8, .f32⟩
  | 51 => ⟨S8x128, .f32⟩
  | 52 => ⟨S50000x128, .f32⟩
  | 53 => ⟨S50000x128, .f32⟩
  | 54 => ⟨S50000x128, .f32⟩
  | 55 => ⟨S800000x128, .f32⟩
  | 56 => ⟨S800000x8, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S1, .i32⟩
  | 66 => ⟨S_, .i32⟩
  | 67 => ⟨S800000x1, .i32⟩
  | 68 => ⟨S800000x1, .i1⟩
  | 69 => ⟨S1x1, .i32⟩
  | 70 => ⟨S800000x1, .i32⟩
  | 71 => ⟨S800000x1, .i1⟩
  | 72 => ⟨S800000x1, .i1⟩
  | 73 => ⟨S_, .i1⟩
  | 74 => ⟨S800000, .i1⟩
  | 75 => ⟨S800000x128, .f32⟩
  | 76 => ⟨S800000x128, .i1⟩
  | 77 => ⟨S_, .f32⟩
  | 78 => ⟨S800000x128, .f32⟩
  | 79 => ⟨S800000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S1, .i32⟩
  | 89 => ⟨S_, .i32⟩
  | 90 => ⟨S800000x1, .i32⟩
  | 91 => ⟨S800000x1, .i1⟩
  | 92 => ⟨S1x1, .i32⟩
  | 93 => ⟨S800000x1, .i32⟩
  | 94 => ⟨S800000x1, .i1⟩
  | 95 => ⟨S800000x1, .i1⟩
  | 96 => ⟨S_, .i1⟩
  | 97 => ⟨S800000, .i1⟩
  | 98 => ⟨S800000x128, .f32⟩
  | 99 => ⟨S800000x128, .i1⟩
  | 100 => ⟨S_, .f32⟩
  | 101 => ⟨S800000x128, .f32⟩
  | 102 => ⟨S800000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S1, .i32⟩
  | 112 => ⟨S_, .i32⟩
  | 113 => ⟨S800000x1, .i32⟩
  | 114 => ⟨S800000x1, .i1⟩
  | 115 => ⟨S1x1, .i32⟩
  | 116 => ⟨S800000x1, .i32⟩
  | 117 => ⟨S800000x1, .i1⟩
  | 118 => ⟨S800000x1, .i1⟩
  | 119 => ⟨S_, .i1⟩
  | 120 => ⟨S800000, .i1⟩
  | 121 => ⟨S800000x128, .f32⟩
  | 122 => ⟨S800000x128, .i1⟩
  | 123 => ⟨S_, .f32⟩
  | 124 => ⟨S800000x128, .f32⟩
  | 125 => ⟨S800000x128, .f32⟩
  | 126 => ⟨S800000x8, .f32⟩
  | 127 => ⟨S800000x128, .f32⟩
  | _ => ⟨S50000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .f32⟩
  | 5 => ⟨S50000x8, .f32⟩
  | 6 => ⟨S800000x1, .i32⟩
  | 7 => ⟨S50000x8, .f32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S8000x128, .f32⟩
  | .local _ .vmem, ⟨12, _⟩ => ⟨S8000x128, .f32⟩
  | .local _ .vmem, ⟨13, _⟩ => ⟨S128x128, .f32⟩
  | .local _ .vmem, ⟨14, _⟩ => ⟨S128x8, .f32⟩
  | .local _ .vmem, ⟨15, _⟩ => ⟨S8, .f32⟩
  | .local _ .vmem, ⟨16, _⟩ => ⟨S8000x128, .f32⟩
  | .local _ .vmem, ⟨17, _⟩ => ⟨S8000x128, .f32⟩
  | .local _ .vmem, ⟨18, _⟩ => ⟨S8000x8, .f32⟩
  | .local _ .vmem, ⟨19, _⟩ => ⟨S8000x8, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x8, .f32⟩
  | .local _ .vmem, ⟨29, _⟩ => ⟨S4000x8, .f32⟩
  | .local _ .vmem, ⟨30, _⟩ => ⟨S128x8, .f32⟩
  | .local _ .vmem, ⟨31, _⟩ => ⟨S8x128, .f32⟩
  | .local _ .vmem, ⟨32, _⟩ => ⟨S4000x8, .f32⟩
  | .local _ .vmem, ⟨33, _⟩ => ⟨S4000x8, .f32⟩
  | .local _ .vmem, ⟨34, _⟩ => ⟨S4000x128, .f32⟩
  | .local _ .vmem, ⟨35, _⟩ => ⟨S4000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x8, .f32⟩
  | .local _ .vmem, ⟨41, _⟩ => ⟨S5000x8, .f32⟩
  | .local _ .vmem, ⟨42, _⟩ => ⟨S8x128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S128, .f32⟩
  | .local _ .vmem, ⟨47, _⟩ => ⟨S128x256, .f32⟩
  | .local _ .vmem, ⟨48, _⟩ => ⟨S256, .f32⟩
  | .local _ .vmem, ⟨49, _⟩ => ⟨S256x128, .f32⟩
  | .local _ .vmem, ⟨50, _⟩ => ⟨S128, .f32⟩
  | .local _ .vmem, ⟨51, _⟩ => ⟨S128, .f32⟩
  | .local _ .vmem, ⟨52, _⟩ => ⟨S128, .f32⟩
  | .local _ .vmem, ⟨53, _⟩ => ⟨S128, .f32⟩
  | .local _ .vmem, ⟨54, _⟩ => ⟨S128, .f32⟩
  | .local _ .vmem, ⟨55, _⟩ => ⟨S5000x128, .f32⟩
  | .local _ .vmem, ⟨56, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14_0 : Ref sig .tc := ⟨.hbm, 52, rfl⟩
abbrev main_v14_1 : Ref sig .tc := ⟨.hbm, 53, rfl⟩
abbrev main_v14_2 : Ref sig .tc := ⟨.hbm, 54, rfl⟩
abbrev main_v15_0 : Ref sig .tc := ⟨.hbm, 55, rfl⟩
abbrev main_v15_1 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v16 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v17 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v18 : Ref sig .tc := ⟨.hbm, 125, rfl⟩
abbrev main_v19_0 : Ref sig .tc := ⟨.hbm, 126, rfl⟩
abbrev main_v19_1 : Ref sig .tc := ⟨.hbm, 127, rfl⟩
abbrev main_cst : Ref sig .tc := ⟨.hbm, 128, rfl⟩
abbrev main_v20 : Ref sig .tc := ⟨.hbm, 129, rfl⟩
abbrev main_v21 : Ref sig .tc := ⟨.hbm, 130, rfl⟩
abbrev main_v22 : Ref sig .tc := ⟨.hbm, 131, rfl⟩
abbrev main_cst_0 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg12_0 : Ref sig .tc := ⟨.vmem, 51, rfl⟩
abbrev cc3_stg13_0 : Ref sig .tc := ⟨.vmem, 52, rfl⟩
abbrev cc3_stg14_0 : Ref sig .tc := ⟨.vmem, 53, rfl⟩
abbrev cc3_stg15_0 : Ref sig .tc := ⟨.vmem, 54, rfl⟩
abbrev cc3_stg16_0 : Ref sig .tc := ⟨.vmem, 55, rfl⟩
abbrev cc3_stg16_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem12_0 : DmaSem sig := 51
abbrev cc3_sem13_0 : DmaSem sig := 52
abbrev cc3_sem14_0 : DmaSem sig := 53
abbrev cc3_sem15_0 : DmaSem sig := 54
abbrev cc3_sem16_0 : DmaSem sig := 55
abbrev cc3_sem16_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 2 → Memref sig .tc .vmem S5000x128 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S128 : S_.BroadcastsInDim S128 (![] : Fin 0 → Fin S128.rank)
  bcast_S128_S128x1_0 : S128.BroadcastsInDim S128x1 (![0] : Fin 1 → Fin S128x1.rank)
  bcast_S8_S1x8_1 : S8.BroadcastsInDim S1x8 (![1] : Fin 1 → Fin S1x8.rank)
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  transposes_S128x8_S8x128_1_0 : S128x8.Transposes [1, 0] S8x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S8000x128_S8000x128_0_0 : ∀ a, (![0, 0] : Fin 2 → Nat) a + S8000x128.size a ≤ S8000x128.size a
  h_S8000x128 : 0 < S8000x128.numel
  inb_S128x8_S128x8_0_0 : ∀ a, (![0, 0] : Fin 2 → Nat) a + S128x8.size a ≤ S128x8.size a
  h_S128x8 : 0 < S128x8.numel
  inb_S8_S8_0 : ∀ a, (![0] : Fin 1 → Nat) a + S8.size a ≤ S8.size a
  h_S8 : 0 < S8.numel
  shapeCasts_S8_S1x8 : S8.ShapeCasts S1x8
  broadcasts_S1x8_S8000x8 : S1x8.Broadcasts S8000x8
  inb_S8000x8_S8000x8_0_0 : ∀ a, (![0, 0] : Fin 2 → Nat) a + S8000x8.size a ≤ S8000x8.size a
  h_S8000x8 : 0 < S8000x8.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x8_S128x8 : S128x8.ShapeCasts S128x8
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  bcast_S_S50000x128 : S_.BroadcastsInDim S50000x128 (![] : Fin 0 → Fin S50000x128.rank)
  bcast_S_S50000x8 : S_.BroadcastsInDim S50000x8 (![] : Fin 0 → Fin S50000x8.rank)
  shapeCasts_S5000x128_S5000x128 : S5000x128.ShapeCasts S5000x128
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  dot_S5000x128_S128x128_S5000x128_1_0_0_1_n_n_wf : DotDims.WF S5000x128 S128x128 S5000x128 [1] [0] [0] [1] [] []
  dot_S8000x128_S128x128_S8000x128_1_0_0_1_n_n_wf : DotDims.WF S8000x128 S128x128 S8000x128 [1] [0] [0] [1] [] []
  dot_S8000x128_S128x8_S8000x8_1_0_0_1_n_n_wf : DotDims.WF S8000x128 S128x8 S8000x8 [1] [0] [0] [1] [] []
  gather_S50000x128_S800000x1_S800000x128_1_0_n_n_0_1_1128_wf : GatherDims.WF S50000x128 S800000x1 S800000x128 [1] [0] [] [0] [] 1 ![1, 128]
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  dot_S5000x8_S8x128_S5000x128_1_0_0_1_n_n_wf : DotDims.WF S5000x8 S8x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x8.size a ≤ S800000x8.size a
  hwx1_5 : ∀ i : grid1.Coords, EltTy.bits .f32 = 32 ∨ (Rect.block (s := S800000x8) S8000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S800000x128.size a
  hwx2_2 : ∀ i : grid2.Coords, EltTy.bits .f32 = 32 ∨ (Rect.block (s := S800000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S800000x128.size a
  hwx2_3 : ∀ i : grid2.Coords, EltTy.bits .f32 = 32 ∨ (Rect.block (s := S800000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x8.size a ≤ S800000x8.size a
  hwx2_4 : ∀ i : grid2.Coords, EltTy.bits .f32 = 32 ∨ (Rect.block (s := S800000x8) S4000x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x8.size a ≤ S128x8.size a
  hwx2_5 : ∀ i : grid2.Coords, EltTy.bits .f32 = 32 ∨ (Rect.block (s := S128x8) S128x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S8x128.size a
  hwx2_6 : ∀ i : grid2.Coords, EltTy.bits .f32 = 32 ∨ (Rect.block (s := S8x128) S8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x8.size a ≤ S800000x8.size a
  hwx2_7 : ∀ i : grid2.Coords, EltTy.bits .f32 = 32 ∨ (Rect.block (s := S800000x8) S4000x8.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S800000x128.size a
  hwx2_8 : ∀ i : grid2.Coords, EltTy.bits .f32 = 32 ∨ (Rect.block (s := S800000x128) S4000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S50000x8.size a
  hwx3_2 : ∀ i : grid3.Coords, EltTy.bits .f32 = 32 ∨ (Rect.block (s := S50000x8) S5000x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S8x128.size a
  hwx3_3 : ∀ i : grid3.Coords, EltTy.bits .f32 = 32 ∨ (Rect.block (s := S8x128) S8x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x256.size a ≤ S128x256.size a
  hwx3_8 : ∀ i : grid3.Coords, EltTy.bits .f32 = 32 ∨ (Rect.block (s := S128x256) S128x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256.size a ≤ S256.size a
  hwx3_9 : ∀ i : grid3.Coords, EltTy.bits .f32 = 32 ∨ (Rect.block (s := S256) S256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S256x128.size a ≤ S256x128.size a
  hwx3_10 : ∀ i : grid3.Coords, EltTy.bits .f32 = 32 ∨ (Rect.block (s := S256x128) S256x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128.size a ≤ S128.size a
  hwx3_13 : ∀ i : grid3.Coords, EltTy.bits .f32 = 32 ∨ (Rect.block (s := S128) S128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128.size a ≤ S128.size a
  hwx3_14 : ∀ i : grid3.Coords, EltTy.bits .f32 = 32 ∨ (Rect.block (s := S128) S128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S128.size a ≤ S128.size a
  hwx3_15 : ∀ i : grid3.Coords, EltTy.bits .f32 = 32 ∨ (Rect.block (s := S128) S128.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S5000x128.size a ≤ S50000x128.size a
  hwx3_16 : ∀ i : grid3.Coords, EltTy.bits .f32 = 32 ∨ (Rect.block (s := S50000x128) S5000x128.size (cc3_transform_16 i) (hinb3_16 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S8000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S8000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v16) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_0) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_1) S4000x8.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12) S128x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S8x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19_0) S4000x8.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v19_1) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S5000x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S8x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg16) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg9) S128x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg10) S256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg11) S256x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg12) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg17) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg18) S128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_arg19) S128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg20) S128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v26) S5000x128.size cc3_transform_16 reads3_16 true false 2 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128x8 : Shape := ⟨2, ![128, 8]⟩
abbrev S8 : Shape := ⟨1, ![8]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x8x16 : Shape := ⟨3, ![50000, 8, 16]⟩
abbrev S800000x8x16 : Shape := ⟨3, ![800000, 8, 16]⟩
abbrev S800000x8 : Shape := ⟨2, ![800000, 8]⟩
abbrev S1x8 : Shape := ⟨2, ![1, 8]⟩
abbrev S800000x8x1 : Shape := ⟨3, ![800000, 8, 1]⟩
abbrev S_ : Shape := ⟨0, ![]⟩
abbrev S800000x1 : Shape := ⟨2, ![800000, 1]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128x128, .f32⟩
  | 4 => ⟨S128x128, .f32⟩
  | 5 => ⟨S128x128, .f32⟩
  | 6 => ⟨S128x128, .f32⟩
  | 7 => ⟨S128x8, .f32⟩
  | 8 => ⟨S8, .f32⟩
  | 9 => ⟨S128x256, .f32⟩
  | 10 => ⟨S256, .f32⟩
  | 11 => ⟨S256x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S50000x128, .f32⟩
  | 26 => ⟨S50000x8x16, .f32⟩
  | 27 => ⟨S50000x128, .f32⟩
  | 28 => ⟨S50000x8x16, .f32⟩
  | 29 => ⟨S50000x128, .f32⟩
  | 30 => ⟨S50000x8x16, .f32⟩
  | 31 => ⟨S800000x128, .f32⟩
  | 32 => ⟨S800000x8x16, .f32⟩
  | 33 => ⟨S800000x8, .f32⟩
  | 34 => ⟨S1x8, .f32⟩
  | 35 => ⟨S800000x8, .f32⟩
  | 36 => ⟨S800000x8, .f32⟩
  | 37 => ⟨S800000x8x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x8x16, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x8x16, .f32⟩
  | 56 => ⟨S800000x8x16, .f32⟩
  | 57 => ⟨S800000x8x16, .f32⟩
  | 58 => ⟨S_, .f32⟩
  | 59 => ⟨S800000x8, .f32⟩
  | 60 => ⟨S800000x8x1, .f32⟩
  | 61 => ⟨S_, .f32⟩
  | 62 => ⟨S800000x8x1, .f32⟩
  | 63 => ⟨S800000x8x1, .f32⟩
  | 64 => ⟨S800000x8x1, .f32⟩
  | 65 => ⟨S_, .f32⟩
  | 66 => ⟨S_, .f32⟩
  | 67 => ⟨S_, .f32⟩
  | 68 => ⟨S800000x8x1, .f32⟩
  | 69 => ⟨S800000x8x1, .f32⟩
  | 70 => ⟨S_, .f32⟩
  | 71 => ⟨S800000x8x1, .f32⟩
  | 72 => ⟨S800000x8x1, .f32⟩
  | 73 => ⟨S800000x8x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x8x16, .f32⟩
  | 83 => ⟨S800000x8x16, .f32⟩
  | 84 => ⟨S800000x8x16, .f32⟩
  | 85 => ⟨S_, .f32⟩
  | 86 => ⟨S50000x8x16, .f32⟩
  | 87 => ⟨S800000x1, .i32⟩
  | 88 => ⟨S50000x8x16, .f32⟩
  | 89 => ⟨S_, .f32⟩
  | 90 => ⟨S50000x8x1, .f32⟩
  | 91 => ⟨S800000x1, .i32⟩
  | 92 => ⟨S50000x8x1, .f32⟩
  | 93 => ⟨S_, .f32⟩
  | 94 => ⟨S50000x8x1, .f32⟩
  | 95 => ⟨S50000x8x1, .f32⟩
  | 96 => ⟨S50000x8x16, .f32⟩
  | 97 => ⟨S50000x8x16, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v38 : Ref sig .tc := ⟨.hbm, 72, rfl⟩
abbrev main_v39 : Ref sig .tc := ⟨.hbm, 73, rfl⟩
abbrev main_c_6 : Ref sig .tc := ⟨.hbm, 74, rfl⟩
abbrev main_v40 : Ref sig .tc := ⟨.hbm, 75, rfl⟩
abbrev main_v41 : Ref sig .tc := ⟨.hbm, 76, rfl⟩
abbrev main_c_7 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_10 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_11 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call1_cst : Ref sig .tc := ⟨.hbm, 120, rfl⟩
abbrev main_call1_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_12 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000x128_S50000x8x16 : S50000x128.ShapeCasts S50000x8x16
  shapeCasts_S800000x128_S800000x8x16 : S800000x128.ShapeCasts S800000x8x16
  bcast_S8_S1x8_1 : S8.BroadcastsInDim S1x8 (![1] : Fin 1 → Fin S1x8.rank)
  bcast_S1x8_S800000x8_0_1 : S1x8.BroadcastsInDim S800000x8 (![0, 1] : Fin 2 → Fin S800000x8.rank)
  shapeCasts_S800000x8_S800000x8x1 : S800000x8.ShapeCasts S800000x8x1
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  dot_S800000x128_S128x8_S800000x8_1_0_0_1_n_n_wf : DotDims.WF S800000x128 S128x8 S800000x8 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x8_S800000x8_1_0_0_1_n_n : DotDims S800000x128 S128x8 S800000x8 where
  lhsContracting := [1]
  rhsContracting := [0]
  lhsNonContracting := [0]
  rhsNonContracting := [1]
  lhsBatch := []
  rhsBatch := []
  wf := dot_S800000x128_S128x8_S800000x8_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The function both programs compute, on the extended reals (nothing here depends on a program).

  A graph-transformer layer over N = 50000 nodes with D = 128 features in H = 8 heads of 16 lanes, and E = 800000
  edges. With Q = h·WQ, K = h·WK, V = h·WV (rows by columns), Ef = ea·WE and Eb = ea·WEb + bEb, an edge e from
  src e to dst e has, per head hh, the score

      s e hh = exp (min 5 (max (-5) ((∑ over the 16 lanes j of head hh of K[src e] · Q[dst e] · Ef[e]) · 1/4 + Eb e hh)))

  and per feature d the message V[src e, d] · s e (head of d). A node n sums the messages and the scores of the
  edges that point at it (wV, Z), divides feature by feature wV / (Z + 1e-6), adds h, and passes the result through
  a batch normalisation in evaluation mode, a two-layer feed-forward block with a residual, and a second batch
  normalisation.

  The index words are read signed; a row index is clamped into the rows (what a gather does), and an edge is
  summed into node n exactly when its target word, read signed, is n (what a scatter-add does).

  Two sums over a one-hot grouping matrix are also here: summing p d · [d / 16 = hh] over all 128 features is the
  sum over the 16 lanes of head hh, and summing s hh · [d / 16 = hh] over the 8 heads is s at the head of d.
-/
import Idealize.ShloMosaic.Lib.ValueIdx
import Idealize.ShloMosaic.PureOps.Ideal.Laws

noncomputable section

namespace Cert.Spec

open Idealize.ShloMosaic Idealize.ShloMosaic.ValueIdx

/-- A matrix and a vector of extended reals over literal extents. -/
abbrev A2 (a b : Nat) : Type := (⟨2, ![a, b]⟩ : Shape).Idx → EReal
abbrev A1 (a : Nat) : Type := (⟨1, ![a]⟩ : Shape).Idx → EReal

/-- Rows by columns. -/
def mm {A K C : Nat} (x : A2 A K) (w : A2 K C) (a : Fin A) (c : Fin C) : EReal :=
  ∑ k : Fin K, x (ix2 a k) * w (ix2 k c)

/-- The head of a feature, and lane j of head hh. -/
def hd (d : Fin 128) : Fin 8 := ⟨d.val / 16, by omega⟩
def lane (hh : Fin 8) (j : Fin 16) : Fin 128 := ⟨16 * hh.val + j.val, by omega⟩

/-- The node a gather reads for an index word: read signed, clamped into the 50000 rows. -/
def row (z : BitVec 32) : Fin 50000 := ⟨min z.toInt.toNat 49999, by omega⟩

/-- The literals, as the words both programs print. -/
abbrev cQuarter : EReal := Ideal.ofBits .f32 0x3E800000#32
abbrev cLo : EReal := Ideal.ofBits .f32 0xC0A00000#32
abbrev cHi : EReal := Ideal.ofBits .f32 0x40A00000#32
abbrev cTiny : EReal := Ideal.ofBits .f32 0x358637BD#32
abbrev cEps : EReal := Ideal.ofBits .f32 0x3727C5AC#32
abbrev cZero : EReal := Ideal.ofBits .f32 0x00000000#32

/-- Batch normalisation in evaluation mode, on one element. -/
def bn (x g be mu va : EReal) : EReal := (x - mu) * g * Ideal.rsqrt (va + cEps) + be

section Layer

variable (h : A2 50000 128) (ei : IVec ⟨2, ![2, 800000]⟩ 32) (ea : A2 800000 128)
  (WQ WK WV WE : A2 128 128) (WEb : A2 128 8) (bEb : A1 8)
  (W1 : A2 128 256) (b1 : A1 256) (W2 : A2 256 128) (b2 g1 be1 mu1 va1 g2 be2 mu2 va2 : A1 128)

/-- The source and the target node of an edge, as a gather reads them. -/
def src (e : Fin 800000) : Fin 50000 := row (ei (ix2 0 e))
def dst (e : Fin 800000) : Fin 50000 := row (ei (ix2 1 e))

/-- K[src e, d] · Q[dst e, d] · Ef[e, d]. -/
def kqe (e : Fin 800000) (d : Fin 128) : EReal :=
  mm h WK (src ei e) d * mm h WQ (dst ei e) d * mm ea WE e d

/-- The edge's score in head hh. -/
def score (e : Fin 800000) (hh : Fin 8) : EReal :=
  Ideal.exp (min cHi (max cLo ((∑ j : Fin 16, kqe h ei ea WQ WK WE e (lane hh j)) * cQuarter
    + (mm ea WEb e hh + bEb (ix1 hh)))))

/-- The edge's message at feature d. -/
def msg (e : Fin 800000) (d : Fin 128) : EReal :=
  mm h WV (src ei e) d * score h ei ea WQ WK WE WEb bEb e (hd d)

/-- What node n collects: messages per feature, scores per head. -/
def wV (n : Fin 50000) (d : Fin 128) : EReal :=
  ∑ e : Fin 800000, if (ei (ix2 1 e)).toInt = (n.val : Int) then msg h ei ea WQ WK WV WE WEb bEb e d else 0
def zs (n : Fin 50000) (hh : Fin 8) : EReal :=
  ∑ e : Fin 800000, if (ei (ix2 1 e)).toInt = (n.val : Int) then score h ei ea WQ WK WE WEb bEb e hh else 0

/-- The attention output, the first normalisation, the hidden layer, the block's output. -/
def att (n : Fin 50000) (d : Fin 128) : EReal :=
  Ideal.div (wV h ei ea WQ WK WV WE WEb bEb n d) (zs h ei ea WQ WK WE WEb bEb n (hd d) + cTiny)
def x1 (n : Fin 50000) (d : Fin 128) : EReal :=
  bn (h (ix2 n d) + att h ei ea WQ WK WV WE WEb bEb n d) (g1 (ix1 d)) (be1 (ix1 d)) (mu1 (ix1 d)) (va1 (ix1 d))
def hid (n : Fin 50000) (f : Fin 256) : EReal :=
  max ((∑ k : Fin 128, x1 h ei ea WQ WK WV WE WEb bEb g1 be1 mu1 va1 n k * W1 (ix2 k f)) + b1 (ix1 f)) cZero
def ff (n : Fin 50000) (d : Fin 128) : EReal :=
  (∑ f : Fin 256, hid h ei ea WQ WK WV WE WEb bEb W1 b1 g1 be1 mu1 va1 n f * W2 (ix2 f d)) + b2 (ix1 d)
def out (n : Fin 50000) (d : Fin 128) : EReal :=
  bn (x1 h ei ea WQ WK WV WE WEb bEb g1 be1 mu1 va1 n d
      + ff h ei ea WQ WK WV WE WEb bEb W1 b1 W2 b2 g1 be1 mu1 va1 n d)
    (g2 (ix1 d)) (be2 (ix1 d)) (mu2 (ix1 d)) (va2 (ix1 d))

/-- The layer's result as an array. -/
def outA : A2 50000 128 := fun i =>
  out h ei ea WQ WK WV WE WEb bEb W1 b1 W2 b2 g1 be1 mu1 va1 g2 be2 mu2 va2 (i 0) (i 1)

end Layer

/-! ## One-hot grouping sums -/

/-- A feature is lane (d mod 16) of its head. -/
theorem lane_hd (d : Fin 128) : lane (hd d) ⟨d.val % 16, Nat.mod_lt _ (by decide)⟩ = d := by
  apply Fin.ext; show 16 * (d.val / 16) + d.val % 16 = d.val; omega

theorem hd_lane (hh : Fin 8) (j : Fin 16) : hd (lane hh j) = hh := by
  apply Fin.ext; show (16 * hh.val + j.val) / 16 = hh.val; have := j.isLt; omega

/-- Summing p d · g d hh over the features, g the 0/1 indicator of "d is in head hh", is the sum over the head's
    lanes. -/
theorem sum_group (p : Fin 128 → EReal) (g : Fin 128 → EReal) (hh : Fin 8)
    (hg : ∀ d, g d = if (hd d) = hh then 1 else 0) :
    ∑ d : Fin 128, p d * g d = ∑ j : Fin 16, p (lane hh j) := by
  have h1 : ∀ d, p d * g d = if hd d = hh then p d else 0 := by
    intro d; rw [hg d]; split <;> simp
  rw [Finset.sum_congr rfl fun d _ => h1 d, ← Finset.sum_filter]
  symm
  refine Finset.sum_bij (fun j _ => lane hh j) ?_ ?_ ?_ ?_
  · intro j _; exact Finset.mem_filter.mpr ⟨Finset.mem_univ _, hd_lane hh j⟩
  · intro j _ j' _ hjj
    apply Fin.ext
    have := congrArg Fin.val hjj
    show j.val = j'.val
    change 16 * hh.val + j.val = 16 * hh.val + j'.val at this
    omega
  · intro d hd'
    have hdh : hd d = hh := (Finset.mem_filter.mp hd').2
    refine ⟨⟨d.val % 16, Nat.mod_lt _ (by decide)⟩, Finset.mem_univ _, ?_⟩
    rw [← hdh]; exact lane_hd d
  · intro j _; rfl

/-- Summing s hh · g hh d over the heads, g the 0/1 indicator of "d is in head hh", is s at the head of d. -/
theorem sum_bcast (s : Fin 8 → EReal) (g : Fin 8 → EReal) (d : Fin 128)
    (hg : ∀ hh, g hh = if hd d = hh then 1 else 0) :
    ∑ hh : Fin 8, s hh * g hh = s (hd d) := by
  have h1 : ∀ hh, s hh * g hh = if hd d = hh then s hh else 0 := by
    intro hh; rw [hg hh]; split <;> simp
  rw [Finset.sum_congr rfl fun hh _ => h1 hh, Finset.sum_ite_eq]
  simp

end Cert.Spec

end
-- ==== Proof.KSpec.lean ====
/-
  What each of the four kernel regions computes, as a whole-array function of the arrays it reads (nothing here
  depends on a program). The two 0/1 grouping matrices (g : features × heads, gt : heads × features) are left as any
  matrices: a region multiplies by whatever the array holds.

  * region 1's second output: the edge bias, rows by columns plus the bias vector along the rows;
  * region 2: the edge scores, exp of the clipped (sum over the features d of ks·qd·ef at (e, d) times g (d, hh)) / 4
    plus the edge bias; and the messages, vs (e, d) times the sum over the heads of score (e, hh) · gt (hh, d);
  * region 3: per node, wv / (sum over the heads of z (n, hh) · gt (hh, d) + 1e-6) added to h, normalised, passed
    through the feed-forward block with its residual, normalised again.
-/
import proofs.«415187_j438086664593_2_alg».proof.Proof.Spec

noncomputable section

namespace Cert.KSpec

open Idealize.ShloMosaic Idealize.ShloMosaic.ValueIdx Cert.Spec

/-- Rows by columns, as an array. -/
def mmA {A K C : Nat} (x : A2 A K) (w : A2 K C) : A2 A C := fun i => mm x w (i 0) (i 1)

/-- Rows by columns plus a bias along the rows. -/
def mmBias {A K C : Nat} (x : A2 A K) (w : A2 K C) (b : A1 C) : A2 A C := fun i => mm x w (i 0) (i 1) + b (ix1 (i 1))

/-- Region 2's scores. -/
def scoreK (ks qd ef : A2 800000 128) (eb : A2 800000 8) (g : A2 128 8) : A2 800000 8 := fun i =>
  Ideal.exp (min cHi (max cLo ((∑ d : Fin 128, (ks (ix2 (i 0) d) * qd (ix2 (i 0) d) * ef (ix2 (i 0) d)) * g (ix2 d (i 1)))
    * cQuarter + eb (ix2 (i 0) (i 1)))))

/-- Region 2's messages, over the scores. -/
def msgK (vs : A2 800000 128) (s : A2 800000 8) (gt : A2 8 128) : A2 800000 128 := fun i =>
  vs (ix2 (i 0) (i 1)) * ∑ hh : Fin 8, s (ix2 (i 0) hh) * gt (ix2 hh (i 1))

section Block

variable (h wv : A2 50000 128) (z : A2 50000 8) (gt : A2 8 128) (g1 be1 mu1 va1 : A1 128)
  (W1 : A2 128 256) (b1 : A1 256) (W2 : A2 256 128) (b2 g2 be2 mu2 va2 : A1 128)

/-- Region 3: the first normalisation's output. -/
def x1K (n : Fin 50000) (d : Fin 128) : EReal :=
  bn (h (ix2 n d) + Ideal.div (wv (ix2 n d)) ((∑ hh : Fin 8, z (ix2 n hh) * gt (ix2 hh d)) + cTiny))
    (g1 (ix1 d)) (be1 (ix1 d)) (mu1 (ix1 d)) (va1 (ix1 d))

/-- Region 3: the hidden layer. -/
def hidK (n : Fin 50000) (f : Fin 256) : EReal :=
  max ((∑ k : Fin 128, x1K h wv z gt g1 be1 mu1 va1 n k * W1 (ix2 k f)) + b1 (ix1 f)) cZero

/-- Region 3: the block's output. -/
def outK (n : Fin 50000) (d : Fin 128) : EReal :=
  bn (x1K h wv z gt g1 be1 mu1 va1 n d
      + ((∑ f : Fin 256, hidK h wv z gt g1 be1 mu1 va1 W1 b1 n f * W2 (ix2 f d)) + b2 (ix1 d)))
    (g2 (ix1 d)) (be2 (ix1 d)) (mu2 (ix1 d)) (va2 (ix1 d))

def blockK : A2 50000 128 := fun i => outK h wv z gt g1 be1 mu1 va1 W1 b1 W2 b2 g2 be2 mu2 va2 (i 0) (i 1)

end Block

end Cert.KSpec

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.KHost.lean ====
/-
  The kernel program's host operations between its regions, read at an entry (at the ideal values).

  * The two index columns: row 0 and row 1 of the [2, 800000] index array, each sliced out and reshaped to a vector.
  * A take: the index vector is wrapped (an index below zero has 50000 added), laid as a column, tested against
    [0, 49999], and the table's rows are gathered at it; where the test fails the result is a fill value. When
    every index word, read signed, is a row, the wrap is the identity, the test passes everywhere, and the take at
    (e, d) is the table at (the word's row, d).
-/
import proofs.«415187_j438086664593_2_alg».proof.Proof.Gen.KernelIdeal.Frame
import proofs.«415187_j438086664593_2_alg».proof.Proof.KSpec
import proofs.«415187_j438086664593_2_alg».proof.Proof.LibRowGatherScatter
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.SL.Sem Idealize.ShloMosaic.ValueIdx

/-! ## A reduce by "and" over all ones -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 from by decide]
    exact foldl_andi_ones f l fun n hn => h n (List.mem_cons_of_mem _ hn)

/-- A reduce by "and" from 1 over an array of ones is 1 everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x _ fun i _ => hx i

/-! ## Broadcasts at an entry -/

/-- A vector of 800000 laid as a column. -/
theorem bc_col {α : Type} (v : S800000.Idx → α) (e : Fin 800000) (z : Fin 1) :
    broadcastInDim S800000x1 ![0] bcast_S800000_S800000x1_0 v (ix2 e z) = v (ix1 e) := by
  unfold broadcastInDim
  congr 1; funext a
  match a with
  | ⟨0, _⟩ => rw [dif_neg (by show ¬ (800000 : Nat) = 1; decide)]; rfl

/-- A vector of 800000 laid along the rows of [800000, 128]. -/
theorem bc_rows {α : Type} (v : S800000.Idx → α) (e : Fin 800000) (d : Fin 128) :
    broadcastInDim S800000x128 ![0] bcast_S800000_S800000x128_0 v (ix2 e d) = v (ix1 e) := by
  unfold broadcastInDim
  congr 1; funext a
  match a with
  | ⟨0, _⟩ => rw [dif_neg (by show ¬ (800000 : Nat) = 1; decide)]; rfl

/-- A scalar broadcast reads the scalar. -/
theorem bc_scalar {α : Type} {t : Shape} (h : S_.BroadcastsInDim t ![]) (v : S_.Idx → α) (j : t.Idx) :
    broadcastInDim t ![] h v j = v ix0 := by
  unfold broadcastInDim
  congr 1; funext a
  exact a.elim0

/-! ## The index columns -/

/-- Row 0 of the index array as a vector. -/
def srcCol (ei : IVec S2x800000 32) : IVec S800000 32 :=
  shapeCast S800000 (extractStridedSlice S1x800000 ![0, 0] ei slices_S2x800000_S1x800000_0_0) shapeCasts_S1x800000_S800000
/-- Row 1 of the index array as a vector. -/
def dstCol (ei : IVec S2x800000 32) : IVec S800000 32 :=
  shapeCast S800000 (extractStridedSlice S1x800000 ![1, 0] ei slices_S2x800000_S1x800000_1_0) shapeCasts_S1x800000_S800000

theorem srcCol_apply (ei : IVec S2x800000 32) (e : Fin 800000) : srcCol ei (ix1 e) = ei (ix2 0 e) := by
  unfold srcCol
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![0, 0] ei slices_S2x800000_S1x800000_0_0 (ix2 (0 : Fin 1) e) (ix2 (0 : Fin 2) e)
    (fun a => match a with
      | ⟨0, _⟩ => by show (0 : Nat) = 0 + 0; rfl
      | ⟨1, _⟩ => by show e.val = 0 + e.val; omega)

theorem dstCol_apply (ei : IVec S2x800000 32) (e : Fin 800000) : dstCol ei (ix1 e) = ei (ix2 1 e) := by
  unfold dstCol
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![1, 0] ei slices_S2x800000_S1x800000_1_0 (ix2 (0 : Fin 1) e) (ix2 (1 : Fin 2) e)
    (fun a => match a with
      | ⟨0, _⟩ => by show (1 : Nat) = 1 + 0; rfl
      | ⟨1, _⟩ => by show e.val = 0 + e.val; omega)

/-! ## The take -/

/-- The wrapped index vector laid as a column: what the gather reads its rows at. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The take of the table's rows at an index vector. -/
def takeF (x : FVec Ideal S50000x128 .f32) (idx : IVec S800000 32) : FVec Ideal S800000x128 .f32 :=
  select
    (broadcastInDim S800000x128 ![0] bcast_S800000_S800000x128_0
      (Host.reduce IntOp.andi
        (andi (cmpi .sge (wrapCol idx) (broadcastInDim S800000x1 ![] bcast_S_S800000x1 (constantI S_ 32 0#32)))
          (cmpi .sle (wrapCol idx) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x (wrapCol idx))
    (broadcastInDim S800000x128 ![] bcast_S_S800000x128 (constant S_ .f32 0x7FC00000#32))

/-- An index word that is not negative is its own wrap. -/
theorem wrapCol_apply (idx : IVec S800000 32) (e : Fin 800000) (z : Fin 1) (h0 : 0 ≤ (idx (ix1 e)).toInt) :
    wrapCol idx (ix2 e z) = idx (ix1 e) := by
  unfold wrapCol
  rw [bc_col]
  show Scalar.select (IntOp.cmpi .slt (idx (ix1 e)) _) _ (idx (ix1 e)) = _
  have hc : IntOp.cmpi .slt (idx (ix1 e))
      (broadcastInDim S800000 ![] bcast_S_S800000 (constantI S_ 32 0#32) (ix1 e)) ≠ 1#1 := by
    rw [Ne, IntOp.cmpi_slt, bc_scalar]
    show ¬ (idx (ix1 e)).toInt < (0#32 : BitVec 32).toInt
    simp only [BitVec.toInt_zero]; omega
  rw [eq_zero_of_ne_one hc, select_zero]

/-- The take at (e, d), when the index word is a row. -/
theorem takeF_apply (x : FVec Ideal S50000x128 .f32) (idx : IVec S800000 32)
    (hlo : ∀ e : Fin 800000, 0 ≤ (idx (ix1 e)).toInt) (hhi : ∀ e : Fin 800000, (idx (ix1 e)).toInt < 50000)
    (e : Fin 800000) (d : Fin 128) :
    takeF x idx (ix2 e d) = x (ix2 (Cert.Spec.row (idx (ix1 e))) d) := by
  unfold takeF
  rw [select_apply, bc_rows]
  have hm : Host.reduce IntOp.andi
      (andi (cmpi .sge (wrapCol idx) (broadcastInDim S800000x1 ![] bcast_S_S800000x1 (constantI S_ 32 0#32)))
        (cmpi .sle (wrapCol idx) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_ (ix1 e) = 1#1 := by
    refine reduce_andi_of_all _ _ _ _ _ (fun i => ?_) rfl
    obtain ⟨e', z, rfl⟩ : ∃ (e' : Fin 800000) (z : Fin 1), i = ix2 e' z := ⟨i 0, i 1, eq_ix2 i⟩
    show IntOp.andi (IntOp.cmpi .sge (wrapCol idx (ix2 e' z)) _) (IntOp.cmpi .sle (wrapCol idx (ix2 e' z)) _) = 1#1
    rw [IntOp.andi_eq_one, IntOp.cmpi_sge, IntOp.cmpi_sle, wrapCol_apply idx e' z (hlo e'), bc_scalar]
    refine ⟨?_, ?_⟩
    · show (0#32 : BitVec 32).toInt ≤ _
      simp only [BitVec.toInt_zero]; exact hlo e'
    · have h9 : (broadcastInDim S800000x1 ![0, 1] bcast_S1x1_S800000x1_0_1
          (broadcastInDim S1x1 ![1] bcast_S1_S1x1_1 (constantI S1 32 49999#32)) (ix2 e' z)).toInt = 49999 := by
        show (49999#32 : BitVec 32).toInt = 49999
        decide
      rw [h9]; have := hhi e'; omega
  rw [hm, select_one]
  refine (Cert.Lib.RowPass.ga_apply (N := 50000) (E := 800000) (W := 128) _ (by decide) x (wrapCol idx) e d).trans ?_
  refine congrArg (fun r => x (ix2 r d)) (Fin.ext ?_)
  show min (wrapCol idx (ix2 e 0)).toInt.toNat (50000 - 1) = min (idx (ix1 e)).toInt.toNat 49999
  rw [wrapCol_apply idx e 0 (hlo e)]

end Cert.KernelIdeal.Host

end
-- ==== Proof.KArgs.lean ====
import proofs.«415187_j438086664593_2_alg».proof.Proof.Gen.KernelIdeal.Frame
import Idealize.ShloMosaic.Lib.StableHlo.Run
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## An argument buffer at region 0's entry is as launched -/

theorem W3_arg0 (c : Dev nD) : W3 m ρ c (Proc.devRef .tc main_arg0) = m ((c : Thread nD τ).loc main_arg0) := by
  dsimp only [W3, W2, W1, hostOps0, hostOps0_1, hostOps0_2]
  after_results
theorem W3_arg1 (c : Dev nD) : W3 m ρ c (Proc.devRef .tc main_arg1) = m ((c : Thread nD τ).loc main_arg1) := by
  dsimp only [W3, W2, W1, hostOps0, hostOps0_1, hostOps0_2]
  after_results
theorem W3_arg2 (c : Dev nD) : W3 m ρ c (Proc.devRef .tc main_arg2) = m ((c : Thread nD τ).loc main_arg2) := by
  dsimp only [W3, W2, W1, hostOps0, hostOps0_1, hostOps0_2]
  after_results
theorem W3_arg3 (c : Dev nD) : W3 m ρ c (Proc.devRef .tc main_arg3) = m ((c : Thread nD τ).loc main_arg3) := by
  dsimp only [W3, W2, W1, hostOps0, hostOps0_1, hostOps0_2]
  after_results
theorem W3_arg4 (c : Dev nD) : W3 m ρ c (Proc.devRef .tc main_arg4) = m ((c : Thread nD τ).loc main_arg4) := by
  dsimp only [W3, W2, W1, hostOps0, hostOps0_1, hostOps0_2]
  after_results
theorem W3_arg5 (c : Dev nD) : W3 m ρ c (Proc.devRef .tc main_arg5) = m ((c : Thread nD τ).loc main_arg5) := by
  dsimp only [W3, W2, W1, hostOps0, hostOps0_1, hostOps0_2]
  after_results
theorem W3_arg6 (c : Dev nD) : W3 m ρ c (Proc.devRef .tc main_arg6) = m ((c : Thread nD τ).loc main_arg6) := by
  dsimp only [W3, W2, W1, hostOps0, hostOps0_1, hostOps0_2]
  after_results
theorem W3_arg7 (c : Dev nD) : W3 m ρ c (Proc.devRef .tc main_arg7) = m ((c : Thread nD τ).loc main_arg7) := by
  dsimp only [W3, W2, W1, hostOps0, hostOps0_1, hostOps0_2]
  after_results
theorem W3_arg8 (c : Dev nD) : W3 m ρ c (Proc.devRef .tc main_arg8) = m ((c : Thread nD τ).loc main_arg8) := by
  dsimp only [W3, W2, W1, hostOps0, hostOps0_1, hostOps0_2]
  after_results

/-! ## The arguments region 3 reads are as launched -/

theorem V10_arg0 (c : Dev nD) : V10 m ρ c main_arg0 = m ((c : Thread nD τ).loc main_arg0) :=
  ((W11_arr m ρ c 0).trans (((dat3 (V10 m ρ) c).arrAt_in 0 rfl _).trans (A_eq3 (V10 m ρ) c 0))).symm.trans (W11_main_arg0 m ρ c)
theorem V10_arg13 (c : Dev nD) : V10 m ρ c main_arg13 = m ((c : Thread nD τ).loc main_arg13) :=
  ((W11_arr m ρ c 4).trans (((dat3 (V10 m ρ) c).arrAt_in 4 rfl _).trans (A_eq3 (V10 m ρ) c 4))).symm.trans (W11_main_arg13 m ρ c)
theorem V10_arg14 (c : Dev nD) : V10 m ρ c main_arg14 = m ((c : Thread nD τ).loc main_arg14) :=
  ((W11_arr m ρ c 5).trans (((dat3 (V10 m ρ) c).arrAt_in 5 rfl _).trans (A_eq3 (V10 m ρ) c 5))).symm.trans (W11_main_arg14 m ρ c)
theorem V10_arg15 (c : Dev nD) : V10 m ρ c main_arg15 = m ((c : Thread nD τ).loc main_arg15) :=
  ((W11_arr m ρ c 6).trans (((dat3 (V10 m ρ) c).arrAt_in 6 rfl _).trans (A_eq3 (V10 m ρ) c 6))).symm.trans (W11_main_arg15 m ρ c)
theorem V10_arg16 (c : Dev nD) : V10 m ρ c main_arg16 = m ((c : Thread nD τ).loc main_arg16) :=
  ((W11_arr m ρ c 7).trans (((dat3 (V10 m ρ) c).arrAt_in 7 rfl _).trans (A_eq3 (V10 m ρ) c 7))).symm.trans (W11_main_arg16 m ρ c)
theorem V10_arg9 (c : Dev nD) : V10 m ρ c main_arg9 = m ((c : Thread nD τ).loc main_arg9) :=
  ((W11_arr m ρ c 8).trans (((dat3 (V10 m ρ) c).arrAt_in 8 rfl _).trans (A_eq3 (V10 m ρ) c 8))).symm.trans (W11_main_arg9 m ρ c)
theorem V10_arg10 (c : Dev nD) : V10 m ρ c main_arg10 = m ((c : Thread nD τ).loc main_arg10) :=
  ((W11_arr m ρ c 9).trans (((dat3 (V10 m ρ) c).arrAt_in 9 rfl _).trans (A_eq3 (V10 m ρ) c 9))).symm.trans (W11_main_arg10 m ρ c)
theorem V10_arg11 (c : Dev nD) : V10 m ρ c main_arg11 = m ((c : Thread nD τ).loc main_arg11) :=
  ((W11_arr m ρ c 10).trans (((dat3 (V10 m ρ) c).arrAt_in 10 rfl _).trans (A_eq3 (V10 m ρ) c 10))).symm.trans (W11_main_arg11 m ρ c)
theorem V10_arg12 (c : Dev nD) : V10 m ρ c main_arg12 = m ((c : Thread nD τ).loc main_arg12) :=
  ((W11_arr m ρ c 11).trans (((dat3 (V10 m ρ) c).arrAt_in 11 rfl _).trans (A_eq3 (V10 m ρ) c 11))).symm.trans (W11_main_arg12 m ρ c)
theorem V10_arg17 (c : Dev nD) : V10 m ρ c main_arg17 = m ((c : Thread nD τ).loc main_arg17) :=
  ((W11_arr m ρ c 12).trans (((dat3 (V10 m ρ) c).arrAt_in 12 rfl _).trans (A_eq3 (V10 m ρ) c 12))).symm.trans (W11_main_arg17 m ρ c)
theorem V10_arg18 (c : Dev nD) : V10 m ρ c main_arg18 = m ((c : Thread nD τ).loc main_arg18) :=
  ((W11_arr m ρ c 13).trans (((dat3 (V10 m ρ) c).arrAt_in 13 rfl _).trans (A_eq3 (V10 m ρ) c 13))).symm.trans (W11_main_arg18 m ρ c)
theorem V10_arg19 (c : Dev nD) : V10 m ρ c main_arg19 = m ((c : Thread nD τ).loc main_arg19) :=
  ((W11_arr m ρ c 14).trans (((dat3 (V10 m ρ) c).arrAt_in 14 rfl _).trans (A_eq3 (V10 m ρ) c 14))).symm.trans (W11_main_arg19 m ρ c)
theorem V10_arg20 (c : Dev nD) : V10 m ρ c main_arg20 = m ((c : Thread nD τ).loc main_arg20) :=
  ((W11_arr m ρ c 15).trans (((dat3 (V10 m ρ) c).arrAt_in 15 rfl _).trans (A_eq3 (V10 m ρ) c 15))).symm.trans (W11_main_arg20 m ρ c)

end Cert.KernelIdeal.Chain

end
-- ==== Proof.KChainA.lean ====
/-
  The kernel program's buffers at region 0's entry, after the leading host operations: the two index columns are rows
  0 and 1 of the index array; the grouping matrix is 1 exactly where feature d lies in head hh (d / 16 = hh), its
  comparison table decided entry by entry; the second grouping matrix is its transpose.
-/
import proofs.«415187_j438086664593_2_alg».proof.Proof.Gen.KernelIdeal.Frame
import proofs.«415187_j438086664593_2_alg».proof.Proof.KSpec
import proofs.«415187_j438086664593_2_alg».proof.Proof.KHost
import proofs.«415187_j438086664593_2_alg».proof.Proof.KArgs
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Spec Cert.KSpec

variable (m : (ℓ : Loc nD τ sig) → Buf (Elt Ideal) ℓ) (ρ : Dev nD → PrngReg)

theorem W3_v1 (c : Dev nD) : W3 m ρ c (Proc.devRef .tc main_v1) = Host.srcCol (m ((c : Thread nD τ).loc main_arg1)) := by
  dsimp only [W3, W2, W1, hostOps0, hostOps0_1, hostOps0_2]
  after_results <;> rfl

theorem W3_v3 (c : Dev nD) : W3 m ρ c (Proc.devRef .tc main_v3) = Host.dstCol (m ((c : Thread nD τ).loc main_arg1)) := by
  dsimp only [W3, W2, W1, hostOps0, hostOps0_1, hostOps0_2]
  after_results <;> rfl

/-- The comparison table, the grouping matrix and its transpose at region 0's entry, by their literal types. -/
abbrev cmpT (c : Dev nD) : S128x8.Idx → BitVec 1 := W3 m ρ c (Proc.devRef .tc main_v11)
abbrev gA (c : Dev nD) : A2 128 8 := W3 m ρ c (Proc.devRef .tc main_v12)
abbrev gtA (c : Dev nD) : A2 8 128 := W3 m ρ c (Proc.devRef .tc main_v13)

set_option maxHeartbeats 4000000 in
/-- The comparison table: 1 exactly where feature d is in head hh. -/
theorem cmpT_toNat (c : Dev nD) : ∀ (d : Fin 128) (hh : Fin 8),
    BitVec.toNat (w := 1) (cmpT m ρ c (ix2 d hh)) = if d.val / 16 = hh.val then 1 else 0 := by
  dsimp only [cmpT, W3, W2, W1, hostOps0, hostOps0_1, hostOps0_2]
  after_results_simp
  decide +kernel

set_option maxHeartbeats 4000000 in
theorem gA_eq (c : Dev nD) : gA m ρ c = uitofp (F := Ideal) .f32 (cmpT m ρ c) := by
  dsimp only [gA, cmpT, W3, W2, W1, hostOps0, hostOps0_1, hostOps0_2]
  after_results_simp <;> rfl

set_option maxHeartbeats 4000000 in
theorem gtA_eq (c : Dev nD) : gtA m ρ c = transpose S8x128 [1, 0] (gA m ρ c) transposes_S128x8_S8x128_1_0 := by
  dsimp only [gtA, gA, W3, W2, W1, hostOps0, hostOps0_1, hostOps0_2]
  after_results_simp <;> rfl

/-- The grouping matrix: 1 where feature d is in head hh, else 0. -/
theorem gA_apply (c : Dev nD) (d : Fin 128) (hh : Fin 8) :
    gA m ρ c (ix2 d hh) = if hd d = hh then (1 : EReal) else 0 := by
  rw [gA_eq]
  show (((BitVec.toNat (w := 1) (cmpT m ρ c (ix2 d hh)) : ℕ) : ℝ) : EReal) = _
  rw [cmpT_toNat]
  have hiff : (hd d = hh) ↔ d.val / 16 = hh.val := Fin.ext_iff
  by_cases h : d.val / 16 = hh.val
  · rw [if_pos h, if_pos (hiff.mpr h)]; simp
  · rw [if_neg h, if_neg (fun h' => h (hiff.mp h'))]; simp

/-- Its transpose. -/
theorem gtA_apply (c : Dev nD) (hh : Fin 8) (d : Fin 128) :
    gtA m ρ c (ix2 hh d) = if hd d = hh then (1 : EReal) else 0 := by
  rw [gtA_eq]
  refine (transpose_apply [1, 0] (gA m ρ c) transposes_S128x8_S8x128_1_0 (ix2 hh d) (ix2 d hh) (fun b => ?_)).trans
    (gA_apply m ρ c d hh)
  match b with
  | ⟨0, _⟩ => rfl
  | ⟨1, _⟩ => rfl

end Cert.KernelIdeal.Chain

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KReg0.lean ====
/-
  REGION 0 (the Q, K, V projections). Each of its three output arrays, after the region has run from entry contents
  V, holds the rows-by-columns product of the node features (the array window 0 stages) with one weight matrix
  (windows 1, 2, 3): point t of the grid computes rows 5000 t … 5000 t + 4999 from the same rows of the features and
  the whole weight matrix, and the ten points' blocks tile the 50000 rows.
-/
import proofs.«415187_j438086664593_2_alg».proof.Proof.Gen.KernelIdeal.Frame
import proofs.«415187_j438086664593_2_alg».proof.Proof.Spec
import proofs.«415187_j438086664593_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at an entry of the block: row p of the features' block times column q of the weights. -/
theorem pay2_apply (x0 : Vec Ideal S5000x128 .f32) (w : Vec Ideal S128x128 .f32) (p : Fin 5000) (q : Fin 128) :
    k0_pay2 x0 w (ix2 p q) = ∑ k : Fin 128, (x0 (ix2 p k) : EReal) * (w (ix2 k q) : EReal) := by
  unfold k0_pay2 k0_pay1
  exact Cert.Lib.Matmul.matmul_zero_apply (A := 5000) (K := 128) (C := 128) none _ _ p q

/-- The printed index maps over the grid: the features' block and the output's block are block t of the rows, the
    weights' block is the whole matrix. -/
theorem idx_facts4 : ∀ t : Fin cfg0.N, win0_0.index t (0 : Fin 2) = t.val ∧ win0_0.index t (1 : Fin 2) = 0
    ∧ win0_1.index t (0 : Fin 2) = 0 ∧ win0_1.index t (1 : Fin 2) = 0
    ∧ win0_4.index t (0 : Fin 2) = t.val ∧ win0_4.index t (1 : Fin 2) = 0 :=
  (by decide +kernel : ∀ t : Fin grid0.N, _)

/-- The whole-array function window 4 ends holding. -/
abbrev G4 (c : Dev nD) : S50000x128.Idx → EReal := fun i =>
  Cert.Spec.mm (V c main_arg0) (V c main_arg3) (i 0) (i 1)

/-- What point t writes back is block t of G4. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  obtain ⟨e0, e1, e2, e3, e4, e5⟩ := idx_facts4 t
  funext j
  obtain ⟨p, q, rfl⟩ : ∃ (p : Fin 5000) (q : Fin 128), j = ix2 p q := ⟨j 0, j 1, eq_ix2 j⟩
  show k0_pay2 (iblk0 V c 0 t) (iblk0 V c 1 t) (ix2 p q) = G4 V c (((cfg0.win 4).blk t).view.emb (ix2 p q))
  refine (pay2_apply (iblk0 V c 0 t) (iblk0 V c 1 t) p q).trans ?_
  show _ = Cert.Spec.mm (V c main_arg0) (V c main_arg3) ((((cfg0.win 4).blk t).view.emb (ix2 p q)) 0)
    ((((cfg0.win 4).blk t).view.emb (ix2 p q)) 1)
  unfold Cert.Spec.mm
  refine Finset.sum_congr rfl fun k _ => ?_
  have h0 : (iblk0 V c 0 t : Vec Ideal S5000x128 .f32) (ix2 p k)
      = V c main_arg0 (ix2 (((cfg0.win 4).blk t).view.emb (ix2 p q) 0) k) := by
    show V c main_arg0 (((cfg0.win 0).blk t).view.emb (ix2 p k)) = _
    congr 1
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have h1 : (iblk0 V c 1 t : Vec Ideal S128x128 .f32) (ix2 k q)
      = V c main_arg3 (ix2 k (((cfg0.win 4).blk t).view.emb (ix2 p q) 1)) := by
    show V c main_arg3 (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 128 + 1 * q.val = win0_4.index t (1 : Fin 2) * 128 + 1 * q.val; omega
  rw [h0, h1]

/-- An index of the array is in point t's block iff each coordinate is in the block's range on its axis. -/
theorem mem_blk4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v14_0).slice (win0_4.rect t)).set ↔ _
  rw [View.set_slice_whole, Rect.mem_set_unit]
  exact Iff.rfl

/-- Every row is in the block of the point (row / 5000). -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_4 _, ?_⟩
  rw [mem_blk4]
  obtain ⟨e0, e1, e2, e3, e4, e5⟩ := idx_facts4 ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e4]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e5]; omega

/-- THE ARRAY after the region: the product of the features with the first weight matrix. -/
theorem final4 (c : Dev nD) : (dat0 V c).arrAt 4 cfg0.N = G4 V c :=
  (dat0 V c).arrAt_eq_of_cover 4 (G4 V c) (fun t _ => flushed4_eq V c t) (cover4)

end Cert.KernelIdeal.Reg0

end
-- ==== Proof.KReg0w5.lean ====
/-
  REGION 0 (the Q, K, V projections). Each of its three output arrays, after the region has run from entry contents
  V, holds the rows-by-columns product of the node features (the array window 0 stages) with one weight matrix
  (windows 1, 2, 3): point t of the grid computes rows 5000 t … 5000 t + 4999 from the same rows of the features and
  the whole weight matrix, and the ten points' blocks tile the 50000 rows.
-/
import proofs.«415187_j438086664593_2_alg».proof.Proof.Gen.KernelIdeal.Frame
import proofs.«415187_j438086664593_2_alg».proof.Proof.Spec
import proofs.«415187_j438086664593_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Reg0w5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at an entry of the block: row p of the features' block times column q of the weights. -/
theorem pay2_apply (x0 : Vec Ideal S5000x128 .f32) (w : Vec Ideal S128x128 .f32) (p : Fin 5000) (q : Fin 128) :
    k0_pay3 x0 w (ix2 p q) = ∑ k : Fin 128, (x0 (ix2 p k) : EReal) * (w (ix2 k q) : EReal) := by
  unfold k0_pay3 k0_pay1
  exact Cert.Lib.Matmul.matmul_zero_apply (A := 5000) (K := 128) (C := 128) none _ _ p q

/-- The printed index maps over the grid: the features' block and the output's block are block t of the rows, the
    weights' block is the whole matrix. -/
theorem idx_facts5 : ∀ t : Fin cfg0.N, win0_0.index t (0 : Fin 2) = t.val ∧ win0_0.index t (1 : Fin 2) = 0
    ∧ win0_2.index t (0 : Fin 2) = 0 ∧ win0_2.index t (1 : Fin 2) = 0
    ∧ win0_5.index t (0 : Fin 2) = t.val ∧ win0_5.index t (1 : Fin 2) = 0 :=
  (by decide +kernel : ∀ t : Fin grid0.N, _)

/-- The whole-array function window 4 ends holding. -/
abbrev G5 (c : Dev nD) : S50000x128.Idx → EReal := fun i =>
  Cert.Spec.mm (V c main_arg0) (V c main_arg4) (i 0) (i 1)

/-- What point t writes back is block t of G5. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz]
  obtain ⟨e0, e1, e2, e3, e4, e5⟩ := idx_facts5 t
  funext j
  obtain ⟨p, q, rfl⟩ : ∃ (p : Fin 5000) (q : Fin 128), j = ix2 p q := ⟨j 0, j 1, eq_ix2 j⟩
  show k0_pay3 (iblk0 V c 0 t) (iblk0 V c 2 t) (ix2 p q) = G5 V c (((cfg0.win 5).blk t).view.emb (ix2 p q))
  refine (pay2_apply (iblk0 V c 0 t) (iblk0 V c 2 t) p q).trans ?_
  show _ = Cert.Spec.mm (V c main_arg0) (V c main_arg4) ((((cfg0.win 5).blk t).view.emb (ix2 p q)) 0)
    ((((cfg0.win 5).blk t).view.emb (ix2 p q)) 1)
  unfold Cert.Spec.mm
  refine Finset.sum_congr rfl fun k _ => ?_
  have h0 : (iblk0 V c 0 t : Vec Ideal S5000x128 .f32) (ix2 p k)
      = V c main_arg0 (ix2 (((cfg0.win 5).blk t).view.emb (ix2 p q) 0) k) := by
    show V c main_arg0 (((cfg0.win 0).blk t).view.emb (ix2 p k)) = _
    congr 1
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have h1 : (iblk0 V c 2 t : Vec Ideal S128x128 .f32) (ix2 k q)
      = V c main_arg4 (ix2 k (((cfg0.win 5).blk t).view.emb (ix2 p q) 1)) := by
    show V c main_arg4 (((cfg0.win 2).blk t).view.emb (ix2 k q)) = _
    congr 1
    funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  rw [h0, h1]

/-- An index of the array is in point t's block iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v14_1).slice (win0_5.rect t)).set ↔ _
  rw [View.set_slice_whole, Rect.mem_set_unit]
  exact Iff.rfl

/-- Every row is in the block of the point (row / 5000). -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  rw [mem_blk5]
  obtain ⟨e0, e1, e2, e3, e4, e5⟩ := idx_facts5 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e4]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e5]; omega

/-- THE ARRAY after the region: the product of the features with the first weight matrix. -/
theorem final5 (c : Dev nD) : (dat0 V c).arrAt 5 cfg0.N = G5 V c :=
  (dat0 V c).arrAt_eq_of_cover 5 (G5 V c) (fun t _ => flushed5_eq V c t) (cover5)

end Cert.KernelIdeal.Reg0w5

end
-- ==== Proof.KReg0w6.lean ====
/-
  REGION 0 (the Q, K, V projections). Each of its three output arrays, after the region has run from entry contents
  V, holds the rows-by-columns product of the node features (the array window 0 stages) with one weight matrix
  (windows 1, 2, 3): point t of the grid computes rows 5000 t … 5000 t + 4999 from the same rows of the features and
  the whole weight matrix, and the ten points' blocks tile the 50000 rows.
-/
import proofs.«415187_j438086664593_2_alg».proof.Proof.Gen.KernelIdeal.Frame
import proofs.«415187_j438086664593_2_alg».proof.Proof.Spec
import proofs.«415187_j438086664593_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Reg0w6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at an entry of the block: row p of the features' block times column q of the weights. -/
theorem pay2_apply (x0 : Vec Ideal S5000x128 .f32) (w : Vec Ideal S128x128 .f32) (p : Fin 5000) (q : Fin 128) :
    k0_pay4 x0 w (ix2 p q) = ∑ k : Fin 128, (x0 (ix2 p k) : EReal) * (w (ix2 k q) : EReal) := by
  unfold k0_pay4 k0_pay1
  exact Cert.Lib.Matmul.matmul_zero_apply (A := 5000) (K := 128) (C := 128) none _ _ p q

/-- The printed index maps over the grid: the features' block and the output's block are block t of the rows, the
    weights' block is the whole matrix. -/
theorem idx_facts6 : ∀ t : Fin cfg0.N, win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-- The whole-array function window 4 ends holding. -/
abbrev G6 (c : Dev nD) : S50000x128.Idx → EReal := fun i =>
  Cert.Spec.mm (V c main_arg0) (V c main_arg5) (i 0) (i 1)

/-- What point t writes back is block t of G6. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz]
  obtain ⟨e0, e1, e2, e3, e4, e5⟩ := idx_facts6 t
  funext j
  obtain ⟨p, q, rfl⟩ : ∃ (p : Fin 5000) (q : Fin 128), j = ix2 p q := ⟨j 0, j 1, eq_ix2 j⟩
  show k0_pay4 (iblk0 V c 0 t) (iblk0 V c 3 t) (ix2 p q) = G6 V c (((cfg0.win 6).blk t).view.emb (ix2 p q))
  refine (pay2_apply (iblk0 V c 0 t) (iblk0 V c 3 t) p q).trans ?_
  show _ = Cert.Spec.mm (V c main_arg0) (V c main_arg5) ((((cfg0.win 6).blk t).view.emb (ix2 p q)) 0)
    ((((cfg0.win 6).blk t).view.emb (ix2 p q)) 1)
  unfold Cert.Spec.mm
  refine Finset.sum_congr rfl fun k _ => ?_
  have h0 : (iblk0 V c 0 t : Vec Ideal S5000x128 .f32) (ix2 p k)
      = V c main_arg0 (ix2 (((cfg0.win 6).blk t).view.emb (ix2 p q) 0) k) := by
    show V c main_arg0 (((cfg0.win 0).blk t).view.emb (ix2 p k)) = _
    congr 1
    funext a; apply Fin.ext
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  have h1 : (iblk0 V c 3 t : Vec Ideal S128x128 .f32) (ix2 k q)
      = V c main_arg5 (ix2 k (((cfg0.win 6).blk t).view.emb (ix2 p q) 1)) := by
    show V c main_arg5 (((cfg0.win 3).blk t).view.emb (ix2 k q)) = _
    congr 1
    funext a; apply Fin.ext
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  rw [h0, h1]

/-- An index of the array is in point t's block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v14_2).slice (win0_6.rect t)).set ↔ _
  rw [View.set_slice_whole, Rect.mem_set_unit]
  exact Iff.rfl

/-- Every row is in the block of the point (row / 5000). -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_6 _, ?_⟩
  rw [mem_blk6]
  obtain ⟨e0, e1, e2, e3, e4, e5⟩ := idx_facts6 ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e4]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e5]; omega

/-- THE ARRAY after the region: the product of the features with the first weight matrix. -/
theorem final6 (c : Dev nD) : (dat0 V c).arrAt 6 cfg0.N = G6 V c :=
  (dat0 V c).arrAt_eq_of_cover 6 (G6 V c) (fun t _ => flushed6_eq V c t) (cover6)

end Cert.KernelIdeal.Reg0w6

end
-- ==== Proof.KReg1w4.lean ====
/-
  REGION 1 (the edge projections), first output. Each of its three output arrays, after the region has run from entry contents
  V, holds the rows-by-columns product of the node features (the array window 0 stages) with one weight matrix
  (windows 1, 2, 3): point t of the grid computes rows 8000 t … 8000 t + 7999 from the same rows of the features and
  the whole weight matrix, and the hundred points' blocks tile the 800000 rows.
-/
import proofs.«415187_j438086664593_2_alg».proof.Proof.Gen.KernelIdeal.Frame
import proofs.«415187_j438086664593_2_alg».proof.Proof.Spec
import proofs.«415187_j438086664593_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Reg1w4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at an entry of the block: row p of the features' block times column q of the weights. -/
theorem pay2_apply (x0 : Vec Ideal S8000x128 .f32) (w : Vec Ideal S128x128 .f32) (p : Fin 8000) (q : Fin 128) :
    k1_pay2 x0 w (ix2 p q) = ∑ k : Fin 128, (x0 (ix2 p k) : EReal) * (w (ix2 k q) : EReal) := by
  unfold k1_pay2 k1_pay1
  exact Cert.Lib.Matmul.matmul_zero_apply (A := 8000) (K := 128) (C := 128) none _ _ p q

/-- The printed index maps over the grid: the features' block and the output's block are block t of the rows, the
    weights' block is the whole matrix. -/
theorem idx_facts4 : ∀ t : Fin cfg1.N, win1_0.index t (0 : Fin 2) = t.val ∧ win1_0.index t (1 : Fin 2) = 0
    ∧ win1_1.index t (0 : Fin 2) = 0 ∧ win1_1.index t (1 : Fin 2) = 0
    ∧ win1_4.index t (0 : Fin 2) = t.val ∧ win1_4.index t (1 : Fin 2) = 0 :=
  (by decide +kernel : ∀ t : Fin grid1.N, _)

/-- The whole-array function window 4 ends holding. -/
abbrev G4 (c : Dev nD) : S800000x128.Idx → EReal := fun i =>
  Cert.Spec.mm (V c main_arg2) (V c main_arg6) (i 0) (i 1)

/-- What point t writes back is block t of G4. -/
theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S8000x128) hz, View.ld_unit_zero (S := S128x128) hz]
  obtain ⟨e0, e1, e2, e3, e4, e5⟩ := idx_facts4 t
  funext j
  obtain ⟨p, q, rfl⟩ : ∃ (p : Fin 8000) (q : Fin 128), j = ix2 p q := ⟨j 0, j 1, eq_ix2 j⟩
  show k1_pay2 (iblk1 V c 0 t) (iblk1 V c 1 t) (ix2 p q) = G4 V c (((cfg1.win 4).blk t).view.emb (ix2 p q))
  refine (pay2_apply (iblk1 V c 0 t) (iblk1 V c 1 t) p q).trans ?_
  show _ = Cert.Spec.mm (V c main_arg2) (V c main_arg6) ((((cfg1.win 4).blk t).view.emb (ix2 p q)) 0)
    ((((cfg1.win 4).blk t).view.emb (ix2 p q)) 1)
  unfold Cert.Spec.mm
  refine Finset.sum_congr rfl fun k _ => ?_
  have h0 : (iblk1 V c 0 t : Vec Ideal S8000x128 .f32) (ix2 p k)
      = V c main_arg2 (ix2 (((cfg1.win 4).blk t).view.emb (ix2 p q) 0) k) := by
    show V c main_arg2 (((cfg1.win 0).blk t).view.emb (ix2 p k)) = _
    congr 1
    funext a; apply Fin.ext
    match a with
    | ⟨0, _⟩ => show win1_0.index t (0 : Fin 2) * 8000 + 1 * p.val = win1_4.index t (0 : Fin 2) * 8000 + 1 * p.val; omega
    | ⟨1, _⟩ => show win1_0.index t (1 : Fin 2) * 128 + 1 * k.val = k.val; omega
  have h1 : (iblk1 V c 1 t : Vec Ideal S128x128 .f32) (ix2 k q)
      = V c main_arg6 (ix2 k (((cfg1.win 4).blk t).view.emb (ix2 p q) 1)) := by
    show V c main_arg6 (((cfg1.win 1).blk t).view.emb (ix2 k q)) = _
    congr 1
    funext a; apply Fin.ext
    match a with
    | ⟨0, _⟩ => show win1_1.index t (0 : Fin 2) * 128 + 1 * k.val = k.val; omega
    | ⟨1, _⟩ => show win1_1.index t (1 : Fin 2) * 128 + 1 * q.val = win1_4.index t (1 : Fin 2) * 128 + 1 * q.val; omega
  rw [h0, h1]

/-- An index of the array is in point t's block iff each coordinate is in the block's range on its axis. -/
theorem mem_blk4 (t : Fin cfg1.N) (i : S800000x128.Idx) :
    i ∈ ((cfg1.win 4).blk t).view.set ↔ ∀ a : Fin 2, win1_4.index t a * S8000x128.size a ≤ (i a).val
      ∧ (i a).val < win1_4.index t a * S8000x128.size a + S8000x128.size a := by
  show i ∈ ((View.whole main_v15_0).slice (win1_4.rect t)).set ↔ _
  rw [View.set_slice_whole, Rect.mem_set_unit]
  exact Iff.rfl

/-- Every row is in the block of the point (row / 8000). -/
theorem cover4 (i : S800000x128.Idx) :
    ∃ t : Fin cfg1.N, (cfg1.win 4).flush t = true ∧ i ∈ ((cfg1.win 4).blk t).view.set := by
  have hi0 : (i 0).val < 800000 := (i 0).isLt
  have hi1 : (i 1).val < 128 := (i 1).isLt
  have hN : cfg1.N = 100 := N_1
  refine ⟨⟨(i 0).val / 8000, by rw [hN]; omega⟩, flush1_4 _, ?_⟩
  rw [mem_blk4]
  obtain ⟨e0, e1, e2, e3, e4, e5⟩ := idx_facts4 ⟨(i 0).val / 8000, by rw [hN]; omega⟩
  intro a
  match a with
  | ⟨0, _⟩ =>
    show win1_4.index _ (0 : Fin 2) * 8000 ≤ (i 0).val ∧ (i 0).val < win1_4.index _ (0 : Fin 2) * 8000 + 8000
    rw [e4]; show (i 0).val / 8000 * 8000 ≤ (i 0).val ∧ (i 0).val < (i 0).val / 8000 * 8000 + 8000; omega
  | ⟨1, _⟩ =>
    show win1_4.index _ (1 : Fin 2) * 128 ≤ (i 1).val ∧ (i 1).val < win1_4.index _ (1 : Fin 2) * 128 + 128
    rw [e5]; omega

/-- THE ARRAY after the region: the product of the features with the first weight matrix. -/
theorem final4 (c : Dev nD) : (dat1 V c).arrAt 4 cfg1.N = G4 V c :=
  (dat1 V c).arrAt_eq_of_cover 4 (G4 V c) (fun t _ => flushed4_eq V c t) (cover4)

end Cert.KernelIdeal.Reg1w4

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KReg1w5.lean ====
/-
  REGION 1 (the edge projections), second output: the edge bias. After the region has run from entry contents V the
  array holds, at (e, hh), row e of the edge features times column hh of the [128, 8] weight matrix, plus entry hh
  of the bias vector: point t of the grid computes rows 8000 t … 8000 t + 7999 from the same rows of the edge
  features, the whole weight matrix and the whole bias vector, and the hundred points' blocks tile the 800000 rows.
-/
import proofs.«415187_j438086664593_2_alg».proof.Proof.Gen.KernelIdeal.Frame
import proofs.«415187_j438086664593_2_alg».proof.Proof.KSpec
import proofs.«415187_j438086664593_2_alg».proof.Proof.LibMatmul
import proofs.«415187_j438086664593_2_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.Reg1w5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The body's value at an entry of the block: row p of the features' block times column q of the weights, plus
    entry q of the bias. -/
theorem pay3_apply (x0 : Vec Ideal S8000x128 .f32) (w : Vec Ideal S128x8 .f32) (b : Vec Ideal S8 .f32)
    (p : Fin 8000) (q : Fin 8) :
    k1_pay3 x0 w b (ix2 p q) = (∑ k : Fin 128, (x0 (ix2 p k) : EReal) * (w (ix2 k q) : EReal)) + (b (ix1 q) : EReal) := by
  unfold k1_pay3 k1_pay1
  show (_ : EReal) + _ = _
  congr 1
  · exact Cert.Lib.Matmul.matmul_zero_apply (A := 8000) (K := 128) (C := 8) none _ _ p q
  · exact Cert.Lib.Layout.bcastRow_apply (A := 8000) (B := 8) b _ _ p q

/-- The printed index maps over the grid. -/
theorem idx_facts5 : ∀ t : Fin cfg1.N, win1_0.index t (0 : Fin 2) = t.val ∧ win1_0.index t (1 : Fin 2) = 0
    ∧ win1_2.index t (0 : Fin 2) = 0 ∧ win1_2.index t (1 : Fin 2) = 0
    ∧ win1_3.index t (0 : Fin 1) = 0
    ∧ win1_5.index t (0 : Fin 2) = t.val ∧ win1_5.index t (1 : Fin 2) = 0 :=
  (by decide +kernel : ∀ t : Fin grid1.N, _)

/-- The whole-array function window 5 ends holding. -/
abbrev G5 (c : Dev nD) : S800000x8.Idx → EReal :=
  Cert.KSpec.mmBias (V c main_arg2) (V c main_arg7) (V c main_arg8)

/-- What point t writes back is block t of G5. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S8000x128) hz, View.ld_unit_zero (S := S128x8) hz, View.ld_unit_zero (S := S8) hz1]
  obtain ⟨e0, e1, e2, e3, e4, e5, e6⟩ := idx_facts5 t
  funext j
  obtain ⟨p, q, rfl⟩ : ∃ (p : Fin 8000) (q : Fin 8), j = ix2 p q := ⟨j 0, j 1, eq_ix2 j⟩
  show k1_pay3 (iblk1 V c 0 t) (iblk1 V c 2 t) (iblk1 V c 3 t) (ix2 p q) = G5 V c (((cfg1.win 5).blk t).view.emb (ix2 p q))
  refine (pay3_apply (iblk1 V c 0 t) (iblk1 V c 2 t) (iblk1 V c 3 t) p q).trans ?_
  show _ = Cert.Spec.mm (V c main_arg2) (V c main_arg7) ((((cfg1.win 5).blk t).view.emb (ix2 p q)) 0)
      ((((cfg1.win 5).blk t).view.emb (ix2 p q)) 1)
    + V c main_arg8 (ix1 ((((cfg1.win 5).blk t).view.emb (ix2 p q)) 1))
  unfold Cert.Spec.mm
  have hb : (iblk1 V c 3 t : Vec Ideal S8 .f32) (ix1 q)
      = V c main_arg8 (ix1 (((cfg1.win 5).blk t).view.emb (ix2 p q) 1)) := by
    show V c main_arg8 (((cfg1.win 3).blk t).view.emb (ix1 q)) = _
    congr 1
    funext a; apply Fin.ext
    match a with
    | ⟨0, _⟩ => show win1_3.index t (0 : Fin 1) * 8 + 1 * q.val = win1_5.index t (1 : Fin 2) * 8 + 1 * q.val; omega
  rw [hb]
  congr 1
  refine Finset.sum_congr rfl fun k _ => ?_
  have h0 : (iblk1 V c 0 t : Vec Ideal S8000x128 .f32) (ix2 p k)
      = V c main_arg2 (ix2 (((cfg1.win 5).blk t).view.emb (ix2 p q) 0) k) := by
    show V c main_arg2 (((cfg1.win 0).blk t).view.emb (ix2 p k)) = _
    congr 1
    funext a; apply Fin.ext
    match a with
    | ⟨0, _⟩ => show win1_0.index t (0 : Fin 2) * 8000 + 1 * p.val = win1_5.index t (0 : Fin 2) * 8000 + 1 * p.val; omega
    | ⟨1, _⟩ => show win1_0.index t (1 : Fin 2) * 128 + 1 * k.val = k.val; omega
  have h1 : (iblk1 V c 2 t : Vec Ideal S128x8 .f32) (ix2 k q)
      = V c main_arg7 (ix2 k (((cfg1.win 5).blk t).view.emb (ix2 p q) 1)) := by
    show V c main_arg7 (((cfg1.win 2).blk t).view.emb (ix2 k q)) = _
    congr 1
    funext a; apply Fin.ext
    match a with
    | ⟨0, _⟩ => show win1_2.index t (0 : Fin 2) * 128 + 1 * k.val = k.val; omega
    | ⟨1, _⟩ => show win1_2.index t (1 : Fin 2) * 8 + 1 * q.val = win1_5.index t (1 : Fin 2) * 8 + 1 * q.val; omega
  rw [h0, h1]

/-- An index of the array is in point t's block iff each coordinate is in the block's range on its axis. -/
theorem mem_blk5 (t : Fin cfg1.N) (i : S800000x8.Idx) :
    i ∈ ((cfg1.win 5).blk t).view.set ↔ ∀ a : Fin 2, win1_5.index t a * S8000x8.size a ≤ (i a).val
      ∧ (i a).val < win1_5.index t a * S8000x8.size a + S8000x8.size a := by
  show i ∈ ((View.whole main_v15_1).slice (win1_5.rect t)).set ↔ _
  rw [View.set_slice_whole, Rect.mem_set_unit]
  exact Iff.rfl

/-- Every row is in the block of the point (row / 8000). -/
theorem cover5 (i : S800000x8.Idx) :
    ∃ t : Fin cfg1.N, (cfg1.win 5).flush t = true ∧ i ∈ ((cfg1.win 5).blk t).view.set := by
  have hi0 : (i 0).val < 800000 := (i 0).isLt
  have hi1 : (i 1).val < 8 := (i 1).isLt
  have hN : cfg1.N = 100 := N_1
  refine ⟨⟨(i 0).val / 8000, by rw [hN]; omega⟩, flush1_5 _, ?_⟩
  rw [mem_blk5]
  obtain ⟨e0, e1, e2, e3, e4, e5, e6⟩ := idx_facts5 ⟨(i 0).val / 8000, by rw [hN]; omega⟩
  intro a
  match a with
  | ⟨0, _⟩ =>
    show win1_5.index _ (0 : Fin 2) * 8000 ≤ (i 0).val ∧ (i 0).val < win1_5.index _ (0 : Fin 2) * 8000 + 8000
    rw [e5]; show (i 0).val / 8000 * 8000 ≤ (i 0).val ∧ (i 0).val < (i 0).val / 8000 * 8000 + 8000; omega
  | ⟨1, _⟩ =>
    show win1_5.index _ (1 : Fin 2) * 8 ≤ (i 1).val ∧ (i 1).val < win1_5.index _ (1 : Fin 2) * 8 + 8
    rw [e6]; omega

/-- THE ARRAY after the region: the edge bias. -/
theorem final5 (c : Dev nD) : (dat1 V c).arrAt 5 cfg1.N = G5 V c :=
  (dat1 V c).arrAt_eq_of_cover 5 (G5 V c) (fun t _ => flushed5_eq V c t) (cover5)

end Cert.KernelIdeal.Reg1w5

end
-- ==== Proof.KChainB.lean ====
/-
  The kernel program's buffers after its first two regions and after the three takes: the three node projections,
  the edge projection and the edge bias as rows-by-columns products of the launch memory's arguments; the three
  gathered arrays as takes of the projections at the index columns; what none of these steps writes is unchanged.
-/
import proofs.«415187_j438086664593_2_alg».proof.Proof.Gen.KernelIdeal.Frame
import proofs.«415187_j438086664593_2_alg».proof.Proof.KChainA
import proofs.«415187_j438086664593_2_alg».proof.Proof.KReg0
import proofs.«415187_j438086664593_2_alg».proof.Proof.KReg0w5
import proofs.«415187_j438086664593_2_alg».proof.Proof.KReg0w6
import proofs.«415187_j438086664593_2_alg».proof.Proof.KReg1w4
import proofs.«415187_j438086664593_2_alg».proof.Proof.KReg1w5
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Spec Cert.KSpec

variable (m : (ℓ : Loc nD τ sig) → Buf (Elt Ideal) ℓ) (ρ : Dev nD → PrngReg)

section Congr
variable (V : (c : Dev nD) → (b : Ref sig .tc) → Buf (Elt Ideal) ((c : Thread nD τ).loc b))

/-- A region's function of its entry contents, with the entry contents of the arrays it reads named. -/
theorem G04_of (c : Dev nD) {a0 : A2 50000 128} {a3 : A2 128 128} (h0 : V c main_arg0 = a0) (h3 : V c main_arg3 = a3) :
    Reg0.G4 V c = mmA a0 a3 := by subst h0; subst h3; rfl
theorem G05_of (c : Dev nD) {a0 : A2 50000 128} {a3 : A2 128 128} (h0 : V c main_arg0 = a0) (h3 : V c main_arg4 = a3) :
    Reg0w5.G5 V c = mmA a0 a3 := by subst h0; subst h3; rfl
theorem G06_of (c : Dev nD) {a0 : A2 50000 128} {a3 : A2 128 128} (h0 : V c main_arg0 = a0) (h3 : V c main_arg5 = a3) :
    Reg0w6.G6 V c = mmA a0 a3 := by subst h0; subst h3; rfl
theorem G14_of (c : Dev nD) {a0 : A2 800000 128} {a3 : A2 128 128} (h0 : V c main_arg2 = a0) (h3 : V c main_arg6 = a3) :
    Reg1w4.G4 V c = mmA a0 a3 := by subst h0; subst h3; rfl
theorem G15_of (c : Dev nD) {a0 : A2 800000 128} {a3 : A2 128 8} {a4 : A1 8} (h0 : V c main_arg2 = a0) (h3 : V c main_arg7 = a3)
    (h4 : V c main_arg8 = a4) : Reg1w5.G5 V c = mmBias a0 a3 a4 := by subst h0; subst h3; subst h4; rfl
end Congr

/-! ## After region 0 and region 1 -/

theorem W4_v14_0 (c : Dev nD) : W4 m ρ c (Proc.devRef .tc main_v14_0) = mmA (m ((c : Thread nD τ).loc main_arg0)) (m ((c : Thread nD τ).loc main_arg3)) :=
  (W4_arr m ρ c 4).trans ((Reg0.final4 (V3 m ρ) c).trans (G04_of (V3 m ρ) c (W3_arg0 m ρ c) (W3_arg3 m ρ c)))
theorem W4_v14_1 (c : Dev nD) : W4 m ρ c (Proc.devRef .tc main_v14_1) = mmA (m ((c : Thread nD τ).loc main_arg0)) (m ((c : Thread nD τ).loc main_arg4)) :=
  (W4_arr m ρ c 5).trans ((Reg0w5.final5 (V3 m ρ) c).trans (G05_of (V3 m ρ) c (W3_arg0 m ρ c) (W3_arg4 m ρ c)))
theorem W4_v14_2 (c : Dev nD) : W4 m ρ c (Proc.devRef .tc main_v14_2) = mmA (m ((c : Thread nD τ).loc main_arg0)) (m ((c : Thread nD τ).loc main_arg5)) :=
  (W4_arr m ρ c 6).trans ((Reg0w6.final6 (V3 m ρ) c).trans (G06_of (V3 m ρ) c (W3_arg0 m ρ c) (W3_arg5 m ρ c)))

theorem W5_v15_0 (c : Dev nD) : W5 m ρ c (Proc.devRef .tc main_v15_0) = mmA (m ((c : Thread nD τ).loc main_arg2)) (m ((c : Thread nD τ).loc main_arg6)) :=
  (W5_arr m ρ c 4).trans ((Reg1w4.final4 (V4 m ρ) c).trans (G14_of (V4 m ρ) c
    ((W4_of_ne m ρ c main_arg2 (by decide)).trans (W3_arg2 m ρ c)) ((W4_of_ne m ρ c main_arg6 (by decide)).trans (W3_arg6 m ρ c))))
theorem W5_v15_1 (c : Dev nD) : W5 m ρ c (Proc.devRef .tc main_v15_1)
    = mmBias (m ((c : Thread nD τ).loc main_arg2)) (m ((c : Thread nD τ).loc main_arg7)) (m ((c : Thread nD τ).loc main_arg8)) :=
  (W5_arr m ρ c 5).trans ((Reg1w5.final5 (V4 m ρ) c).trans (G15_of (V4 m ρ) c
    ((W4_of_ne m ρ c main_arg2 (by decide)).trans (W3_arg2 m ρ c)) ((W4_of_ne m ρ c main_arg7 (by decide)).trans (W3_arg7 m ρ c))
    ((W4_of_ne m ρ c main_arg8 (by decide)).trans (W3_arg8 m ρ c))))

/-- What region 0 and region 1 do not write stays as at region 0's entry. -/
theorem W5_of_W3 (c : Dev nD) (b : Ref sig .tc) (h0 : ∀ w, Pipeline.arrRef spec0 w ≠ b) (h1 : ∀ w, Pipeline.arrRef spec1 w ≠ b) :
    W5 m ρ c (Proc.devRef .tc b) = W3 m ρ c (Proc.devRef .tc b) :=
  (W5_of_ne m ρ c b h1).trans (W4_of_ne m ρ c b h0)

theorem W5_v14_0 (c : Dev nD) : W5 m ρ c (Proc.devRef .tc main_v14_0) = mmA (m ((c : Thread nD τ).loc main_arg0)) (m ((c : Thread nD τ).loc main_arg3)) :=
  (W5_of_ne m ρ c main_v14_0 (by decide)).trans (W4_v14_0 m ρ c)
theorem W5_v14_1 (c : Dev nD) : W5 m ρ c (Proc.devRef .tc main_v14_1) = mmA (m ((c : Thread nD τ).loc main_arg0)) (m ((c : Thread nD τ).loc main_arg4)) :=
  (W5_of_ne m ρ c main_v14_1 (by decide)).trans (W4_v14_1 m ρ c)
theorem W5_v14_2 (c : Dev nD) : W5 m ρ c (Proc.devRef .tc main_v14_2) = mmA (m ((c : Thread nD τ).loc main_arg0)) (m ((c : Thread nD τ).loc main_arg5)) :=
  (W5_of_ne m ρ c main_v14_2 (by decide)).trans (W4_v14_2 m ρ c)
theorem W5_v1 (c : Dev nD) : W5 m ρ c (Proc.devRef .tc main_v1) = Host.srcCol (m ((c : Thread nD τ).loc main_arg1)) :=
  (W5_of_W3 m ρ c main_v1 (by decide) (by decide)).trans (W3_v1 m ρ c)
theorem W5_v3 (c : Dev nD) : W5 m ρ c (Proc.devRef .tc main_v3) = Host.dstCol (m ((c : Thread nD τ).loc main_arg1)) :=
  (W5_of_W3 m ρ c main_v3 (by decide) (by decide)).trans (W3_v3 m ρ c)
theorem W5_v12 (c : Dev nD) : W5 m ρ c (Proc.devRef .tc main_v12) = gA m ρ c :=
  W5_of_W3 m ρ c main_v12 (by decide) (by decide)
theorem W5_v13 (c : Dev nD) : W5 m ρ c (Proc.devRef .tc main_v13) = gtA m ρ c :=
  W5_of_W3 m ρ c main_v13 (by decide) (by decide)

/-! ## Contents carried through a typed reference's transport

A host function's operations address their buffers through typed references; contents pass to and from a buffer
along the equation between the buffer's type and the value's, which is the identity. -/

theorem ofBuf_toBuf' {T : BufTy} (x : StableHlo.TRef sig T) (v : T.Contents (Elt Ideal)) : x.ofBuf (x.toBuf v) = v := by
  obtain ⟨r, h, _, _⟩ := x
  subst h
  rfl

theorem ofBuf_of (r : Ref sig .tc) {T : BufTy} (h1 : r.ty = T) (h2 : r.space ≠ .host) (h3 : r.isScoped = false)
    (v : r.ty.Contents (Elt Ideal)) (w : T.Contents (Elt Ideal)) (hvw : HEq v w) :
    (StableHlo.TRef.of r h1 h2 h3).ofBuf v = w := by
  subst h1; exact eq_of_heq hvw

theorem toBuf_of (r : Ref sig .tc) {T : BufTy} (h1 : r.ty = T) (h2 : r.space ≠ .host) (h3 : r.isScoped = false)
    (v : T.Contents (Elt Ideal)) (w : r.ty.Contents (Elt Ideal)) (hvw : HEq v w) :
    (StableHlo.TRef.of r h1 h2 h3).toBuf v = w := by
  subst h1; exact eq_of_heq hvw

/-! ## The three takes, over any contents X of the boundary before them -/

section Takes
variable (X : Valuation τ sig (Elt Ideal))

set_option maxHeartbeats 4000000 in
theorem take1 : StableHlo.after hostOps2 X (Proc.devRef .tc main_v16)
    = (StableHlo.TRef.of main_v16 : StableHlo.TRef sig ⟨S800000x128, .f32⟩).toBuf
        (Host.takeF ((StableHlo.TRef.of main_v14_1 : StableHlo.TRef sig ⟨S50000x128, .f32⟩).ofBuf (X (Proc.devRef .tc main_v14_1)))
          ((StableHlo.TRef.of main_v1 : StableHlo.TRef sig ⟨S800000, .i32⟩).ofBuf (X (Proc.devRef .tc main_v1)))) := by
  dsimp only [hostOps2]
  after_results_simp
  simp only [ofBuf_toBuf']
  rfl
set_option maxHeartbeats 4000000 in
theorem take2 : StableHlo.after hostOps2_1 X (Proc.devRef .tc main_v17)
    = (StableHlo.TRef.of main_v17 : StableHlo.TRef sig ⟨S800000x128, .f32⟩).toBuf
        (Host.takeF ((StableHlo.TRef.of main_v14_0 : StableHlo.TRef sig ⟨S50000x128, .f32⟩).ofBuf (X (Proc.devRef .tc main_v14_0)))
          ((StableHlo.TRef.of main_v3 : StableHlo.TRef sig ⟨S800000, .i32⟩).ofBuf (X (Proc.devRef .tc main_v3)))) := by
  dsimp only [hostOps2_1]
  after_results_simp
  simp only [ofBuf_toBuf']
  rfl
set_option maxHeartbeats 4000000 in
theorem take3 : StableHlo.after hostOps2_2 X (Proc.devRef .tc main_v18)
    = (StableHlo.TRef.of main_v18 : StableHlo.TRef sig ⟨S800000x128, .f32⟩).toBuf
        (Host.takeF ((StableHlo.TRef.of main_v14_2 : StableHlo.TRef sig ⟨S50000x128, .f32⟩).ofBuf (X (Proc.devRef .tc main_v14_2)))
          ((StableHlo.TRef.of main_v1 : StableHlo.TRef sig ⟨S800000, .i32⟩).ofBuf (X (Proc.devRef .tc main_v1)))) := by
  dsimp only [hostOps2_2]
  after_results_simp
  simp only [ofBuf_toBuf']
  rfl

/-- A take writes only its own call's buffers. -/
theorem keep1 (b : Ref sig .tc) (hb : ∀ op ∈ (hostOps2 : List (HloOp τ sig (Elt Ideal))), Proc.devRef .tc b ∉ op.writes) :
    StableHlo.after hostOps2 X (Proc.devRef .tc b) = X (Proc.devRef .tc b) :=
  StableHlo.after_of_forall_not_mem (b := Proc.devRef .tc b) _ _ hb
theorem keep2 (b : Ref sig .tc) (hb : ∀ op ∈ (hostOps2_1 : List (HloOp τ sig (Elt Ideal))), Proc.devRef .tc b ∉ op.writes) :
    StableHlo.after hostOps2_1 X (Proc.devRef .tc b) = X (Proc.devRef .tc b) :=
  StableHlo.after_of_forall_not_mem (b := Proc.devRef .tc b) _ _ hb
theorem keep3 (b : Ref sig .tc) (hb : ∀ op ∈ (hostOps2_2 : List (HloOp τ sig (Elt Ideal))), Proc.devRef .tc b ∉ op.writes) :
    StableHlo.after hostOps2_2 X (Proc.devRef .tc b) = X (Proc.devRef .tc b) :=
  StableHlo.after_of_forall_not_mem (b := Proc.devRef .tc b) _ _ hb
end Takes

/-- The side condition of keep1 / keep2 / keep3, decided: the buffer is none of the stretch's result buffers. -/
macro "not_written" ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- A buffer none of the three takes writes is at region 2's entry what it was after region 1. -/
theorem W8_of_W5 (c : Dev nD) (b : Ref sig .tc)
    (h1 : ∀ op ∈ (hostOps2 : List (HloOp τ sig (Elt Ideal))), Proc.devRef .tc b ∉ op.writes)
    (h2 : ∀ op ∈ (hostOps2_1 : List (HloOp τ sig (Elt Ideal))), Proc.devRef .tc b ∉ op.writes)
    (h3 : ∀ op ∈ (hostOps2_2 : List (HloOp τ sig (Elt Ideal))), Proc.devRef .tc b ∉ op.writes) :
    W8 m ρ c (Proc.devRef .tc b) = W5 m ρ c (Proc.devRef .tc b) :=
  (keep3 (W7 m ρ c) b h3).trans ((keep2 (W6 m ρ c) b h2).trans (keep1 (W5 m ρ c) b h1))

/-- The gathered arrays at region 2's entry. -/
abbrev ksA (c : Dev nD) : A2 800000 128 := Host.takeF (mmA (m ((c : Thread nD τ).loc main_arg0)) (m ((c : Thread nD τ).loc main_arg4))) (Host.srcCol (m ((c : Thread nD τ).loc main_arg1)))
abbrev qdA (c : Dev nD) : A2 800000 128 := Host.takeF (mmA (m ((c : Thread nD τ).loc main_arg0)) (m ((c : Thread nD τ).loc main_arg3))) (Host.dstCol (m ((c : Thread nD τ).loc main_arg1)))
abbrev vsA (c : Dev nD) : A2 800000 128 := Host.takeF (mmA (m ((c : Thread nD τ).loc main_arg0)) (m ((c : Thread nD τ).loc main_arg5))) (Host.srcCol (m ((c : Thread nD τ).loc main_arg1)))

/-- A take of named operands. -/
theorem takeF_of {x x' : FVec Ideal S50000x128 .f32} {i i' : IVec S800000 32} (hx : x = x') (hi : i = i') :
    Host.takeF x i = Host.takeF x' i' := by subst hx; subst hi; rfl

theorem W8_v16 (c : Dev nD) : W8 m ρ c (Proc.devRef .tc main_v16) = ksA m c :=
  (keep3 (W7 m ρ c) main_v16 (by not_written hostOps2_2)).trans ((keep2 (W6 m ρ c) main_v16 (by not_written hostOps2_1)).trans
    ((take1 (W5 m ρ c)).trans (toBuf_of main_v16 _ _ _ _ _ (heq_of_eq (takeF_of
      (ofBuf_of main_v14_1 _ _ _ _ _ (heq_of_eq (W5_v14_1 m ρ c))) (ofBuf_of main_v1 _ _ _ _ _ (heq_of_eq (W5_v1 m ρ c))))))))
theorem W8_v17 (c : Dev nD) : W8 m ρ c (Proc.devRef .tc main_v17) = qdA m c :=
  (keep3 (W7 m ρ c) main_v17 (by not_written hostOps2_2)).trans ((take2 (W6 m ρ c)).trans (toBuf_of main_v17 _ _ _ _ _ (heq_of_eq (takeF_of
    (ofBuf_of main_v14_0 _ _ _ _ _ (heq_of_eq ((keep1 (W5 m ρ c) main_v14_0 (by not_written hostOps2)).trans (W5_v14_0 m ρ c))))
    (ofBuf_of main_v3 _ _ _ _ _ (heq_of_eq ((keep1 (W5 m ρ c) main_v3 (by not_written hostOps2)).trans (W5_v3 m ρ c))))))))
theorem W8_v18 (c : Dev nD) : W8 m ρ c (Proc.devRef .tc main_v18) = vsA m c :=
  (take3 (W7 m ρ c)).trans (toBuf_of main_v18 _ _ _ _ _ (heq_of_eq (takeF_of
    (ofBuf_of main_v14_2 _ _ _ _ _ (heq_of_eq ((keep2 (W6 m ρ c) main_v14_2 (by not_written hostOps2_1)).trans
      ((keep1 (W5 m ρ c) main_v14_2 (by not_written hostOps2)).trans (W5_v14_2 m ρ c)))))
    (ofBuf_of main_v1 _ _ _ _ _ (heq_of_eq ((keep2 (W6 m ρ c) main_v1 (by not_written hostOps2_1)).trans
      ((keep1 (W5 m ρ c) main_v1 (by not_written hostOps2)).trans (W5_v1 m ρ c))))))))

theorem W8_v15_0 (c : Dev nD) : W8 m ρ c (Proc.devRef .tc main_v15_0) = mmA (m ((c : Thread nD τ).loc main_arg2)) (m ((c : Thread nD τ).loc main_arg6)) :=
  (W8_of_W5 m ρ c main_v15_0 (by not_written hostOps2) (by not_written hostOps2_1) (by not_written hostOps2_2)).trans (W5_v15_0 m ρ c)
theorem W8_v15_1 (c : Dev nD) : W8 m ρ c (Proc.devRef .tc main_v15_1)
    = mmBias (m ((c : Thread nD τ).loc main_arg2)) (m ((c : Thread nD τ).loc main_arg7)) (m ((c : Thread nD τ).loc main_arg8)) :=
  (W8_of_W5 m ρ c main_v15_1 (by not_written hostOps2) (by not_written hostOps2_1) (by not_written hostOps2_2)).trans (W5_v15_1 m ρ c)
theorem W8_v12 (c : Dev nD) : W8 m ρ c (Proc.devRef .tc main_v12) = gA m ρ c :=
  (W8_of_W5 m ρ c main_v12 (by not_written hostOps2) (by not_written hostOps2_1) (by not_written hostOps2_2)).trans (W5_v12 m ρ c)
theorem W8_v13 (c : Dev nD) : W8 m ρ c (Proc.devRef .tc main_v13) = gtA m ρ c :=
  (W8_of_W5 m ρ c main_v13 (by not_written hostOps2) (by not_written hostOps2_1) (by not_written hostOps2_2)).trans (W5_v13 m ρ c)
theorem W8_v3 (c : Dev nD) : W8 m ρ c (Proc.devRef .tc main_v3) = Host.dstCol (m ((c : Thread nD τ).loc main_arg1)) :=
  (W8_of_W5 m ρ c main_v3 (by not_written hostOps2) (by not_written hostOps2_1) (by not_written hostOps2_2)).trans (W5_v3 m ρ c)

end Cert.KernelIdeal.Chain

end
-- ==== Proof.KReg2.lean ====
/-
  REGION 2 (scores and messages). From entry contents V, its first output array ends holding the edge scores and
  its second the messages: point t of the grid computes rows 4000 t … 4000 t + 3999 from the same rows of the five
  edge arrays and the two whole grouping matrices, and the two hundred points' blocks tile the 800000 rows.
-/
import proofs.«415187_j438086664593_2_alg».proof.Proof.Gen.KernelIdeal.Frame
import proofs.«415187_j438086664593_2_alg».proof.Proof.KSpec
import proofs.«415187_j438086664593_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's score, at an entry of the block: exp of the clip to [−5, 5] of a quarter of the sum over the features
    of (ks · qd · ef)(p, d) · g (d, hh), plus the bias at (p, hh). -/
theorem pay1_apply (x0 x1 x3 : Vec Ideal S4000x128 .f32) (x5 : Vec Ideal S128x8 .f32) (x4 : Vec Ideal S4000x8 .f32)
    (p : Fin 4000) (hh : Fin 8) :
    k2_pay1 x0 x1 x3 x5 x4 (ix2 p hh)
      = Ideal.exp (min Cert.Spec.cHi (max Cert.Spec.cLo
          ((∑ d : Fin 128, ((x0 (ix2 p d) : EReal) * (x1 (ix2 p d) : EReal) * (x3 (ix2 p d) : EReal)) * (x5 (ix2 d hh) : EReal))
            * Cert.Spec.cQuarter + (x4 (ix2 p hh) : EReal)))) := by
  unfold k2_pay1
  simp only [shapeCast_self]
  have hm := Cert.Lib.Matmul.matmul_zero_apply (A := 4000) (K := 128) (C := 8) none
    (truncf .bf16 (mulf (mulf x0 x1) x3) bitsLt_bf16_f32) (truncf .bf16 x5 bitsLt_bf16_f32) p hh
  exact congrArg (fun m : EReal => Ideal.exp (min Cert.Spec.cHi (max Cert.Spec.cLo
    (m * Cert.Spec.cQuarter + (x4 (ix2 p hh) : EReal))))) hm

/-- The body's message, at an entry of the block: the value row's entry times the sum over the heads of the block's
    score (p, hh) · gt (hh, q). -/
theorem pay2_apply (x0 x1 x2 x3 : Vec Ideal S4000x128 .f32) (x5 : Vec Ideal S128x8 .f32) (x4 : Vec Ideal S4000x8 .f32)
    (x6 : Vec Ideal S8x128 .f32) (p : Fin 4000) (q : Fin 128) :
    k2_pay2 x0 x1 x2 x3 x5 x4 x6 (ix2 p q)
      = (x2 (ix2 p q) : EReal) * ∑ hh : Fin 8, (k2_pay1 x0 x1 x3 x5 x4 (ix2 p hh) : EReal) * (x6 (ix2 hh q) : EReal) := by
  unfold k2_pay2
  simp only [shapeCast_self]
  have hm := Cert.Lib.Matmul.matmul_zero_apply (A := 4000) (K := 8) (C := 128) (φ₁ := .f32) (φ₂ := .f32) (some .fp32)
    (k2_pay1 x0 x1 x3 x5 x4) x6 p q
  exact congrArg (fun m : EReal => (x2 (ix2 p q) : EReal) * m) hm

/-- The printed index maps over the grid: every row-blocked window's block is block t of the rows, and the two
    grouping matrices' blocks are the whole matrices. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- Row p of point t's block is row 4000 t + p of the array. -/
def rowOf (t : Fin cfg2.N) (p : Fin 4000) : Fin 800000 :=
  ⟨t.val * 4000 + p.val, by have ht : t.val < 200 := lt_of_lt_of_eq t.isLt N_2; omega⟩

/-- The whole-array function window 7 ends holding. -/
abbrev G7 (c : Dev nD) : S800000x8.Idx → EReal :=
  Cert.KSpec.scoreK (V c main_v16) (V c main_v17) (V c main_v15_0) (V c main_v15_1) (V c main_v12)

/-- The whole-array function window 8 ends holding. -/
abbrev G8 (c : Dev nD) : S800000x128.Idx → EReal :=
  Cert.KSpec.msgK (V c main_v18) (G7 V c) (V c main_v13)

/-- Equal factors give equal products. -/
theorem mul_right_congr (a : EReal) {x y : EReal} (h : x = y) : a * x = a * y := congrArg (fun m => a * m) h
theorem mul_left_congr {x y : EReal} (h : x = y) (b : EReal) : x * b = y * b := congrArg (fun m => m * b) h

/-- The scores' array function at an entry. -/
theorem scoreK_apply (ks qd ef : Cert.Spec.A2 800000 128) (eb : Cert.Spec.A2 800000 8) (g : Cert.Spec.A2 128 8)
    (r : Fin 800000) (hh : Fin 8) :
    Cert.KSpec.scoreK ks qd ef eb g (ix2 r hh)
      = Ideal.exp (min Cert.Spec.cHi (max Cert.Spec.cLo
          ((∑ d : Fin 128, (ks (ix2 r d) * qd (ix2 r d) * ef (ix2 r d)) * g (ix2 d hh)) * Cert.Spec.cQuarter
            + eb (ix2 r hh)))) := rfl

/-- The messages' array function at an entry. -/
theorem msgK_apply (vs : Cert.Spec.A2 800000 128) (s : Cert.Spec.A2 800000 8) (gt : Cert.Spec.A2 8 128)
    (r : Fin 800000) (q : Fin 128) :
    Cert.KSpec.msgK vs s gt (ix2 r q) = vs (ix2 r q) * ∑ hh : Fin 8, s (ix2 r hh) * gt (ix2 hh q) := rfl

/-- The block's score at (p, hh) is the array's score at row 4000 t + p: each of the five inputs' blocks is read at
    that row (the grouping matrix whole). -/
theorem blk_score (c : Dev nD) (t : Fin cfg2.N) (p : Fin 4000) (hh : Fin 8) :
    k2_pay1 (iblk2 V c 0 t) (iblk2 V c 1 t) (iblk2 V c 3 t) (iblk2 V c 5 t) (iblk2 V c 4 t) (ix2 p hh)
      = G7 V c (ix2 (rowOf t p) hh) := by
  obtain ⟨⟨a0, b0⟩, ⟨a1, b1⟩, -, ⟨a3, b3⟩, ⟨a4, b4⟩, ⟨a5, b5⟩, -, -, -⟩ := idx_facts t
  refine (pay1_apply (iblk2 V c 0 t) (iblk2 V c 1 t) (iblk2 V c 3 t) (iblk2 V c 5 t) (iblk2 V c 4 t) p hh).trans ?_
  refine Eq.trans ?_ (scoreK_apply (V c main_v16) (V c main_v17) (V c main_v15_0) (V c main_v15_1) (V c main_v12)
    (rowOf t p) hh).symm
  have h0 : ∀ d : Fin 128, (iblk2 V c 0 t : Vec Ideal S4000x128 .f32) (ix2 p d) = V c main_v16 (ix2 (rowOf t p) d) := by
    intro d
    show V c main_v16 (((cfg2.win 0).blk t).view.emb (ix2 p d)) = _
    congr 1
    funext a; apply Fin.ext
    match a with
    | ⟨0, _⟩ => show win2_0.index t (0 : Fin 2) * 4000 + 1 * p.val = t.val * 4000 + p.val; omega
    | ⟨1, _⟩ => show win2_0.index t (1 : Fin 2) * 128 + 1 * d.val = d.val; omega
  have h1 : ∀ d : Fin 128, (iblk2 V c 1 t : Vec Ideal S4000x128 .f32) (ix2 p d) = V c main_v17 (ix2 (rowOf t p) d) := by
    intro d
    show V c main_v17 (((cfg2.win 1).blk t).view.emb (ix2 p d)) = _
    congr 1
    funext a; apply Fin.ext
    match a with
    | ⟨0, _⟩ => show win2_1.index t (0 : Fin 2) * 4000 + 1 * p.val = t.val * 4000 + p.val; omega
    | ⟨1, _⟩ => show win2_1.index t (1 : Fin 2) * 128 + 1 * d.val = d.val; omega
  have h3 : ∀ d : Fin 128, (iblk2 V c 3 t : Vec Ideal S4000x128 .f32) (ix2 p d) = V c main_v15_0 (ix2 (rowOf t p) d) := by
    intro d
    show V c main_v15_0 (((cfg2.win 3).blk t).view.emb (ix2 p d)) = _
    congr 1
    funext a; apply Fin.ext
    match a with
    | ⟨0, _⟩ => show win2_3.index t (0 : Fin 2) * 4000 + 1 * p.val = t.val * 4000 + p.val; omega
    | ⟨1, _⟩ => show win2_3.index t (1 : Fin 2) * 128 + 1 * d.val = d.val; omega
  have h5 : ∀ d : Fin 128, (iblk2 V c 5 t : Vec Ideal S128x8 .f32) (ix2 d hh) = V c main_v12 (ix2 d hh) := by
    intro d
    show V c main_v12 (((cfg2.win 5).blk t).view.emb (ix2 d hh)) = _
    congr 1
    funext a; apply Fin.ext
    match a with
    | ⟨0, _⟩ => show win2_5.index t (0 : Fin 2) * 128 + 1 * d.val = d.val; omega
    | ⟨1, _⟩ => show win2_5.index t (1 : Fin 2) * 8 + 1 * hh.val = hh.val; omega
  have h4 : (iblk2 V c 4 t : Vec Ideal S4000x8 .f32) (ix2 p hh) = V c main_v15_1 (ix2 (rowOf t p) hh) := by
    show V c main_v15_1 (((cfg2.win 4).blk t).view.emb (ix2 p hh)) = _
    congr 1
    funext a; apply Fin.ext
    match a with
    | ⟨0, _⟩ => show win2_4.index t (0 : Fin 2) * 4000 + 1 * p.val = t.val * 4000 + p.val; omega
    | ⟨1, _⟩ => show win2_4.index t (1 : Fin 2) * 8 + 1 * hh.val = hh.val; omega
  rw [h4]
  refine congrArg (fun m : EReal => Ideal.exp (min Cert.Spec.cHi (max Cert.Spec.cLo
    (m * Cert.Spec.cQuarter + (V c main_v15_1 : Cert.Spec.A2 800000 8) (ix2 (rowOf t p) hh))))) ?_
  refine Finset.sum_congr rfl fun d _ => ?_
  rw [h0 d, h1 d, h3 d, h5 d]

/-- What point t writes back of the scores is block t of G7. -/
theorem flushed7_eq (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S128x8) hz,
    View.ld_unit_zero (S := S4000x8) hz]
  obtain ⟨-, -, -, -, -, -, -, ⟨a7, b7⟩, -⟩ := idx_facts t
  funext j
  obtain ⟨p, q, rfl⟩ : ∃ (p : Fin 4000) (q : Fin 8), j = ix2 p q := ⟨j 0, j 1, eq_ix2 j⟩
  show k2_pay1 (iblk2 V c 0 t) (iblk2 V c 1 t) (iblk2 V c 3 t) (iblk2 V c 5 t) (iblk2 V c 4 t) (ix2 p q)
    = G7 V c (((cfg2.win 7).blk t).view.emb (ix2 p q))
  refine (blk_score V c t p q).trans ?_
  congr 1
  funext a; apply Fin.ext
  match a with
  | ⟨0, _⟩ => show t.val * 4000 + p.val = win2_7.index t (0 : Fin 2) * 4000 + 1 * p.val; omega
  | ⟨1, _⟩ => show q.val = win2_7.index t (1 : Fin 2) * 8 + 1 * q.val; omega

/-- What point t writes back of the messages is block t of G8. -/
theorem flushed8_eq (c : Dev nD) (t : Fin cfg2.N) :
    (dat2 V c).flushed 8 t = ((cfg2.win 8).blk t).view.read (Elt Ideal) (G8 V c) := by
  show (cfg2.win 8).cut (grid2.coords t) ((dat2 V c).after 8 t) = _
  rw [after2_8]
  unfold out2_8
  rw [View.canon_unit_zero hz]
  simp only [View.ld_unit_zero (S := S4000x128) hz, View.ld_unit_zero (S := S128x8) hz,
    View.ld_unit_zero (S := S4000x8) hz, View.ld_unit_zero (S := S8x128) hz]
  obtain ⟨-, -, ⟨a2, b2⟩, -, -, -, ⟨a6, b6⟩, -, ⟨a8, b8⟩⟩ := idx_facts t
  funext j
  obtain ⟨p, q, rfl⟩ : ∃ (p : Fin 4000) (q : Fin 128), j = ix2 p q := ⟨j 0, j 1, eq_ix2 j⟩
  show k2_pay2 (iblk2 V c 0 t) (iblk2 V c 1 t) (iblk2 V c 2 t) (iblk2 V c 3 t) (iblk2 V c 5 t) (iblk2 V c 4 t)
      (iblk2 V c 6 t) (ix2 p q)
    = G8 V c (((cfg2.win 8).blk t).view.emb (ix2 p q))
  refine (pay2_apply (iblk2 V c 0 t) (iblk2 V c 1 t) (iblk2 V c 2 t) (iblk2 V c 3 t) (iblk2 V c 5 t) (iblk2 V c 4 t)
    (iblk2 V c 6 t) p q).trans ?_
  have h2 : (iblk2 V c 2 t : Vec Ideal S4000x128 .f32) (ix2 p q) = V c main_v18 (ix2 (rowOf t p) q) := by
    show V c main_v18 (((cfg2.win 2).blk t).view.emb (ix2 p q)) = _
    congr 1
    funext a; apply Fin.ext
    match a with
    | ⟨0, _⟩ => show win2_2.index t (0 : Fin 2) * 4000 + 1 * p.val = t.val * 4000 + p.val; omega
    | ⟨1, _⟩ => show win2_2.index t (1 : Fin 2) * 128 + 1 * q.val = q.val; omega
  have h6 : ∀ hh : Fin 8, (iblk2 V c 6 t : Vec Ideal S8x128 .f32) (ix2 hh q) = V c main_v13 (ix2 hh q) := by
    intro hh
    show V c main_v13 (((cfg2.win 6).blk t).view.emb (ix2 hh q)) = _
    congr 1
    funext a; apply Fin.ext
    match a with
    | ⟨0, _⟩ => show win2_6.index t (0 : Fin 2) * 8 + 1 * hh.val = hh.val; omega
    | ⟨1, _⟩ => show win2_6.index t (1 : Fin 2) * 128 + 1 * q.val = q.val; omega
  have he : ((cfg2.win 8).blk t).view.emb (ix2 p q) = ix2 (rowOf t p) q := by
    funext a; apply Fin.ext
    match a with
    | ⟨0, _⟩ => show win2_8.index t (0 : Fin 2) * 4000 + 1 * p.val = t.val * 4000 + p.val; omega
    | ⟨1, _⟩ => show win2_8.index t (1 : Fin 2) * 128 + 1 * q.val = q.val; omega
  rw [he]
  refine Eq.trans ?_ (msgK_apply (V c main_v18) (G7 V c) (V c main_v13) (rowOf t p) q).symm
  rw [h2]
  refine mul_right_congr _ ?_
  refine Finset.sum_congr rfl fun hh _ => ?_
  rw [h6 hh]
  exact mul_left_congr (blk_score V c t p hh) _

/-- An index of the score array is in point t's block iff each coordinate is in the block's range on its axis. -/
theorem mem_blk7 (t : Fin cfg2.N) (i : S800000x8.Idx) :
    i ∈ ((cfg2.win 7).blk t).view.set ↔ ∀ a : Fin 2, win2_7.index t a * S4000x8.size a ≤ (i a).val
      ∧ (i a).val < win2_7.index t a * S4000x8.size a + S4000x8.size a := by
  show i ∈ ((View.whole main_v19_0).slice (win2_7.rect t)).set ↔ _
  rw [View.set_slice_whole, Rect.mem_set_unit]
  exact Iff.rfl

/-- Every row of the score array is in the block of the point (row / 4000). -/
theorem cover7 (i : S800000x8.Idx) :
    ∃ t : Fin cfg2.N, (cfg2.win 7).flush t = true ∧ i ∈ ((cfg2.win 7).blk t).view.set := by
  have hi0 : (i 0).val < 800000 := (i 0).isLt
  have hi1 : (i 1).val < 8 := (i 1).isLt
  have hN : cfg2.N = 200 := N_2
  refine ⟨⟨(i 0).val / 4000, by rw [hN]; omega⟩, flush2_7 _, ?_⟩
  rw [mem_blk7]
  obtain ⟨-, -, -, -, -, -, -, ⟨a7, b7⟩, -⟩ := idx_facts ⟨(i 0).val / 4000, by rw [hN]; omega⟩
  intro a
  match a with
  | ⟨0, _⟩ =>
    show win2_7.index _ (0 : Fin 2) * 4000 ≤ (i 0).val ∧ (i 0).val < win2_7.index _ (0 : Fin 2) * 4000 + 4000
    rw [a7]; show (i 0).val / 4000 * 4000 ≤ (i 0).val ∧ (i 0).val < (i 0).val / 4000 * 4000 + 4000; omega
  | ⟨1, _⟩ =>
    show win2_7.index _ (1 : Fin 2) * 8 ≤ (i 1).val ∧ (i 1).val < win2_7.index _ (1 : Fin 2) * 8 + 8
    rw [b7]; omega

/-- An index of the message array is in point t's block iff each coordinate is in the block's range on its axis. -/
theorem mem_blk8 (t : Fin cfg2.N) (i : S800000x128.Idx) :
    i ∈ ((cfg2.win 8).blk t).view.set ↔ ∀ a : Fin 2, win2_8.index t a * S4000x128.size a ≤ (i a).val
      ∧ (i a).val < win2_8.index t a * S4000x128.size a + S4000x128.size a := by
  show i ∈ ((View.whole main_v19_1).slice (win2_8.rect t)).set ↔ _
  rw [View.set_slice_whole, Rect.mem_set_unit]
  exact Iff.rfl

/-- Every row of the message array is in the block of the point (row / 4000). -/
theorem cover8 (i : S800000x128.Idx) :
    ∃ t : Fin cfg2.N, (cfg2.win 8).flush t = true ∧ i ∈ ((cfg2.win 8).blk t).view.set := by
  have hi0 : (i 0).val < 800000 := (i 0).isLt
  have hi1 : (i 1).val < 128 := (i 1).isLt
  have hN : cfg2.N = 200 := N_2
  refine ⟨⟨(i 0).val / 4000, by rw [hN]; omega⟩, flush2_8 _, ?_⟩
  rw [mem_blk8]
  obtain ⟨-, -, -, -, -, -, -, -, ⟨a8, b8⟩⟩ := idx_facts ⟨(i 0).val / 4000, by rw [hN]; omega⟩
  intro a
  match a with
  | ⟨0, _⟩ =>
    show win2_8.index _ (0 : Fin 2) * 4000 ≤ (i 0).val ∧ (i 0).val < win2_8.index _ (0 : Fin 2) * 4000 + 4000
    rw [a8]; show (i 0).val / 4000 * 4000 ≤ (i 0).val ∧ (i 0).val < (i 0).val / 4000 * 4000 + 4000; omega
  | ⟨1, _⟩ =>
    show win2_8.index _ (1 : Fin 2) * 128 ≤ (i 1).val ∧ (i 1).val < win2_8.index _ (1 : Fin 2) * 128 + 128
    rw [b8]; omega

/-- The score array after the region. -/
theorem final7 (c : Dev nD) : (dat2 V c).arrAt 7 cfg2.N
    = Cert.KSpec.scoreK (V c main_v16) (V c main_v17) (V c main_v15_0) (V c main_v15_1) (V c main_v12) :=
  (dat2 V c).arrAt_eq_of_cover 7 (G7 V c) (fun t _ => flushed7_eq V c t) (cover7)

/-- The message array after the region. -/
theorem final8 (c : Dev nD) : (dat2 V c).arrAt 8 cfg2.N
    = Cert.KSpec.msgK (V c main_v18)
        (Cert.KSpec.scoreK (V c main_v16) (V c main_v17) (V c main_v15_0) (V c main_v15_1) (V c main_v12))
        (V c main_v13) :=
  (dat2 V c).arrAt_eq_of_cover 8 (G8 V c) (fun t _ => flushed8_eq V c t) (cover8)

end Cert.KernelIdeal.Reg2

end
-- ==== Proof.KReg3.lean ====
/-
  REGION 3 (attention output, normalisations, feed-forward block). From entry contents V, its output array ends
  holding the block's result: point t of the grid computes rows 5000 t … 5000 t + 4999 from the same rows of the
  node features, of the collected messages and of the collected scores, and from the whole of the thirteen
  parameter arrays; the ten points' blocks tile the 50000 rows.
-/
import proofs.«415187_j438086664593_2_alg».proof.Proof.Gen.KernelIdeal.Frame
import proofs.«415187_j438086664593_2_alg».proof.Proof.KSpec
import proofs.«415187_j438086664593_2_alg».proof.Proof.LibMatmul
import proofs.«415187_j438086664593_2_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The body's three values at an entry of the block -/

/-- The first normalisation's output at entry (p, q): row p of the features' block plus the quotient of the collected
    messages by (the collected scores times the grouping matrix, plus 1e-6), normalised with the first four vectors. -/
theorem pay2_apply (x0 x1 : Vec Ideal S5000x128 .f32) (x2 : Vec Ideal S5000x8 .f32) (x3 : Vec Ideal S8x128 .f32)
    (x4 x5 x6 x7 : Vec Ideal S128 .f32) (p : Fin 5000) (q : Fin 128) :
    k3_pay2 x0 x1 x2 x3 x4 x5 x6 x7 (ix2 p q)
      = Cert.Spec.bn ((x0 (ix2 p q) : EReal) + Ideal.div (x1 (ix2 p q) : EReal)
            ((∑ hh : Fin 8, (x2 (ix2 p hh) : EReal) * (x3 (ix2 hh q) : EReal)) + Cert.Spec.cTiny))
          (x4 (ix1 q)) (x5 (ix1 q)) (x6 (ix1 q)) (x7 (ix1 q)) := by
  unfold k3_pay2 Cert.Spec.bn
  simp only [addf_apply, mulf_apply, subf_apply, divf_apply, broadcast_apply]
  have hs : shapeCast S5000x128 x1 shapeCasts_S5000x128_S5000x128 = x1 := shapeCast_self _ _
  have hm : matmul (F := Ideal) (φ₁ := .f32) (φ₂ := .f32) dot_S5000x8_S8x128_S5000x128_1_0_0_1_n_n (some ContractPrecision.fp32)
      (shapeCast S5000x8 (x2 : FVec Ideal S5000x8 .f32) shapeCasts_S5000x8_S5000x8)
      (shapeCast S8x128 (x3 : FVec Ideal S8x128 .f32) shapeCasts_S8x128_S8x128)
      (constant (F := Ideal) S5000x128 FTy.f32 0x00000000#32) (ix2 p q)
        = ∑ hh : Fin 8, (x2 (ix2 p hh) : EReal) * (x3 (ix2 hh q) : EReal) := by
    rw [shapeCast_self, shapeCast_self]
    exact Cert.Lib.Matmul.matmul_zero_apply (A := 5000) (K := 8) (C := 128) (some .fp32) x2 x3 p q
  have h6 : broadcastTo S5000x128 (shapeCast S1x128 x6 shapeCasts_S128_S1x128) broadcasts_S1x128_S5000x128 (ix2 p q)
      = x6 (ix1 q) := Cert.Lib.Layout.bcastRow_apply x6 _ _ p q
  have h4 : broadcastTo S5000x128 (shapeCast S1x128 x4 shapeCasts_S128_S1x128) broadcasts_S1x128_S5000x128 (ix2 p q)
      = x4 (ix1 q) := Cert.Lib.Layout.bcastRow_apply x4 _ _ p q
  have h5 : broadcastTo S5000x128 (shapeCast S1x128 x5 shapeCasts_S128_S1x128) broadcasts_S1x128_S5000x128 (ix2 p q)
      = x5 (ix1 q) := Cert.Lib.Layout.bcastRow_apply x5 _ _ p q
  have hr : broadcastTo S5000x128
      (shapeCast S1x128 (rsqrt (addf (x7 : FVec Ideal S128 .f32) (broadcast S128 (FloatOps.ofBits (F := Ideal) FTy.f32 0x3727C5AC#32)))) shapeCasts_S128_S1x128)
      broadcasts_S1x128_S5000x128 (ix2 p q) = Ideal.rsqrt ((x7 (ix1 q) : EReal) + Cert.Spec.cEps) :=
    Cert.Lib.Layout.bcastRow_apply (rsqrt (addf (x7 : FVec Ideal S128 .f32) (broadcast S128 (FloatOps.ofBits (F := Ideal) FTy.f32 0x3727C5AC#32)))) _ _ p q
  rw [hs, hm, h6, h4, h5, hr]
  rfl

/-- The hidden layer before its activation at entry (p, f): row p of the first normalisation's output times column f
    of the first weight matrix, plus the bias. -/
theorem pay3_apply (x0 x1 : Vec Ideal S5000x128 .f32) (x2 : Vec Ideal S5000x8 .f32) (x3 : Vec Ideal S8x128 .f32)
    (x4 x5 x6 x7 : Vec Ideal S128 .f32) (x8 : Vec Ideal S128x256 .f32) (x9 : Vec Ideal S256 .f32)
    (p : Fin 5000) (f : Fin 256) :
    k3_pay3 x0 x1 x2 x3 x4 x5 x6 x7 x8 x9 (ix2 p f)
      = (∑ k : Fin 128, (k3_pay2 x0 x1 x2 x3 x4 x5 x6 x7 (ix2 p k) : EReal) * (x8 (ix2 k f) : EReal))
          + (x9 (ix1 f) : EReal) := by
  unfold k3_pay3
  simp only [addf_apply]
  have hb : broadcastTo S5000x256 (shapeCast S1x256 x9 shapeCasts_S256_S1x256) broadcasts_S1x256_S5000x256 (ix2 p f)
      = x9 (ix1 f) := Cert.Lib.Layout.bcastRow_apply x9 _ _ p f
  rw [hb]
  exact congrArg (· + (x9 (ix1 f) : EReal))
    (Cert.Lib.Matmul.matmul_zero_apply (A := 5000) (K := 128) (C := 256) none
      (truncf .bf16 (k3_pay2 x0 x1 x2 x3 x4 x5 x6 x7) bitsLt_bf16_f32) (truncf .bf16 x8 bitsLt_bf16_f32) p f)

/-- The block's output at entry (p, q), over the first normalisation's output y and the hidden layer before its
    activation u: y plus (the activated hidden row times column q of the second weight matrix, plus the bias),
    normalised with the last four vectors. -/
theorem pay1_apply (y : FVec Ideal S5000x128 .f32) (u : FVec Ideal S5000x256 .f32) (x10 : Vec Ideal S256x128 .f32)
    (x11 x12 x13 x14 x15 : Vec Ideal S128 .f32) (p : Fin 5000) (q : Fin 128) :
    k3_pay1 y u (Scalar.ofBits .f32 0x00000000#32) x10 x11 x12 x13 x14 x15 (ix2 p q)
      = Cert.Spec.bn ((y (ix2 p q) : EReal)
            + ((∑ f : Fin 256, max (u (ix2 p f) : EReal) Cert.Spec.cZero * (x10 (ix2 f q) : EReal)) + (x11 (ix1 q) : EReal)))
          (x12 (ix1 q)) (x13 (ix1 q)) (x14 (ix1 q)) (x15 (ix1 q)) := by
  unfold k3_pay1 Cert.Spec.bn
  simp only [addf_apply, mulf_apply, subf_apply]
  have hm : matmul (F := Ideal) dot_S5000x256_S256x128_S5000x128_1_0_0_1_n_n none
      (truncf FTy.bf16 (maximumf u (broadcast S5000x256 (FloatOps.ofBits (F := Ideal) FTy.f32 0x00000000#32))) bitsLt_bf16_f32)
      (truncf FTy.bf16 x10 bitsLt_bf16_f32) (constant (F := Ideal) S5000x128 FTy.f32 0x00000000#32) (ix2 p q)
        = ∑ f : Fin 256, max (u (ix2 p f) : EReal) Cert.Spec.cZero * (x10 (ix2 f q) : EReal) :=
    Cert.Lib.Matmul.matmul_zero_apply (A := 5000) (K := 256) (C := 128) none
      (truncf FTy.bf16 (maximumf u (broadcast S5000x256 (FloatOps.ofBits (F := Ideal) FTy.f32 0x00000000#32))) bitsLt_bf16_f32)
      (truncf FTy.bf16 x10 bitsLt_bf16_f32) p q
  have h11 : broadcastTo S5000x128 (shapeCast S1x128 x11 shapeCasts_S128_S1x128) broadcasts_S1x128_S5000x128 (ix2 p q)
      = x11 (ix1 q) := Cert.Lib.Layout.bcastRow_apply x11 _ _ p q
  have h12 : broadcastTo S5000x128 (shapeCast S1x128 x12 shapeCasts_S128_S1x128) broadcasts_S1x128_S5000x128 (ix2 p q)
      = x12 (ix1 q) := Cert.Lib.Layout.bcastRow_apply x12 _ _ p q
  have h13 : broadcastTo S5000x128 (shapeCast S1x128 x13 shapeCasts_S128_S1x128) broadcasts_S1x128_S5000x128 (ix2 p q)
      = x13 (ix1 q) := Cert.Lib.Layout.bcastRow_apply x13 _ _ p q
  have h14 : broadcastTo S5000x128 (shapeCast S1x128 x14 shapeCasts_S128_S1x128) broadcasts_S1x128_S5000x128 (ix2 p q)
      = x14 (ix1 q) := Cert.Lib.Layout.bcastRow_apply x14 _ _ p q
  have hr : broadcastTo S5000x128
      (shapeCast S1x128 (rsqrt (addf (x15 : FVec Ideal S128 .f32) (broadcast S128 (FloatOps.ofBits (F := Ideal) FTy.f32 0x3727C5AC#32)))) shapeCasts_S128_S1x128)
      broadcasts_S1x128_S5000x128 (ix2 p q) = Ideal.rsqrt ((x15 (ix1 q) : EReal) + Cert.Spec.cEps) :=
    Cert.Lib.Layout.bcastRow_apply (rsqrt (addf (x15 : FVec Ideal S128 .f32) (broadcast S128 (FloatOps.ofBits (F := Ideal) FTy.f32 0x3727C5AC#32)))) _ _ p q
  rw [hm, h11, h12, h13, h14, hr]

/-! ## The block's output over whole arrays -/

/-- Entry (p, q) of the body's result over blocks y0 … y15 is the block's output at (n, q) over arrays of which y0,
    y1, y2 hold row n at their row p and y3 … y15 are the parameter arrays themselves. -/
theorem out_congr (h wv : Cert.Spec.A2 50000 128) (z : Cert.Spec.A2 50000 8) (gt : Cert.Spec.A2 8 128)
    (g1 be1 mu1 va1 : Cert.Spec.A1 128) (W1 : Cert.Spec.A2 128 256) (b1 : Cert.Spec.A1 256)
    (W2 : Cert.Spec.A2 256 128) (b2 g2 be2 mu2 va2 : Cert.Spec.A1 128)
    (y0 y1 : Vec Ideal S5000x128 .f32) (y2 : Vec Ideal S5000x8 .f32) (y3 : Vec Ideal S8x128 .f32)
    (y4 y5 y6 y7 : Vec Ideal S128 .f32) (y8 : Vec Ideal S128x256 .f32) (y9 : Vec Ideal S256 .f32)
    (y10 : Vec Ideal S256x128 .f32) (y11 y12 y13 y14 y15 : Vec Ideal S128 .f32)
    (n : Fin 50000) (p : Fin 5000) (q : Fin 128)
    (e0 : ∀ k : Fin 128, y0 (ix2 p k) = h (ix2 n k)) (e1 : ∀ k : Fin 128, y1 (ix2 p k) = wv (ix2 n k))
    (e2 : ∀ hh : Fin 8, y2 (ix2 p hh) = z (ix2 n hh))
    (e3 : y3 = gt) (e4 : y4 = g1) (e5 : y5 = be1) (e6 : y6 = mu1) (e7 : y7 = va1) (e8 : y8 = W1) (e9 : y9 = b1)
    (e10 : y10 = W2) (e11 : y11 = b2) (e12 : y12 = g2) (e13 : y13 = be2) (e14 : y14 = mu2) (e15 : y15 = va2) :
    k3_pay1 (k3_pay2 y0 y1 y2 y3 y4 y5 y6 y7) (k3_pay3 y0 y1 y2 y3 y4 y5 y6 y7 y8 y9)
        (Scalar.ofBits .f32 0x00000000#32) y10 y11 y12 y13 y14 y15 (ix2 p q)
      = Cert.KSpec.outK h wv z gt g1 be1 mu1 va1 W1 b1 W2 b2 g2 be2 mu2 va2 n q := by
  subst e3 e4 e5 e6 e7 e8 e9 e10 e11 e12 e13 e14 e15
  have hx1 : ∀ k : Fin 128, (k3_pay2 y0 y1 y2 y3 y4 y5 y6 y7 (ix2 p k) : EReal)
      = Cert.KSpec.x1K h wv z y3 y4 y5 y6 y7 n k := by
    intro k
    refine (pay2_apply y0 y1 y2 y3 y4 y5 y6 y7 p k).trans ?_
    unfold Cert.KSpec.x1K
    have hs : (∑ hh : Fin 8, (y2 (ix2 p hh) : EReal) * (y3 (ix2 hh k) : EReal))
        = ∑ hh : Fin 8, z (ix2 n hh) * y3 (ix2 hh k) := Finset.sum_congr rfl fun hh _ => by rw [e2 hh]
    rw [e0 k, e1 k, hs]
  have hhid : ∀ f : Fin 256, max (k3_pay3 y0 y1 y2 y3 y4 y5 y6 y7 y8 y9 (ix2 p f) : EReal) Cert.Spec.cZero
      = Cert.KSpec.hidK h wv z y3 y4 y5 y6 y7 y8 y9 n f := by
    intro f
    unfold Cert.KSpec.hidK
    have hs : (∑ k : Fin 128, (k3_pay2 y0 y1 y2 y3 y4 y5 y6 y7 (ix2 p k) : EReal) * (y8 (ix2 k f) : EReal))
        = ∑ k : Fin 128, Cert.KSpec.x1K h wv z y3 y4 y5 y6 y7 n k * y8 (ix2 k f) :=
      Finset.sum_congr rfl fun k _ => by rw [hx1 k]
    rw [pay3_apply y0 y1 y2 y3 y4 y5 y6 y7 y8 y9 p f, hs]
  refine (pay1_apply _ _ y10 y11 y12 y13 y14 y15 p q).trans ?_
  unfold Cert.KSpec.outK
  have hs : (∑ f : Fin 256, max (k3_pay3 y0 y1 y2 y3 y4 y5 y6 y7 y8 y9 (ix2 p f) : EReal) Cert.Spec.cZero
        * (y10 (ix2 f q) : EReal))
      = ∑ f : Fin 256, Cert.KSpec.hidK h wv z y3 y4 y5 y6 y7 y8 y9 n f * y10 (ix2 f q) :=
    Finset.sum_congr rfl fun f _ => by rw [hhid f]
  rw [hx1 q, hs]

/-! ## The windows' blocks -/

/-- The printed index maps over the grid: the three row windows' blocks and the output's block are block t of the
    rows. -/
theorem idx_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_16.index t (0 : Fin 2) = t.val ∧ win3_16.index t (1 : Fin 2) = 0 :=
  (by decide +kernel : ∀ t : Fin grid3.N, _)

/-- The three parameter matrices' blocks are the whole matrices. -/
theorem idx_mats : ∀ t : Fin cfg3.N,
    win3_3.index t (0 : Fin 2) = 0 ∧ win3_3.index t (1 : Fin 2) = 0
    ∧ win3_8.index t (0 : Fin 2) = 0 ∧ win3_8.index t (1 : Fin 2) = 0
    ∧ win3_10.index t (0 : Fin 2) = 0 ∧ win3_10.index t (1 : Fin 2) = 0 :=
  (by decide +kernel : ∀ t : Fin grid3.N, _)

/-- The ten parameter vectors' blocks are the whole vectors. -/
theorem idx_vecs : ∀ t : Fin cfg3.N,
    win3_4.index t (0 : Fin 1) = 0 ∧ win3_5.index t (0 : Fin 1) = 0 ∧ win3_6.index t (0 : Fin 1) = 0
    ∧ win3_7.index t (0 : Fin 1) = 0 ∧ win3_9.index t (0 : Fin 1) = 0 ∧ win3_11.index t (0 : Fin 1) = 0
    ∧ win3_12.index t (0 : Fin 1) = 0 ∧ win3_13.index t (0 : Fin 1) = 0 ∧ win3_14.index t (0 : Fin 1) = 0
    ∧ win3_15.index t (0 : Fin 1) = 0 :=
  (by decide +kernel : ∀ t : Fin grid3.N, _)

/-- Row p of the features' block at point t is row n = 5000 t + p of the features. -/
theorem rd0 (c : Dev nD) (t : Fin cfg3.N) (p : Fin 5000) (k : Fin 128) (n : Fin 50000)
    (hn : n.val = t.val * 5000 + p.val) :
    (iblk3 V c 0 t : Vec Ideal S5000x128 .f32) (ix2 p k) = V c main_arg0 (ix2 n k) := by
  obtain ⟨e0, e1, -⟩ := idx_rows t
  show V c main_arg0 (((cfg3.win 0).blk t).view.emb (ix2 p k)) = _
  congr 1
  funext a; apply Fin.ext
  match a with
  | ⟨0, _⟩ => show win3_0.index t (0 : Fin 2) * 5000 + 1 * p.val = n.val; omega
  | ⟨1, _⟩ => show win3_0.index t (1 : Fin 2) * 128 + 1 * k.val = k.val; omega

/-- Row p of the collected messages' block at point t is row n = 5000 t + p of the collected messages. -/
theorem rd1 (c : Dev nD) (t : Fin cfg3.N) (p : Fin 5000) (k : Fin 128) (n : Fin 50000)
    (hn : n.val = t.val * 5000 + p.val) :
    (iblk3 V c 1 t : Vec Ideal S5000x128 .f32) (ix2 p k) = V c main_v22 (ix2 n k) := by
  obtain ⟨-, -, e0, e1, -⟩ := idx_rows t
  show V c main_v22 (((cfg3.win 1).blk t).view.emb (ix2 p k)) = _
  congr 1
  funext a; apply Fin.ext
  match a with
  | ⟨0, _⟩ => show win3_1.index t (0 : Fin 2) * 5000 + 1 * p.val = n.val; omega
  | ⟨1, _⟩ => show win3_1.index t (1 : Fin 2) * 128 + 1 * k.val = k.val; omega

/-- Row p of the collected scores' block at point t is row n = 5000 t + p of the collected scores. -/
theorem rd2 (c : Dev nD) (t : Fin cfg3.N) (p : Fin 5000) (k : Fin 8) (n : Fin 50000)
    (hn : n.val = t.val * 5000 + p.val) :
    (iblk3 V c 2 t : Vec Ideal S5000x8 .f32) (ix2 p k) = V c main_v25 (ix2 n k) := by
  obtain ⟨-, -, -, -, e0, e1, -⟩ := idx_rows t
  show V c main_v25 (((cfg3.win 2).blk t).view.emb (ix2 p k)) = _
  congr 1
  funext a; apply Fin.ext
  match a with
  | ⟨0, _⟩ => show win3_2.index t (0 : Fin 2) * 5000 + 1 * p.val = n.val; omega
  | ⟨1, _⟩ => show win3_2.index t (1 : Fin 2) * 8 + 1 * k.val = k.val; omega

/-- The grouping matrix's block is the grouping matrix. -/
theorem blk3_eq (c : Dev nD) (t : Fin cfg3.N) : (iblk3 V c 3 t : Vec Ideal S8x128 .f32) = V c main_v13 := by
  obtain ⟨e0, e1, -⟩ := idx_mats t
  funext j
  obtain ⟨a, b, rfl⟩ : ∃ (a : Fin 8) (b : Fin 128), j = ix2 a b := ⟨j 0, j 1, eq_ix2 j⟩
  show V c main_v13 (((cfg3.win 3).blk t).view.emb (ix2 a b)) = V c main_v13 (ix2 a b)
  congr 1
  funext x; apply Fin.ext
  match x with
  | ⟨0, _⟩ => show win3_3.index t (0 : Fin 2) * 8 + 1 * a.val = a.val; omega
  | ⟨1, _⟩ => show win3_3.index t (1 : Fin 2) * 128 + 1 * b.val = b.val; omega

/-- The first weight matrix's block is the matrix. -/
theorem blk8_eq (c : Dev nD) (t : Fin cfg3.N) : (iblk3 V c 8 t : Vec Ideal S128x256 .f32) = V c main_arg9 := by
  obtain ⟨-, -, e0, e1, -⟩ := idx_mats t
  funext j
  obtain ⟨a, b, rfl⟩ : ∃ (a : Fin 128) (b : Fin 256), j = ix2 a b := ⟨j 0, j 1, eq_ix2 j⟩
  show V c main_arg9 (((cfg3.win 8).blk t).view.emb (ix2 a b)) = V c main_arg9 (ix2 a b)
  congr 1
  funext x; apply Fin.ext
  match x with
  | ⟨0, _⟩ => show win3_8.index t (0 : Fin 2) * 128 + 1 * a.val = a.val; omega
  | ⟨1, _⟩ => show win3_8.index t (1 : Fin 2) * 256 + 1 * b.val = b.val; omega

/-- The second weight matrix's block is the matrix. -/
theorem blk10_eq (c : Dev nD) (t : Fin cfg3.N) : (iblk3 V c 10 t : Vec Ideal S256x128 .f32) = V c main_arg11 := by
  obtain ⟨-, -, -, -, e0, e1⟩ := idx_mats t
  funext j
  obtain ⟨a, b, rfl⟩ : ∃ (a : Fin 256) (b : Fin 128), j = ix2 a b := ⟨j 0, j 1, eq_ix2 j⟩
  show V c main_arg11 (((cfg3.win 10).blk t).view.emb (ix2 a b)) = V c main_arg11 (ix2 a b)
  congr 1
  funext x; apply Fin.ext
  match x with
  | ⟨0, _⟩ => show win3_10.index t (0 : Fin 2) * 256 + 1 * a.val = a.val; omega
  | ⟨1, _⟩ => show win3_10.index t (1 : Fin 2) * 128 + 1 * b.val = b.val; omega

/-- Each parameter vector's block is the vector: the first normalisation's four, -/
theorem blk4_eq (c : Dev nD) (t : Fin cfg3.N) : (iblk3 V c 4 t : Vec Ideal S128 .f32) = V c main_arg13 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg13 (((cfg3.win 4).blk t).view.emb (ix1 a)) = V c main_arg13 (ix1 a)
  congr 1
  funext x; apply Fin.ext
  match x with
  | ⟨0, _⟩ => show win3_4.index t (0 : Fin 1) * 128 + 1 * a.val = a.val; omega

theorem blk5_eq (c : Dev nD) (t : Fin cfg3.N) : (iblk3 V c 5 t : Vec Ideal S128 .f32) = V c main_arg14 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg14 (((cfg3.win 5).blk t).view.emb (ix1 a)) = V c main_arg14 (ix1 a)
  congr 1
  funext x; apply Fin.ext
  match x with
  | ⟨0, _⟩ => show win3_5.index t (0 : Fin 1) * 128 + 1 * a.val = a.val; omega

theorem blk6_eq (c : Dev nD) (t : Fin cfg3.N) : (iblk3 V c 6 t : Vec Ideal S128 .f32) = V c main_arg15 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg15 (((cfg3.win 6).blk t).view.emb (ix1 a)) = V c main_arg15 (ix1 a)
  congr 1
  funext x; apply Fin.ext
  match x with
  | ⟨0, _⟩ => show win3_6.index t (0 : Fin 1) * 128 + 1 * a.val = a.val; omega

theorem blk7_eq (c : Dev nD) (t : Fin cfg3.N) : (iblk3 V c 7 t : Vec Ideal S128 .f32) = V c main_arg16 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg16 (((cfg3.win 7).blk t).view.emb (ix1 a)) = V c main_arg16 (ix1 a)
  congr 1
  funext x; apply Fin.ext
  match x with
  | ⟨0, _⟩ => show win3_7.index t (0 : Fin 1) * 128 + 1 * a.val = a.val; omega

/-- the two biases, -/
theorem blk9_eq (c : Dev nD) (t : Fin cfg3.N) : (iblk3 V c 9 t : Vec Ideal S256 .f32) = V c main_arg10 := by
  obtain ⟨e4, e5, e6, e7, e9, e11, e12, e13, e14, e15⟩ := idx_vecs t
  funext j
  obtain ⟨a, rfl⟩ : ∃ a : Fin 256, j = ix1 a := ⟨j 0, eq_ix1 j⟩
  show V c main_arg10 (((cfg3.win 9).blk t).view.emb (ix1 a)) = V c main_arg10 (ix1 a)
  congr 1
  funext x; apply Fin.ext
  match x with
  | ⟨0, _⟩ => show win3_9.index t (0 : Fin 1) * 256 + 1 * a.val = a.val; omega

theorem blk11_eq (c : Dev nD) (t : Fin cfg3.N) : (iblk3 V c 11 t : Vec Ideal S128 .f32) = V c main_arg12 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg12 (((cfg3.win 11).blk t).view.emb (ix1 a)) = V c main_arg12 (ix1 a)
  congr 1
  funext x; apply Fin.ext
  match x with
  | ⟨0, _⟩ => show win3_11.index t (0 : Fin 1) * 128 + 1 * a.val = a.val; omega

/-- and the second normalisation's four. -/
theorem blk12_eq (c : Dev nD) (t : Fin cfg3.N) : (iblk3 V c 12 t : Vec Ideal S128 .f32) = V c main_arg17 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg17 (((cfg3.win 12).blk t).view.emb (ix1 a)) = V c main_arg17 (ix1 a)
  congr 1
  funext x; apply Fin.ext
  match x with
  | ⟨0, _⟩ => show win3_12.index t (0 : Fin 1) * 128 + 1 * a.val = a.val; omega

theorem blk13_eq (c : Dev nD) (t : Fin cfg3.N) : (iblk3 V c 13 t : Vec Ideal S128 .f32) = V c main_arg18 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg18 (((cfg3.win 13).blk t).view.emb (ix1 a)) = V c main_arg18 (ix1 a)
  congr 1
  funext x; apply Fin.ext
  match x with
  | ⟨0, _⟩ => show win3_13.index t (0 : Fin 1) * 128 + 1 * a.val = a.val; omega

theorem blk14_eq (c : Dev nD) (t : Fin cfg3.N) : (iblk3 V c 14 t : Vec Ideal S128 .f32) = V c main_arg19 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg19 (((cfg3.win 14).blk t).view.emb (ix1 a)) = V c main_arg19 (ix1 a)
  congr 1
  funext x; apply Fin.ext
  match x with
  | ⟨0, _⟩ => show win3_14.index t (0 : Fin 1) * 128 + 1 * a.val = a.val; omega

theorem blk15_eq (c : Dev nD) (t : Fin cfg3.N) : (iblk3 V c 15 t : Vec Ideal S128 .f32) = V c main_arg20 := by
  obtain ⟨e4, e5, e6, e7, e9, e11, e12, e13, e14, e15⟩ := idx_vecs t
  funext j
  obtain ⟨a, rfl⟩ : ∃ a : Fin 128, j = ix1 a := ⟨j 0, eq_ix1 j⟩
  show V c main_arg20 (((cfg3.win 15).blk t).view.emb (ix1 a)) = V c main_arg20 (ix1 a)
  congr 1
  funext x; apply Fin.ext
  match x with
  | ⟨0, _⟩ => show win3_15.index t (0 : Fin 1) * 128 + 1 * a.val = a.val; omega

/-! ## The output array -/

/-- The whole-array function window 16 ends holding. -/
abbrev G16 (c : Dev nD) : S50000x128.Idx → EReal :=
  Cert.KSpec.blockK (V c main_arg0) (V c main_v22) (V c main_v25) (V c main_v13)
    (V c main_arg13) (V c main_arg14) (V c main_arg15) (V c main_arg16)
    (V c main_arg9) (V c main_arg10) (V c main_arg11) (V c main_arg12)
    (V c main_arg17) (V c main_arg18) (V c main_arg19) (V c main_arg20)

/-- What point t writes back is block t of G16. -/
theorem flushed16_eq (c : Dev nD) (t : Fin cfg3.N) :
    (dat3 V c).flushed 16 t = ((cfg3.win 16).blk t).view.read (Elt Ideal) (G16 V c) := by
  show (cfg3.win 16).cut (grid3.coords t) ((dat3 V c).after 16 t) = _
  rw [after3_16]
  unfold out3_16
  rw [View.canon_unit_zero hz]
  simp only [View.ld_unit_zero (S := S5000x128) hz, View.ld_unit_zero (S := S5000x8) hz,
    View.ld_unit_zero (S := S8x128) hz, View.ld_unit_zero (S := S128) hz1, View.ld_unit_zero (S := S128x256) hz,
    View.ld_unit_zero (S := S256) hz1, View.ld_unit_zero (S := S256x128) hz]
  obtain ⟨-, -, -, -, -, -, e16, e16'⟩ := idx_rows t
  have hN : cfg3.N = 10 := N_3
  have ht : t.val < 10 := Nat.lt_of_lt_of_eq t.isLt hN
  funext j
  obtain ⟨p, q, rfl⟩ : ∃ (p : Fin 5000) (q : Fin 128), j = ix2 p q := ⟨j 0, j 1, eq_ix2 j⟩
  have hp : p.val < 5000 := p.isLt
  have hemb : ((cfg3.win 16).blk t).view.emb (ix2 p q)
      = ix2 (⟨t.val * 5000 + p.val, by omega⟩ : Fin 50000) q := by
    funext a; apply Fin.ext
    match a with
    | ⟨0, _⟩ => show win3_16.index t (0 : Fin 2) * 5000 + 1 * p.val = t.val * 5000 + p.val; omega
    | ⟨1, _⟩ => show win3_16.index t (1 : Fin 2) * 128 + 1 * q.val = q.val; omega
  show k3_pay1
      (k3_pay2 (iblk3 V c 0 t) (iblk3 V c 1 t) (iblk3 V c 2 t) (iblk3 V c 3 t) (iblk3 V c 4 t) (iblk3 V c 5 t)
        (iblk3 V c 6 t) (iblk3 V c 7 t))
      (k3_pay3 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t))
      (Scalar.ofBits .f32 0x00000000#32) (iblk3 V c 10 t) (iblk3 V c 11 t) (iblk3 V c 12 t) (iblk3 V c 13 t)
      (iblk3 V c 14 t) (iblk3 V c 15 t) (ix2 p q)
    = G16 V c (((cfg3.win 16).blk t).view.emb (ix2 p q))
  refine Eq.trans ?_ (congrArg (G16 V c) hemb.symm)
  exact out_congr (V c main_arg0) (V c main_v22) (V c main_v25) (V c main_v13)
    (V c main_arg13) (V c main_arg14) (V c main_arg15) (V c main_arg16)
    (V c main_arg9) (V c main_arg10) (V c main_arg11) (V c main_arg12)
    (V c main_arg17) (V c main_arg18) (V c main_arg19) (V c main_arg20)
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t)
    (iblk3 V c 12 t) (iblk3 V c 13 t) (iblk3 V c 14 t) (iblk3 V c 15 t)
    ⟨t.val * 5000 + p.val, by omega⟩ p q
    (fun k => rd0 V c t p k _ rfl) (fun k => rd1 V c t p k _ rfl) (fun k => rd2 V c t p k _ rfl)
    (blk3_eq V c t) (blk4_eq V c t) (blk5_eq V c t) (blk6_eq V c t) (blk7_eq V c t) (blk8_eq V c t)
    (blk9_eq V c t) (blk10_eq V c t) (blk11_eq V c t) (blk12_eq V c t) (blk13_eq V c t) (blk14_eq V c t)
    (blk15_eq V c t)

/-- An index of the array is in point t's block iff each coordinate is in the block's range on its axis. -/
theorem mem_blk16 (t : Fin cfg3.N) (i : S50000x128.Idx) :
    i ∈ ((cfg3.win 16).blk t).view.set ↔ ∀ a : Fin 2, win3_16.index t a * S5000x128.size a ≤ (i a).val
      ∧ (i a).val < win3_16.index t a * S5000x128.size a + S5000x128.size a := by
  show i ∈ ((View.whole main_v26).slice (win3_16.rect t)).set ↔ _
  rw [View.set_slice_whole, Rect.mem_set_unit]
  exact Iff.rfl

/-- Every row is in the block of the point (row / 5000). -/
theorem cover16 (i : S50000x128.Idx) :
    ∃ t : Fin cfg3.N, (cfg3.win 16).flush t = true ∧ i ∈ ((cfg3.win 16).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_16 _, ?_⟩
  rw [mem_blk16]
  obtain ⟨-, -, -, -, -, -, e0, e1⟩ := idx_rows ⟨(i 0).val / 5000, by rw [hN]; omega⟩
  intro a
  match a with
  | ⟨0, _⟩ =>
    show win3_16.index _ (0 : Fin 2) * 5000 ≤ (i 0).val ∧ (i 0).val < win3_16.index _ (0 : Fin 2) * 5000 + 5000
    rw [e0]; show (i 0).val / 5000 * 5000 ≤ (i 0).val ∧ (i 0).val < (i 0).val / 5000 * 5000 + 5000; omega
  | ⟨1, _⟩ =>
    show win3_16.index _ (1 : Fin 2) * 128 ≤ (i 1).val ∧ (i 1).val < win3_16.index _ (1 : Fin 2) * 128 + 128
    rw [e1]; omega

/-- The result array after the region. -/
theorem final16 (c : Dev nD) : (dat3 V c).arrAt 16 cfg3.N
    = Cert.KSpec.blockK (V c main_arg0) (V c main_v22) (V c main_v25) (V c main_v13)
        (V c main_arg13) (V c main_arg14) (V c main_arg15) (V c main_arg16)
        (V c main_arg9) (V c main_arg10) (V c main_arg11) (V c main_arg12)
        (V c main_arg17) (V c main_arg18) (V c main_arg19) (V c main_arg20) :=
  (dat3 V c).arrAt_eq_of_cover 16 (G16 V c) (fun t _ => flushed16_eq V c t) (cover16)

end Cert.KernelIdeal.Reg3

end
-- ==== Proof.KChainC.lean ====
/-
  The kernel program's buffers after its third region (scores and messages of the gathered arrays), after the two
  scatter-adds (the messages and the scores collected per target node) and after its last region: the result buffer
  holds the last region's function of the node features, the two collected arrays, the second grouping matrix and the
  thirteen parameter arrays, all of the launch memory's arguments.
-/
import proofs.«415187_j438086664593_2_alg».proof.Proof.Gen.KernelIdeal.Frame
import proofs.«415187_j438086664593_2_alg».proof.Proof.KChainB
import proofs.«415187_j438086664593_2_alg».proof.Proof.KReg2
import proofs.«415187_j438086664593_2_alg».proof.Proof.KReg3
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Spec Cert.KSpec

variable (m : (ℓ : Loc nD τ sig) → Buf (Elt Ideal) ℓ) (ρ : Dev nD → PrngReg)

section Congr
variable (V : (c : Dev nD) → (b : Ref sig .tc) → Buf (Elt Ideal) ((c : Thread nD τ).loc b))

/-- Region 2's functions of named entry contents. -/
theorem score_of (c : Dev nD) {ks qd ef : A2 800000 128} {eb : A2 800000 8} {g : A2 128 8}
    (h16 : V c main_v16 = ks) (h17 : V c main_v17 = qd) (h150 : V c main_v15_0 = ef) (h151 : V c main_v15_1 = eb)
    (h12 : V c main_v12 = g) :
    scoreK (V c main_v16) (V c main_v17) (V c main_v15_0) (V c main_v15_1) (V c main_v12) = scoreK ks qd ef eb g := by
  subst h16; subst h17; subst h150; subst h151; subst h12; rfl

theorem msg_of (c : Dev nD) {ks qd vs ef : A2 800000 128} {eb : A2 800000 8} {g : A2 128 8} {gt : A2 8 128}
    (h16 : V c main_v16 = ks) (h17 : V c main_v17 = qd) (h18 : V c main_v18 = vs) (h150 : V c main_v15_0 = ef)
    (h151 : V c main_v15_1 = eb) (h12 : V c main_v12 = g) (h13 : V c main_v13 = gt) :
    msgK (V c main_v18) (scoreK (V c main_v16) (V c main_v17) (V c main_v15_0) (V c main_v15_1) (V c main_v12)) (V c main_v13)
      = msgK vs (scoreK ks qd ef eb g) gt := by
  subst h16; subst h17; subst h18; subst h150; subst h151; subst h12; subst h13; rfl

/-- Region 3's function of named entry contents. -/
theorem block_of (c : Dev nD) {h wv : A2 50000 128} {z : A2 50000 8} {gt : A2 8 128} {g1 be1 mu1 va1 : A1 128}
    {W1 : A2 128 256} {b1 : A1 256} {W2 : A2 256 128} {b2 g2 be2 mu2 va2 : A1 128}
    (e0 : V c main_arg0 = h) (e1 : V c main_v22 = wv) (e2 : V c main_v25 = z) (e3 : V c main_v13 = gt)
    (e4 : V c main_arg13 = g1) (e5 : V c main_arg14 = be1) (e6 : V c main_arg15 = mu1) (e7 : V c main_arg16 = va1)
    (e8 : V c main_arg9 = W1) (e9 : V c main_arg10 = b1) (e10 : V c main_arg11 = W2) (e11 : V c main_arg12 = b2)
    (e12 : V c main_arg17 = g2) (e13 : V c main_arg18 = be2) (e14 : V c main_arg19 = mu2) (e15 : V c main_arg20 = va2) :
    blockK (V c main_arg0) (V c main_v22) (V c main_v25) (V c main_v13)
        (V c main_arg13) (V c main_arg14) (V c main_arg15) (V c main_arg16)
        (V c main_arg9) (V c main_arg10) (V c main_arg11) (V c main_arg12)
        (V c main_arg17) (V c main_arg18) (V c main_arg19) (V c main_arg20)
      = blockK h wv z gt g1 be1 mu1 va1 W1 b1 W2 b2 g2 be2 mu2 va2 := by
  subst e0; subst e1; subst e2; subst e3; subst e4; subst e5; subst e6; subst e7; subst e8; subst e9; subst e10; subst e11
  subst e12; subst e13; subst e14; subst e15; rfl
end Congr

/-! ## After region 2 -/

/-- The score and message arrays. -/
abbrev sA (c : Dev nD) : A2 800000 8 :=
  scoreK (ksA m c) (qdA m c) (mmA (m ((c : Thread nD τ).loc main_arg2)) (m ((c : Thread nD τ).loc main_arg6)))
    (mmBias (m ((c : Thread nD τ).loc main_arg2)) (m ((c : Thread nD τ).loc main_arg7)) (m ((c : Thread nD τ).loc main_arg8))) (gA m ρ c)
abbrev mA (c : Dev nD) : A2 800000 128 := msgK (vsA m c) (sA m ρ c) (gtA m ρ c)

theorem W9_v19_0 (c : Dev nD) : W9 m ρ c (Proc.devRef .tc main_v19_0) = sA m ρ c :=
  (W9_arr m ρ c 7).trans ((Reg2.final7 (V8 m ρ) c).trans (score_of (V8 m ρ) c
    (W8_v16 m ρ c) (W8_v17 m ρ c) (W8_v15_0 m ρ c) (W8_v15_1 m ρ c) (W8_v12 m ρ c)))

theorem W9_v19_1 (c : Dev nD) : W9 m ρ c (Proc.devRef .tc main_v19_1) = mA m ρ c :=
  (W9_arr m ρ c 8).trans ((Reg2.final8 (V8 m ρ) c).trans (msg_of (V8 m ρ) c
    (W8_v16 m ρ c) (W8_v17 m ρ c) (W8_v18 m ρ c) (W8_v15_0 m ρ c) (W8_v15_1 m ρ c) (W8_v12 m ρ c) (W8_v13 m ρ c)))

theorem W9_v3 (c : Dev nD) : W9 m ρ c (Proc.devRef .tc main_v3) = Host.dstCol (m ((c : Thread nD τ).loc main_arg1)) :=
  (W9_of_ne m ρ c main_v3 (by decide)).trans (W8_v3 m ρ c)
/-- The second grouping matrix is an input window of region 2: its array is unchanged by the region. -/
theorem W9_v13 (c : Dev nD) : W9 m ρ c (Proc.devRef .tc main_v13) = gtA m ρ c :=
  ((W9_arr m ρ c 6).trans (((dat2 (V8 m ρ) c).arrAt_in 6 rfl _).trans (A_eq2 (V8 m ρ) c 6))).trans (W8_v13 m ρ c)

/-! ## The scatter-adds, over any contents X of the boundary before them -/

section Scatter
variable (X : Valuation τ sig (Elt Ideal))

/-- Rows scattered and added into zeros: the collected messages. -/
def collect128 (idx : IVec S800000 32) (upd : A2 800000 128) : A2 50000 128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 idx) upd
/-- The collected scores. -/
def collect8 (idx : IVec S800000 32) (upd : A2 800000 8) : A2 50000 8 :=
  Host.scatterAdd scatter_S50000x8_S800000x1_S800000x8_1_0_0_1
    (broadcastInDim S50000x8 ![] bcast_S_S50000x8 (constant (F := Ideal) S_ .f32 0x00000000#32))
    (broadcastInDim S800000x1 ![0] bcast_S800000_S800000x1_0 idx) upd

theorem scat1 : StableHlo.after hostOps3 X (Proc.devRef .tc main_v22)
    = collect128 (X (Proc.devRef .tc main_v3)) (X (Proc.devRef .tc main_v19_1)) := by
  dsimp only [hostOps3]
  after_results <;> rfl
theorem scat2 : StableHlo.after hostOps3 X (Proc.devRef .tc main_v25)
    = collect8 (X (Proc.devRef .tc main_v3)) (X (Proc.devRef .tc main_v19_0)) := by
  dsimp only [hostOps3]
  after_results <;> rfl
theorem scatKeep13 : StableHlo.after hostOps3 X (Proc.devRef .tc main_v13) = X (Proc.devRef .tc main_v13) := by
  dsimp only [hostOps3]
  after_results
end Scatter

theorem collect128_of {i i' : IVec S800000 32} {u u' : A2 800000 128} (hi : i = i') (hu : u = u') :
    collect128 i u = collect128 i' u' := by subst hi; subst hu; rfl
theorem collect8_of {i i' : IVec S800000 32} {u u' : A2 800000 8} (hi : i = i') (hu : u = u') :
    collect8 i u = collect8 i' u' := by subst hi; subst hu; rfl

/-- The collected messages and scores. -/
abbrev wvA (c : Dev nD) : A2 50000 128 := collect128 (Host.dstCol (m ((c : Thread nD τ).loc main_arg1))) (mA m ρ c)
abbrev zA (c : Dev nD) : A2 50000 8 := collect8 (Host.dstCol (m ((c : Thread nD τ).loc main_arg1))) (sA m ρ c)

theorem W10_v22 (c : Dev nD) : W10 m ρ c (Proc.devRef .tc main_v22) = wvA m ρ c :=
  (scat1 (W9 m ρ c)).trans (collect128_of (W9_v3 m ρ c) (W9_v19_1 m ρ c))
theorem W10_v25 (c : Dev nD) : W10 m ρ c (Proc.devRef .tc main_v25) = zA m ρ c :=
  (scat2 (W9 m ρ c)).trans (collect8_of (W9_v3 m ρ c) (W9_v19_0 m ρ c))
theorem W10_v13 (c : Dev nD) : W10 m ρ c (Proc.devRef .tc main_v13) = gtA m ρ c :=
  (scatKeep13 (W9 m ρ c)).trans (W9_v13 m ρ c)

/-! ## After region 3 -/

/-- The result buffer at the last boundary: the last region's function of what it read. -/
theorem W11_v26 (c : Dev nD) : W11 m ρ c (Proc.devRef .tc main_v26)
    = blockK (m ((c : Thread nD τ).loc main_arg0)) (wvA m ρ c) (zA m ρ c) (gtA m ρ c)
        (m ((c : Thread nD τ).loc main_arg13)) (m ((c : Thread nD τ).loc main_arg14)) (m ((c : Thread nD τ).loc main_arg15)) (m ((c : Thread nD τ).loc main_arg16))
        (m ((c : Thread nD τ).loc main_arg9)) (m ((c : Thread nD τ).loc main_arg10)) (m ((c : Thread nD τ).loc main_arg11)) (m ((c : Thread nD τ).loc main_arg12))
        (m ((c : Thread nD τ).loc main_arg17)) (m ((c : Thread nD τ).loc main_arg18)) (m ((c : Thread nD τ).loc main_arg19)) (m ((c : Thread nD τ).loc main_arg20)) :=
  (W11_arr m ρ c 16).trans ((Reg3.final16 (V10 m ρ) c).trans (block_of (V10 m ρ) c
    (V10_arg0 m ρ c) (W10_v22 m ρ c) (W10_v25 m ρ c) (W10_v13 m ρ c)
    (V10_arg13 m ρ c) (V10_arg14 m ρ c) (V10_arg15 m ρ c) (V10_arg16 m ρ c)
    (V10_arg9 m ρ c) (V10_arg10 m ρ c) (V10_arg11 m ρ c) (V10_arg12 m ρ c)
    (V10_arg17 m ρ c) (V10_arg18 m ρ c) (V10_arg19 m ρ c) (V10_arg20 m ρ c)))

end Cert.KernelIdeal.Chain

end
-- ==== Proof.KAlg.lean ====
/-
  The four regions composed are the specification (nothing here depends on a program).

  Given that the grouping matrices are the 0/1 indicators of "feature d is in head hh", that the three gathered
  arrays are the projections' rows at the edges' end points, and that the two collected arrays are the sums over the
  edges pointing at a node, the last region's result is the layer's result: the sum over all features against the
  indicator is the sum over the head's sixteen lanes, and the sum over the heads against the indicator picks the
  feature's head.
-/
import proofs.«415187_j438086664593_2_alg».proof.Proof.KSpec

noncomputable section

namespace Cert.KAlg

open Idealize.ShloMosaic Idealize.ShloMosaic.ValueIdx Cert.Spec Cert.KSpec

variable (h : A2 50000 128) (ei : IVec ⟨2, ![2, 800000]⟩ 32) (ea : A2 800000 128)
  (WQ WK WV WE : A2 128 128) (WEb : A2 128 8) (bEb : A1 8)
  (W1 : A2 128 256) (b1 : A1 256) (W2 : A2 256 128) (b2 g1 be1 mu1 va1 g2 be2 mu2 va2 : A1 128)
  (g : A2 128 8) (gt : A2 8 128) (ks qd vs : A2 800000 128) (wv : A2 50000 128) (z : A2 50000 8)

/-- The edge score, from the gathered rows and the grouping matrix. -/
theorem score_eq (hg : ∀ (d : Fin 128) (hh : Fin 8), g (ix2 d hh) = if hd d = hh then 1 else 0)
    (hks : ∀ (e : Fin 800000) (d : Fin 128), ks (ix2 e d) = mm h WK (src ei e) d)
    (hqd : ∀ (e : Fin 800000) (d : Fin 128), qd (ix2 e d) = mm h WQ (dst ei e) d)
    (e : Fin 800000) (hh : Fin 8) :
    scoreK ks qd (mmA ea WE) (mmBias ea WEb bEb) g (ix2 e hh) = score h ei ea WQ WK WE WEb bEb e hh := by
  unfold scoreK score
  have hs : (∑ d : Fin 128, (ks (ix2 e d) * qd (ix2 e d) * mmA ea WE (ix2 e d)) * g (ix2 d hh))
      = ∑ j : Fin 16, kqe h ei ea WQ WK WE e (lane hh j) := by
    rw [sum_group (fun d => ks (ix2 e d) * qd (ix2 e d) * mmA ea WE (ix2 e d)) (fun d => g (ix2 d hh)) hh
      (fun d => hg d hh)]
    refine Finset.sum_congr rfl fun j _ => ?_
    show ks (ix2 e (lane hh j)) * qd (ix2 e (lane hh j)) * mmA ea WE (ix2 e (lane hh j)) = _
    rw [hks, hqd]
    rfl
  show Ideal.exp (min cHi (max cLo ((∑ d : Fin 128, (ks (ix2 e d) * qd (ix2 e d) * mmA ea WE (ix2 e d)) * g (ix2 d hh))
    * cQuarter + mmBias ea WEb bEb (ix2 e hh)))) = _
  rw [hs]
  rfl

/-- The edge message, from the gathered rows and the grouping matrices. -/
theorem msg_eq (hg : ∀ (d : Fin 128) (hh : Fin 8), g (ix2 d hh) = if hd d = hh then 1 else 0)
    (hgt : ∀ (hh : Fin 8) (d : Fin 128), gt (ix2 hh d) = if hd d = hh then 1 else 0)
    (hks : ∀ (e : Fin 800000) (d : Fin 128), ks (ix2 e d) = mm h WK (src ei e) d)
    (hqd : ∀ (e : Fin 800000) (d : Fin 128), qd (ix2 e d) = mm h WQ (dst ei e) d)
    (hvs : ∀ (e : Fin 800000) (d : Fin 128), vs (ix2 e d) = mm h WV (src ei e) d)
    (e : Fin 800000) (d : Fin 128) :
    msgK vs (scoreK ks qd (mmA ea WE) (mmBias ea WEb bEb) g) gt (ix2 e d) = msg h ei ea WQ WK WV WE WEb bEb e d := by
  unfold msgK msg
  show vs (ix2 e d) * ∑ hh : Fin 8, scoreK ks qd (mmA ea WE) (mmBias ea WEb bEb) g (ix2 e hh) * gt (ix2 hh d) = _
  rw [sum_bcast (fun hh => scoreK ks qd (mmA ea WE) (mmBias ea WEb bEb) g (ix2 e hh)) (fun hh => gt (ix2 hh d)) d
    (fun hh => hgt hh d), hvs, score_eq h ei ea WQ WK WE WEb bEb g ks qd hg hks hqd]

/-- The last region's result is the layer's. -/
theorem block_eq (hg : ∀ (d : Fin 128) (hh : Fin 8), g (ix2 d hh) = if hd d = hh then 1 else 0)
    (hgt : ∀ (hh : Fin 8) (d : Fin 128), gt (ix2 hh d) = if hd d = hh then 1 else 0)
    (hks : ∀ (e : Fin 800000) (d : Fin 128), ks (ix2 e d) = mm h WK (src ei e) d)
    (hqd : ∀ (e : Fin 800000) (d : Fin 128), qd (ix2 e d) = mm h WQ (dst ei e) d)
    (hvs : ∀ (e : Fin 800000) (d : Fin 128), vs (ix2 e d) = mm h WV (src ei e) d)
    (hwv : ∀ (n : Fin 50000) (d : Fin 128), wv (ix2 n d) = ∑ e : Fin 800000,
      if (ei (ix2 1 e)).toInt = (n.val : Int)
        then msgK vs (scoreK ks qd (mmA ea WE) (mmBias ea WEb bEb) g) gt (ix2 e d) else 0)
    (hz : ∀ (n : Fin 50000) (hh : Fin 8), z (ix2 n hh) = ∑ e : Fin 800000,
      if (ei (ix2 1 e)).toInt = (n.val : Int) then scoreK ks qd (mmA ea WE) (mmBias ea WEb bEb) g (ix2 e hh) else 0) :
    blockK h wv z gt g1 be1 mu1 va1 W1 b1 W2 b2 g2 be2 mu2 va2
      = outA h ei ea WQ WK WV WE WEb bEb W1 b1 W2 b2 g1 be1 mu1 va1 g2 be2 mu2 va2 := by
  have hwv' : ∀ n d, wv (ix2 n d) = wV h ei ea WQ WK WV WE WEb bEb n d := fun n d => by
    rw [hwv]; unfold wV
    exact Finset.sum_congr rfl fun e _ => by
      rw [msg_eq h ei ea WQ WK WV WE WEb bEb g gt ks qd vs hg hgt hks hqd hvs]
  have hz' : ∀ n hh, z (ix2 n hh) = zs h ei ea WQ WK WE WEb bEb n hh := fun n hh => by
    rw [hz]; unfold zs
    exact Finset.sum_congr rfl fun e _ => by
      rw [score_eq h ei ea WQ WK WE WEb bEb g ks qd hg hks hqd]
  have hx : ∀ n d, x1K h wv z gt g1 be1 mu1 va1 n d = x1 h ei ea WQ WK WV WE WEb bEb g1 be1 mu1 va1 n d := fun n d => by
    unfold x1K x1 att
    rw [sum_bcast (fun hh => z (ix2 n hh)) (fun hh => gt (ix2 hh d)) d (fun hh => hgt hh d), hwv', hz']
  have hh' : ∀ n f, hidK h wv z gt g1 be1 mu1 va1 W1 b1 n f
      = hid h ei ea WQ WK WV WE WEb bEb W1 b1 g1 be1 mu1 va1 n f := fun n f => by
    unfold hidK hid
    rw [Finset.sum_congr rfl fun k _ => by rw [hx n k]]
  funext i
  obtain ⟨n, d, rfl⟩ : ∃ (n : Fin 50000) (d : Fin 128), i = ix2 n d := ⟨i 0, i 1, eq_ix2 i⟩
  show outK h wv z gt g1 be1 mu1 va1 W1 b1 W2 b2 g2 be2 mu2 va2 n d
    = out h ei ea WQ WK WV WE WEb bEb W1 b1 W2 b2 g1 be1 mu1 va1 g2 be2 mu2 va2 n d
  unfold outK out ff
  rw [hx, Finset.sum_congr rfl fun f _ => by rw [hh' n f]]

end Cert.KAlg

end
-- ==== Proof.KChain.lean ====
/-
  The kernel program's result buffer holds the layer's result, when every index word is a node.

  The two collected arrays, read at an entry, are the sums over the edges whose target word is the node; the three
  gathered arrays are the projections' rows at the edges' end points (the take's range test passes); the grouping
  matrices are the indicators of "feature d lies in head hh". With these the algebra of the composed regions applies.
-/
import proofs.«415187_j438086664593_2_alg».proof.Proof.Gen.KernelIdeal.Frame
import proofs.«415187_j438086664593_2_alg».proof.Proof.KChainC
import proofs.«415187_j438086664593_2_alg».proof.Proof.KAlg
import proofs.«415187_j438086664593_2_alg».proof.Proof.LibRowGatherScatter

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Spec Cert.KSpec

variable (m : (ℓ : Loc nD τ sig) → Buf (Elt Ideal) ℓ) (ρ : Dev nD → PrngReg)

/-- Rows scattered and added into zeros, at (n, q): the sum over the edges whose target word is n. -/
theorem rows_sum {W : Nat} (wf : ScatterDims.WF ⟨2, ![50000, W]⟩ ⟨2, ![800000, 1]⟩ ⟨2, ![800000, W]⟩ [1] [0] [0] 1)
    (hb : S_.BroadcastsInDim ⟨2, ![50000, W]⟩ ![]) (ei : IVec S2x800000 32) (upd : A2 800000 W) (n : Fin 50000) (q : Fin W) :
    Ideal.hostScatterAdd (Cert.Lib.RowPass.scD 50000 800000 W wf)
        (broadcastInDim ⟨2, ![50000, W]⟩ ![] hb (constant (F := Ideal) S_ .f32 0x00000000#32))
        (broadcastInDim S800000x1 ![0] bcast_S800000_S800000x1_0 (Host.dstCol ei)) upd (ix2 n q)
      = ∑ e : Fin 800000, if (ei (ix2 1 e)).toInt = (n.val : Int) then upd (ix2 e q) else 0 := by
  refine (Cert.Lib.RowPass.sc_apply wf _ _ upd n q).trans ?_
  rw [Host.bc_scalar]
  show Ideal.ofBits .f32 0x00000000#32 + _ = _
  rw [Ideal.ofBits_zero_f32, zero_add]
  refine Finset.sum_congr rfl fun e _ => ?_
  rw [Host.bc_col, Host.dstCol_apply]

/-- The host's accumulating scatter is, at the ideal values, the exact sum (over any operands). -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The two printed scatter records are row scatters. -/
theorem rec128 : scatter_S50000x128_S800000x1_S800000x128_1_0_0_1
    = Cert.Lib.RowPass.scD 50000 800000 128 scatter_S50000x128_S800000x1_S800000x128_1_0_0_1_wf := rfl
theorem rec8 : scatter_S50000x8_S800000x1_S800000x8_1_0_0_1
    = Cert.Lib.RowPass.scD 50000 800000 8 scatter_S50000x8_S800000x1_S800000x8_1_0_0_1_wf := rfl

/-- The collected messages and scores at an entry, over any index array and updates. -/
theorem collect128_apply (ei : IVec S2x800000 32) (upd : A2 800000 128) (n : Fin 50000) (q : Fin 128) :
    collect128 (Host.dstCol ei) upd (ix2 n q)
      = ∑ e : Fin 800000, if (ei (ix2 1 e)).toInt = (n.val : Int) then upd (ix2 e q) else 0 := by
  unfold collect128
  rw [scatterAdd_ideal, rec128]
  exact rows_sum (W := 128) scatter_S50000x128_S800000x1_S800000x128_1_0_0_1_wf bcast_S_S50000x128 ei upd n q
theorem collect8_apply (ei : IVec S2x800000 32) (upd : A2 800000 8) (n : Fin 50000) (q : Fin 8) :
    collect8 (Host.dstCol ei) upd (ix2 n q)
      = ∑ e : Fin 800000, if (ei (ix2 1 e)).toInt = (n.val : Int) then upd (ix2 e q) else 0 := by
  unfold collect8
  rw [scatterAdd_ideal, rec8]
  exact rows_sum (W := 8) scatter_S50000x8_S800000x1_S800000x8_1_0_0_1_wf bcast_S_S50000x8 ei upd n q

/-- A take of a table at an index column of the index array, when every word of that row of the index array is a
    node. -/
theorem take_src (x : A2 50000 128) (ei : IVec S2x800000 32)
    (hlo : ∀ (r : Fin 2) (e : Fin 800000), 0 ≤ (ei (ix2 r e)).toInt)
    (hhi : ∀ (r : Fin 2) (e : Fin 800000), (ei (ix2 r e)).toInt < 50000) (e : Fin 800000) (d : Fin 128) :
    Host.takeF x (Host.srcCol ei) (ix2 e d) = x (ix2 (src ei e) d) := by
  rw [Host.takeF_apply x _ (fun e => by rw [Host.srcCol_apply]; exact hlo 0 e)
    (fun e => by rw [Host.srcCol_apply]; exact hhi 0 e), Host.srcCol_apply]
  rfl
theorem take_dst (x : A2 50000 128) (ei : IVec S2x800000 32)
    (hlo : ∀ (r : Fin 2) (e : Fin 800000), 0 ≤ (ei (ix2 r e)).toInt)
    (hhi : ∀ (r : Fin 2) (e : Fin 800000), (ei (ix2 r e)).toInt < 50000) (e : Fin 800000) (d : Fin 128) :
    Host.takeF x (Host.dstCol ei) (ix2 e d) = x (ix2 (dst ei e) d) := by
  rw [Host.takeF_apply x _ (fun e => by rw [Host.dstCol_apply]; exact hlo 1 e)
    (fun e => by rw [Host.dstCol_apply]; exact hhi 1 e), Host.dstCol_apply]
  rfl

/-- When every index word is a node, the kernel program's result buffer holds the layer's result. -/
theorem result_eq (c : Dev nD)
    (hlo : ∀ (r : Fin 2) (e : Fin 800000), 0 ≤ ((m ((c : Thread nD τ).loc main_arg1) : IVec S2x800000 32) (ix2 r e)).toInt)
    (hhi : ∀ (r : Fin 2) (e : Fin 800000), ((m ((c : Thread nD τ).loc main_arg1) : IVec S2x800000 32) (ix2 r e)).toInt < 50000) :
    W11 m ρ c (Proc.devRef .tc main_v26)
      = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W11_v26 m ρ c).trans ?_
  have hks : ∀ (e : Fin 800000) (d : Fin 128), ksA m c (ix2 e d)
      = mm (m ((c : Thread nD τ).loc main_arg0)) (m ((c : Thread nD τ).loc main_arg4)) (src (m ((c : Thread nD τ).loc main_arg1)) e) d :=
    fun e d => take_src (mmA (m ((c : Thread nD τ).loc main_arg0)) (m ((c : Thread nD τ).loc main_arg4))) (m ((c : Thread nD τ).loc main_arg1)) hlo hhi e d
  have hqd : ∀ (e : Fin 800000) (d : Fin 128), qdA m c (ix2 e d)
      = mm (m ((c : Thread nD τ).loc main_arg0)) (m ((c : Thread nD τ).loc main_arg3)) (dst (m ((c : Thread nD τ).loc main_arg1)) e) d :=
    fun e d => take_dst (mmA (m ((c : Thread nD τ).loc main_arg0)) (m ((c : Thread nD τ).loc main_arg3))) (m ((c : Thread nD τ).loc main_arg1)) hlo hhi e d
  have hvs : ∀ (e : Fin 800000) (d : Fin 128), vsA m c (ix2 e d)
      = mm (m ((c : Thread nD τ).loc main_arg0)) (m ((c : Thread nD τ).loc main_arg5)) (src (m ((c : Thread nD τ).loc main_arg1)) e) d :=
    fun e d => take_src (mmA (m ((c : Thread nD τ).loc main_arg0)) (m ((c : Thread nD τ).loc main_arg5))) (m ((c : Thread nD τ).loc main_arg1)) hlo hhi e d
  have hwv : ∀ (n : Fin 50000) (d : Fin 128), wvA m ρ c (ix2 n d) = ∑ e : Fin 800000,
      if ((m ((c : Thread nD τ).loc main_arg1) : IVec S2x800000 32) (ix2 1 e)).toInt = (n.val : Int) then mA m ρ c (ix2 e d) else 0 :=
    fun n d => collect128_apply (m ((c : Thread nD τ).loc main_arg1)) (mA m ρ c) n d
  have hz : ∀ (n : Fin 50000) (hh : Fin 8), zA m ρ c (ix2 n hh) = ∑ e : Fin 800000,
      if ((m ((c : Thread nD τ).loc main_arg1) : IVec S2x800000 32) (ix2 1 e)).toInt = (n.val : Int) then sA m ρ c (ix2 e hh) else 0 :=
    fun n hh => collect8_apply (m ((c : Thread nD τ).loc main_arg1)) (sA m ρ c) n hh
  exact Cert.KAlg.block_eq _ _ _ _ _ _ _ _ _ _ _ _ _ _ _ _ _ _ _ _ _
    (gA m ρ c) (gtA m ρ c) (ksA m c) (qdA m c) (vsA m c) (wvA m ρ c) (zA m ρ c)
    (gA_apply m ρ c) (gtA_apply m ρ c) hks hqd hvs hwv hz

end Cert.KernelIdeal.Chain

end
-- ==== Proof.LibRowGatherScatter3.lean ====
/-
  A row gather and a row scatter-add over a rank-3 operand, read at an entry (a general lemma: nothing here depends
  on a program).

  For an operand of shape [N, A, B], index arrays of shape [E, 1] and updates of shape [E, A, B], the row
  scatter-add (update window axes 1 and 2, inserted window axis 0, scatter axis 0, index vector axis 1) at entry
  (n, a, b) is x[n, a, b] plus the sum, over the edges e whose index dst[e], read signed, is n, of the update
  (e, a, b): an edge whose index is not a row contributes nothing. The row gather (offset axes 1 and 2, collapsed
  axis 0, start index map [0], index vector axis 1, slice sizes [1, A, B]) at (e, a, b) is the operand at row
  min(src[e], N - 1) (the index read signed and clamped), entry (a, b) of that row.
-/
import Idealize.ShloMosaic.Lib.ValueIdx
import Idealize.ShloMosaic.PureOps.Ideal.Laws

noncomputable section

namespace Cert.Lib.RowPass3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv p := rfl

/-- A sum over a rank-3 index set is the triple sum over its coordinates. -/
theorem sum_idx3 {M : Type*} [AddCommMonoid M] {n0 n1 n2 : Nat} (f : (⟨3, ![n0, n1, n2]⟩ : Shape).Idx → M) :
    ∑ j, f j = ∑ a, ∑ b, ∑ c, f (ix3 a b c) := by
  rw [← Equiv.sum_comp idxEquiv3.symm f, Fintype.sum_prod_type]
  refine Finset.sum_congr rfl fun a _ => ?_
  rw [Fintype.sum_prod_type]
  rfl

/-- An axis of a rank-3 shape is 0, 1 or 2. -/
theorem fin3_cases (a : Fin 3) : a = 0 ∨ a = 1 ∨ a = 2 := by
  revert a; decide

section Generic

/-- The row scatter's dimension numbers over an operand [N, A, B], indices [E, 1] and updates [E, A, B]. -/
abbrev scD (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat}
  (wf : ScatterDims.WF ⟨3, ![N, A, B]⟩ ⟨2, ![E, 1]⟩ ⟨3, ![E, A, B]⟩ [1, 2] [0] [0] 1)

/-- On the row axis the window of update (e, a, b) starts at dst[e], read signed. -/
theorem sc_start0 (idx : IVec ⟨2, ![E, 1]⟩ w) (e : Fin E) (a : Fin A) (b : Fin B) :
    (scD N E A B wf).start (ix3 e a b) idx 0 = (idx (ix2 e 0)).toInt := by
  unfold ScatterDims.start
  rw [dif_pos (show (0 : Fin 3) ∈ (scD N E A B wf).scatterDimsToOperandDims from List.mem_singleton.mpr rfl)]
  congr 2
  funext c
  match c with
  | ⟨0, _⟩ => rfl
  | ⟨1, _⟩ => rfl

/-- On the two window axes every window starts at 0. -/
theorem sc_start1 (idx : IVec ⟨2, ![E, 1]⟩ w) (e : Fin E) (a : Fin A) (b : Fin B) :
    (scD N E A B wf).start (ix3 e a b) idx 1 = 0 := by
  unfold ScatterDims.start
  rw [dif_neg (show (1 : Fin 3) ∉ ([0] : List (Fin 3)) by decide)]

theorem sc_start2 (idx : IVec ⟨2, ![E, 1]⟩ w) (e : Fin E) (a : Fin A) (b : Fin B) :
    (scD N E A B wf).start (ix3 e a b) idx 2 = 0 := by
  unfold ScatterDims.start
  rw [dif_neg (show (2 : Fin 3) ∉ ([0] : List (Fin 3)) by decide)]

/-- The row axis is inserted: the window coordinate there is 0. -/
theorem sc_window0 (e : Fin E) (a : Fin A) (b : Fin B) : (scD N E A B wf).window (ix3 e a b) 0 = 0 := by
  unfold ScatterDims.window
  have h : (0 : Fin 3) ∉ (scD N E A B wf).sKept :=
    (by decide : (0 : Fin 3) ∉ (List.finRange 3).filter (fun a => a ∉ ([0] : List (Fin 3))))
  rw [dif_neg h]

/-- On the window axes the window coordinates of update (e, a, b) are a and b. -/
theorem sc_window1 (e : Fin E) (a : Fin A) (b : Fin B) : (scD N E A B wf).window (ix3 e a b) 1 = a.val := by
  unfold ScatterDims.window
  have h : (1 : Fin 3) ∈ (scD N E A B wf).sKept :=
    (by decide : (1 : Fin 3) ∈ (List.finRange 3).filter (fun a => a ∉ ([0] : List (Fin 3))))
  rw [dif_pos h]
  rfl

theorem sc_window2 (e : Fin E) (a : Fin A) (b : Fin B) : (scD N E A B wf).window (ix3 e a b) 2 = b.val := by
  unfold ScatterDims.window
  have h : (2 : Fin 3) ∈ (scD N E A B wf).sKept :=
    (by decide : (2 : Fin 3) ∈ (List.finRange 3).filter (fun a => a ∉ ([0] : List (Fin 3))))
  rw [dif_pos h]
  rfl

/-- Update (e, a, b) lands at (n, a', b') exactly when dst[e] = n, a = a' and b = b' (an update whose dst[e] is not
    a row lands nowhere). -/
theorem sc_result_iff (idx : IVec ⟨2, ![E, 1]⟩ w) (e : Fin E) (a a' : Fin A) (b b' : Fin B) (n : Fin N) :
    (scD N E A B wf).resultIdx? (ix3 e a b) idx = some (ix3 n a' b')
      ↔ (idx (ix2 e 0)).toInt = (n.val : Int) ∧ a = a' ∧ b = b' := by
  have ha := a.isLt
  have hb := b.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      have e2 := congrArg (fun f => (f 2).val) hs'
      simp only [sc_start0, sc_start1, sc_start2, sc_window0, sc_window1, sc_window2] at e0 e1 e2
      refine ⟨?_, Fin.ext ?_, Fin.ext ?_⟩
      · change _ = n.val at e0
        omega
      · change _ = a'.val at e1
        omega
      · change _ = b'.val at e2
        omega
    · rintro ⟨ht, rfl, rfl⟩
      congr 1
      funext c
      refine Fin.ext ?_
      rcases fin3_cases c with rfl | rfl | rfl
      · show ((scD N E A B wf).start (ix3 e a b) idx 0 + ((scD N E A B wf).window (ix3 e a b) 0 : Int)).toNat = n.val
        rw [sc_start0, sc_window0, ht]; omega
      · show ((scD N E A B wf).start (ix3 e a b) idx 1 + ((scD N E A B wf).window (ix3 e a b) 1 : Int)).toNat = a.val
        rw [sc_start1, sc_window1]; omega
      · show ((scD N E A B wf).start (ix3 e a b) idx 2 + ((scD N E A B wf).window (ix3 e a b) 2 : Int)).toNat = b.val
        rw [sc_start2, sc_window2]; omega
  · rename_i h
    constructor
    · intro hs; exact absurd hs (by simp)
    · rintro ⟨ht, rfl, rfl⟩
      exfalso; apply h
      intro c
      rcases fin3_cases c with rfl | rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (a.val : Int) ∧ 0 + (a.val : Int) < (A : Int)
        omega
      · rw [sc_start2, sc_window2]
        show (0 : Int) ≤ 0 + (b.val : Int) ∧ 0 + (b.val : Int) < (B : Int)
        omega

/-- The scatter-add at entry (n, a, b): x[n, a, b] plus the sum over the edges e with dst[e] = n of the update
    (e, a, b). -/
theorem sc_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (scD N E A B wf) x idx upd (ix3 n a b)
      = x (ix3 n a b) + ∑ e : Fin E, if (idx (ix2 e 0)).toInt = (n.val : Int) then upd (ix3 e a b) else 0 := by
  show x (ix3 n a b) + ∑ j ∈ Finset.univ.filter
      (fun j => (scD N E A B wf).resultIdx? j idx = some (ix3 n a b)), upd j = _
  congr 1
  rw [Finset.sum_filter, sum_idx3]
  refine Finset.sum_congr rfl fun e _ => ?_
  rw [Finset.sum_congr rfl fun a' _ => Finset.sum_congr rfl fun b' _ =>
    if_congr (sc_result_iff wf idx e a' a b' b n) rfl rfl]
  by_cases ht : (idx (ix2 e 0)).toInt = (n.val : Int)
  · simp only [ht, true_and, if_true]
    rw [Finset.sum_eq_single a]
    · rw [Finset.sum_eq_single b]
      · simp
      · intro b' _ hb'; simp [hb']
      · intro h; exact absurd (Finset.mem_univ _) h
    · intro a' _ ha'; simp [ha']
    · intro h; exact absurd (Finset.mem_univ _) h
  · simp [ht]

/-- The row gather's dimension numbers over an operand [N, A, B], start indices [E, 1] and a result [E, A, B]. -/
abbrev gaD (N E A B : Nat)
    (wfg : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wfg

variable (wfg : GatherDims.WF ⟨3, ![N, A, B]⟩ ⟨2, ![E, 1]⟩ ⟨3, ![E, A, B]⟩ [1, 2] [0] [] [0] [] 1 ![1, A, B])

/-- On the row axis the slice of result (e, a, b) starts at src[e], read signed and clamped into [0, N - 1]. -/
theorem ga_start0 (idx : IVec ⟨2, ![E, 1]⟩ w) (e : Fin E) (a : Fin A) (b : Fin B) :
    (gaD N E A B wfg).start (ix3 e a b) idx 0 = min (idx (ix2 e 0)).toInt.toNat (N - 1) := by
  unfold GatherDims.start
  rw [dif_pos (show (0 : Fin 3) ∈ (gaD N E A B wfg).startIndexMap from List.mem_singleton.mpr rfl)]
  have hsi : (gaD N E A B wfg).siIdx (ix3 e a b) ⟨List.idxOf (0 : Fin 3) (gaD N E A B wfg).startIndexMap,
      List.idxOf_lt_length_iff.2 (List.mem_singleton.mpr rfl)⟩ = ix2 e 0 := by
    funext c
    match c with
    | ⟨0, _⟩ => rfl
    | ⟨1, _⟩ => rfl
  rw [hsi]
  rfl

/-- On the two offset axes every slice starts at 0. -/
theorem ga_start1 (idx : IVec ⟨2, ![E, 1]⟩ w) (e : Fin E) (a : Fin A) (b : Fin B) :
    (gaD N E A B wfg).start (ix3 e a b) idx 1 = 0 := by
  unfold GatherDims.start
  rw [dif_neg (show (1 : Fin 3) ∉ ([0] : List (Fin 3)) by decide)]

theorem ga_start2 (idx : IVec ⟨2, ![E, 1]⟩ w) (e : Fin E) (a : Fin A) (b : Fin B) :
    (gaD N E A B wfg).start (ix3 e a b) idx 2 = 0 := by
  unfold GatherDims.start
  rw [dif_neg (show (2 : Fin 3) ∉ ([0] : List (Fin 3)) by decide)]

/-- The row axis is collapsed: the offset coordinate there is 0. -/
theorem ga_off0 (e : Fin E) (a : Fin A) (b : Fin B) : (gaD N E A B wfg).offCoord (ix3 e a b) 0 = 0 := by
  unfold GatherDims.offCoord
  have h : (0 : Fin 3) ∉ (gaD N E A B wfg).sKept :=
    (by decide : (0 : Fin 3) ∉ (List.finRange 3).filter (fun a => a ∉ ([0] ++ [] : List (Fin 3))))
  rw [dif_neg h]

/-- On the offset axes the offset coordinates of result (e, a, b) are a and b. -/
theorem ga_off1 (e : Fin E) (a : Fin A) (b : Fin B) : (gaD N E A B wfg).offCoord (ix3 e a b) 1 = a.val := by
  unfold GatherDims.offCoord
  have h : (1 : Fin 3) ∈ (gaD N E A B wfg).sKept :=
    (by decide : (1 : Fin 3) ∈ (List.finRange 3).filter (fun a => a ∉ ([0] ++ [] : List (Fin 3))))
  rw [dif_pos h]
  rfl

theorem ga_off2 (e : Fin E) (a : Fin A) (b : Fin B) : (gaD N E A B wfg).offCoord (ix3 e a b) 2 = b.val := by
  unfold GatherDims.offCoord
  have h : (2 : Fin 3) ∈ (gaD N E A B wfg).sKept :=
    (by decide : (2 : Fin 3) ∈ (List.finRange 3).filter (fun a => a ∉ ([0] ++ [] : List (Fin 3))))
  rw [dif_pos h]
  rfl

/-- The gather at (e, a, b): the operand at row min(src[e], N - 1), entry (a, b). -/
theorem ga_apply {α : Type} (hN : 0 < N) (H : (⟨3, ![N, A, B]⟩ : Shape).Idx → α) (idx : IVec ⟨2, ![E, 1]⟩ w)
    (e : Fin E) (a : Fin A) (b : Fin B) :
    Host.gather (gaD N E A B wfg) H idx (ix3 e a b)
      = H (ix3 ⟨min (idx (ix2 e 0)).toInt.toNat (N - 1), by omega⟩ a b) := by
  unfold Host.gather
  congr 1
  funext c
  refine Fin.ext ?_
  rcases fin3_cases c with rfl | rfl | rfl
  · show (gaD N E A B wfg).start (ix3 e a b) idx 0 + (gaD N E A B wfg).batchCoord (ix3 e a b) 0
      + (gaD N E A B wfg).offCoord (ix3 e a b) 0 = min (idx (ix2 e 0)).toInt.toNat (N - 1)
    rw [ga_start0, ga_off0, GatherDims.batchCoord_eq_zero _ _ _ List.not_mem_nil, Nat.add_zero]
  · show (gaD N E A B wfg).start (ix3 e a b) idx 1 + (gaD N E A B wfg).batchCoord (ix3 e a b) 1
      + (gaD N E A B wfg).offCoord (ix3 e a b) 1 = a.val
    rw [ga_start1, ga_off1, GatherDims.batchCoord_eq_zero _ _ _ List.not_mem_nil]
    omega
  · show (gaD N E A B wfg).start (ix3 e a b) idx 2 + (gaD N E A B wfg).batchCoord (ix3 e a b) 2
      + (gaD N E A B wfg).offCoord (ix3 e a b) 2 = b.val
    rw [ga_start2, ga_off2, GatherDims.batchCoord_eq_zero _ _ _ List.not_mem_nil]
    omega

end Generic

end Cert.Lib.RowPass3

end
-- ==== Proof.RefEdge.lean ====
/-
  The reference's edge stage: per edge and head the score, per edge and feature the message.

  The stages, each read at explicit coordinates: the two rows of the index array as columns; the negative-index
  wrap, which is the identity on an index that is a node; the four projections rows by columns, with feature
  16·hh + j at head hh and lane j; the three row gathers, which read the projections at the clamped source and
  target rows; the product K[src]·Q[dst]·Ef, its sum over the 16 lanes, the scaling by 1/4, the edge bias, the clip
  and the exponential; and the message, V[src] times the score of the head.
-/
import proofs.«415187_j438086664593_2_alg».proof.Proof.Gen.ReferenceIdeal.Read
import proofs.«415187_j438086664593_2_alg».proof.Proof.Spec
import proofs.«415187_j438086664593_2_alg».proof.Proof.LibRowGatherScatter3
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Read
open Idealize.ShloMosaic Idealize.ShloMosaic.TcCoe Idealize.SL.Sem Idealize.ShloMosaic.ValueIdx

variable (x0 : (⟨S50000x128, .f32⟩ : BufTy).Contents (Elt Ideal)) (x1 : (⟨S2x800000, .i32⟩ : BufTy).Contents (Elt Ideal))
  (x2 : (⟨S800000x128, .f32⟩ : BufTy).Contents (Elt Ideal)) (x3 x4 x5 x6 : (⟨S128x128, .f32⟩ : BufTy).Contents (Elt Ideal))
  (x7 : (⟨S128x8, .f32⟩ : BufTy).Contents (Elt Ideal)) (x8 : (⟨S8, .f32⟩ : BufTy).Contents (Elt Ideal))

/-! ## The index columns -/

/-- Row 0 of the index array at edge e. -/
theorem srcw_at (e : Fin 800000) : val_main_v1 (F := Ideal) x1 (ix1 e) = x1 (ix2 0 e) := by
  rw [val_main_v1_apply, val_main_v0_apply]
  congr 1
  funext a
  match a with
  | ⟨0, _⟩ => exact Fin.ext rfl
  | ⟨1, _⟩ => exact Fin.ext (Nat.mod_eq_of_lt e.isLt)

/-- Row 1 of the index array at edge e. -/
theorem dstw_at (e : Fin 800000) : val_main_v3 (F := Ideal) x1 (ix1 e) = x1 (ix2 1 e) := by
  rw [val_main_v3_apply, val_main_v2_apply]
  congr 1
  funext a
  match a with
  | ⟨0, _⟩ => exact Fin.ext rfl
  | ⟨1, _⟩ => exact Fin.ext (Nat.mod_eq_of_lt e.isLt)

/-- The wrap "if z < 0 then z + 50000 else z" is the identity on a word that is not negative. -/
theorem wrap_word (z : BitVec 32) (h0 : 0 ≤ z.toInt) :
    Scalar.select (IntOp.cmpi .slt z 0#32) (IntOp.addi z 50000#32) z = z := by
  have hz : (0#32 : BitVec 32).toInt = 0 := by decide
  have h : IntOp.cmpi .slt z 0#32 = 0#1 := by
    apply eq_zero_of_ne_one
    intro hc
    have := IntOp.cmpi_slt.mp hc
    omega
  rw [h, select_zero]

/-- The wrapped source column (before the gather of K). -/
theorem v22_at (h0 : ∀ (r : Fin 2) (e : Fin 800000), 0 ≤ (x1 (ix2 r e)).toInt) (e : Fin 800000) :
    val_main_v22 (F := Ideal) x1 (ix2 e (0 : Fin 1)) = x1 (ix2 0 e) := by
  have hi : idx_main_v22 (ix2 e (0 : Fin 1)) = ix1 e := by
    funext a; match a with | ⟨0, _⟩ => rfl
  rw [val_main_v22_apply, hi, val_main_v21_apply, val_main_v18_apply, val_main_v20_apply, val_main_v17_apply,
    val_main_v19_apply, srcw_at]
  exact wrap_word _ (h0 0 e)

/-- The wrapped target column (before the gather of Q). -/
theorem v29_at (h0 : ∀ (r : Fin 2) (e : Fin 800000), 0 ≤ (x1 (ix2 r e)).toInt) (e : Fin 800000) :
    val_main_v29 (F := Ideal) x1 (ix2 e (0 : Fin 1)) = x1 (ix2 1 e) := by
  have hi : idx_main_v29 (ix2 e (0 : Fin 1)) = ix1 e := by
    funext a; match a with | ⟨0, _⟩ => rfl
  rw [val_main_v29_apply, hi, val_main_v28_apply, val_main_v25_apply, val_main_v27_apply, val_main_v24_apply,
    val_main_v26_apply, dstw_at]
  exact wrap_word _ (h0 1 e)

/-- The wrapped source column (before the gather of V). -/
theorem v45_at (h0 : ∀ (r : Fin 2) (e : Fin 800000), 0 ≤ (x1 (ix2 r e)).toInt) (e : Fin 800000) :
    val_main_v45 (F := Ideal) x1 (ix2 e (0 : Fin 1)) = x1 (ix2 0 e) := by
  have hi : idx_main_v45 (ix2 e (0 : Fin 1)) = ix1 e := by
    funext a; match a with | ⟨0, _⟩ => rfl
  rw [val_main_v45_apply, hi, val_main_v44_apply, val_main_v41_apply, val_main_v43_apply, val_main_v40_apply,
    val_main_v42_apply, srcw_at]
  exact wrap_word _ (h0 0 e)

/-! ## The projections, rows by columns -/

/-- Row-major [n, 8, 16] against [n, 128]: the row. -/
theorem split_div (n a b : Nat) (ha : a < 8) (hb : b < 16) : ((n * 8 + a) * 16 + b) / 128 = n := by omega

/-- Row-major [n, 8, 16] against [n, 128]: the feature 16·a + b. -/
theorem split_mod (n a b : Nat) (ha : a < 8) (hb : b < 16) : ((n * 8 + a) * 16 + b) % 128 = 16 * a + b := by omega

/-- Q = h·WQ at node n, head hh, lane j. -/
theorem v5_at (n : Fin 50000) (hh : Fin 8) (j : Fin 16) :
    val_main_v5 (F := Ideal) x0 x3 (ix3 n hh j) = Cert.Spec.mm x0 x3 n (Cert.Spec.lane hh j) := by
  rw [val_main_v5_apply, val_main_v4_apply]
  unfold Cert.Spec.mm
  refine Finset.sum_congr rfl fun k _ => ?_
  have hl : lidx_main_v4 (idx_main_v5 (ix3 n hh j)) k = ix2 n k := by
    funext a
    match a with
    | ⟨0, _⟩ => exact Fin.ext (split_div n.val hh.val j.val hh.isLt j.isLt)
    | ⟨1, _⟩ => rfl
  have hr : ridx_main_v4 (idx_main_v5 (ix3 n hh j)) k = ix2 k (Cert.Spec.lane hh j) := by
    funext a
    match a with
    | ⟨0, _⟩ => rfl
    | ⟨1, _⟩ => exact Fin.ext (split_mod n.val hh.val j.val hh.isLt j.isLt)
  rw [hl, hr]

/-- K = h·WK at node n, head hh, lane j. -/
theorem v7_at (n : Fin 50000) (hh : Fin 8) (j : Fin 16) :
    val_main_v7 (F := Ideal) x0 x4 (ix3 n hh j) = Cert.Spec.mm x0 x4 n (Cert.Spec.lane hh j) := by
  rw [val_main_v7_apply, val_main_v6_apply]
  unfold Cert.Spec.mm
  refine Finset.sum_congr rfl fun k _ => ?_
  have hl : lidx_main_v6 (idx_main_v7 (ix3 n hh j)) k = ix2 n k := by
    funext a
    match a with
    | ⟨0, _⟩ => exact Fin.ext (split_div n.val hh.val j.val hh.isLt j.isLt)
    | ⟨1, _⟩ => rfl
  have hr : ridx_main_v6 (idx_main_v7 (ix3 n hh j)) k = ix2 k (Cert.Spec.lane hh j) := by
    funext a
    match a with
    | ⟨0, _⟩ => rfl
    | ⟨1, _⟩ => exact Fin.ext (split_mod n.val hh.val j.val hh.isLt j.isLt)
  rw [hl, hr]

/-- V = h·WV at node n, head hh, lane j. -/
theorem v9_at (n : Fin 50000) (hh : Fin 8) (j : Fin 16) :
    val_main_v9 (F := Ideal) x0 x5 (ix3 n hh j) = Cert.Spec.mm x0 x5 n (Cert.Spec.lane hh j) := by
  rw [val_main_v9_apply, val_main_v8_apply]
  unfold Cert.Spec.mm
  refine Finset.sum_congr rfl fun k _ => ?_
  have hl : lidx_main_v8 (idx_main_v9 (ix3 n hh j)) k = ix2 n k := by
    funext a
    match a with
    | ⟨0, _⟩ => exact Fin.ext (split_div n.val hh.val j.val hh.isLt j.isLt)
    | ⟨1, _⟩ => rfl
  have hr : ridx_main_v8 (idx_main_v9 (ix3 n hh j)) k = ix2 k (Cert.Spec.lane hh j) := by
    funext a
    match a with
    | ⟨0, _⟩ => rfl
    | ⟨1, _⟩ => exact Fin.ext (split_mod n.val hh.val j.val hh.isLt j.isLt)
  rw [hl, hr]

/-- Ef = ea·WE at edge e, head hh, lane j. -/
theorem v11_at (e : Fin 800000) (hh : Fin 8) (j : Fin 16) :
    val_main_v11 (F := Ideal) x2 x6 (ix3 e hh j) = Cert.Spec.mm x2 x6 e (Cert.Spec.lane hh j) := by
  rw [val_main_v11_apply, val_main_v10_apply]
  unfold Cert.Spec.mm
  refine Finset.sum_congr rfl fun k _ => ?_
  have hl : lidx_main_v10 (idx_main_v11 (ix3 e hh j)) k = ix2 e k := by
    funext a
    match a with
    | ⟨0, _⟩ => exact Fin.ext (split_div e.val hh.val j.val hh.isLt j.isLt)
    | ⟨1, _⟩ => rfl
  have hr : ridx_main_v10 (idx_main_v11 (ix3 e hh j)) k = ix2 k (Cert.Spec.lane hh j) := by
    funext a
    match a with
    | ⟨0, _⟩ => rfl
    | ⟨1, _⟩ => exact Fin.ext (split_mod e.val hh.val j.val hh.isLt j.isLt)
  rw [hl, hr]

/-- The edge bias Eb = ea·WEb + bEb at edge e and head hh. -/
theorem v16_at (e : Fin 800000) (hh : Fin 8) :
    val_main_v16 (F := Ideal) x2 x7 x8 (ix3 e hh (0 : Fin 1)) = Cert.Spec.mm x2 x7 e hh + x8 (ix1 hh) := by
  have hi : idx_main_v16 (ix3 e hh (0 : Fin 1)) = ix2 e hh := by
    funext a
    have h8 := hh.isLt
    match a with
    | ⟨0, _⟩ => exact Fin.ext (by show ((e.val * 8 + hh.val) * 1 + 0) / 8 = e.val; omega)
    | ⟨1, _⟩ => exact Fin.ext (by show ((e.val * 8 + hh.val) * 1 + 0) % 8 = hh.val; omega)
  rw [val_main_v16_apply, hi, val_main_v15_apply, val_main_v12_apply, val_main_v14_apply, val_main_v13_apply]
  unfold Cert.Spec.mm
  rw [Ideal.addf_def]
  congr 1
  · refine Finset.sum_congr rfl fun k _ => ?_
    have hl : lidx_main_v12 (ix2 e hh) k = ix2 e k := by
      funext a
      match a with
      | ⟨0, _⟩ => rfl
      | ⟨1, _⟩ => rfl
    have hr : ridx_main_v12 (ix2 e hh) k = ix2 k hh := by
      funext a
      match a with
      | ⟨0, _⟩ => rfl
      | ⟨1, _⟩ => rfl
    rw [hl, hr]
  · congr 1
    funext a
    match a with
    | ⟨0, _⟩ => rfl

/-! ## The row gathers -/

/-- The row a gather reads for an index word: the word read signed and clamped into the 50000 rows. -/
theorem clamp_row (z w : BitVec 32) (h : z = w) :
    (⟨min z.toInt.toNat (50000 - 1), by omega⟩ : Fin 50000) = Cert.Spec.row w := by
  subst h
  exact Fin.ext rfl

/-- K[src e] at head hh, lane j. -/
theorem v23_at (h0 : ∀ (r : Fin 2) (e : Fin 800000), 0 ≤ (x1 (ix2 r e)).toInt) (e : Fin 800000) (hh : Fin 8)
    (j : Fin 16) :
    val_main_v23 (F := Ideal) x0 x1 x4 (ix3 e hh j)
      = Cert.Spec.mm x0 x4 (Cert.Spec.src x1 e) (Cert.Spec.lane hh j) := by
  unfold val_main_v23
  refine (Cert.Lib.RowPass3.ga_apply _ (by decide) _ _ e hh j).trans ?_
  rw [v7_at]
  exact congrArg (fun r => Cert.Spec.mm x0 x4 r (Cert.Spec.lane hh j)) (clamp_row _ _ (v22_at x1 h0 e))

/-- Q[dst e] at head hh, lane j. -/
theorem v30_at (h0 : ∀ (r : Fin 2) (e : Fin 800000), 0 ≤ (x1 (ix2 r e)).toInt) (e : Fin 800000) (hh : Fin 8)
    (j : Fin 16) :
    val_main_v30 (F := Ideal) x0 x1 x3 (ix3 e hh j)
      = Cert.Spec.mm x0 x3 (Cert.Spec.dst x1 e) (Cert.Spec.lane hh j) := by
  unfold val_main_v30
  refine (Cert.Lib.RowPass3.ga_apply _ (by decide) _ _ e hh j).trans ?_
  rw [v5_at]
  exact congrArg (fun r => Cert.Spec.mm x0 x3 r (Cert.Spec.lane hh j)) (clamp_row _ _ (v29_at x1 h0 e))

/-- V[src e] at head hh, lane j. -/
theorem v46_at (h0 : ∀ (r : Fin 2) (e : Fin 800000), 0 ≤ (x1 (ix2 r e)).toInt) (e : Fin 800000) (hh : Fin 8)
    (j : Fin 16) :
    val_main_v46 (F := Ideal) x0 x1 x5 (ix3 e hh j)
      = Cert.Spec.mm x0 x5 (Cert.Spec.src x1 e) (Cert.Spec.lane hh j) := by
  unfold val_main_v46
  refine (Cert.Lib.RowPass3.ga_apply _ (by decide) _ _ e hh j).trans ?_
  rw [v9_at]
  exact congrArg (fun r => Cert.Spec.mm x0 x5 r (Cert.Spec.lane hh j)) (clamp_row _ _ (v45_at x1 h0 e))

/-! ## The score -/

/-- K[src e]·Q[dst e]·Ef[e] at head hh, lane j. -/
theorem v32_at (h0 : ∀ (r : Fin 2) (e : Fin 800000), 0 ≤ (x1 (ix2 r e)).toInt) (e : Fin 800000) (hh : Fin 8)
    (j : Fin 16) :
    val_main_v32 (F := Ideal) x0 x1 x2 x3 x4 x6 (ix3 e hh j)
      = Cert.Spec.kqe x0 x1 x2 x3 x4 x6 e (Cert.Spec.lane hh j) := by
  rw [val_main_v32_apply, val_main_v31_apply, v23_at x0 x1 x4 h0, v30_at x0 x1 x3 h0, v11_at]
  rfl

/-- The sum of the products over the 16 lanes of head hh (the initial value is 0). -/
theorem v33_at (h0 : ∀ (r : Fin 2) (e : Fin 800000), 0 ≤ (x1 (ix2 r e)).toInt) (e : Fin 800000) (hh : Fin 8) :
    val_main_v33 (F := Ideal) x0 x1 x2 x3 x4 x6 (ix2 e hh)
      = ∑ j : Fin 16, Cert.Spec.kqe x0 x1 x2 x3 x4 x6 e (Cert.Spec.lane hh j) := by
  rw [val_main_v33_apply, val_main_cst_apply]
  show Ideal.ofBits .f32 0x00000000#32 + _ = _
  rw [Ideal.ofBits_zero_f32, zero_add]
  refine Finset.sum_congr rfl fun k _ => ?_
  have hi : idx_main_v33 (ix2 e hh) k = ix3 e hh k := by
    funext a
    match a with
    | ⟨0, _⟩ => rfl
    | ⟨1, _⟩ => rfl
    | ⟨2, _⟩ => rfl
  rw [hi]
  exact v32_at x0 x1 x2 x3 x4 x6 h0 e hh k

/-- The scaled lane sum plus the edge bias, before the clip. -/
theorem v37_at (h0 : ∀ (r : Fin 2) (e : Fin 800000), 0 ≤ (x1 (ix2 r e)).toInt) (e : Fin 800000) (hh : Fin 8) :
    val_main_v37 (F := Ideal) x0 x1 x2 x3 x4 x6 x7 x8 (ix3 e hh (0 : Fin 1))
      = (∑ j : Fin 16, Cert.Spec.kqe x0 x1 x2 x3 x4 x6 e (Cert.Spec.lane hh j)) * Cert.Spec.cQuarter
        + (Cert.Spec.mm x2 x7 e hh + x8 (ix1 hh)) := by
  have hi : idx_main_v34 (ix3 e hh (0 : Fin 1)) = ix2 e hh := by
    funext a
    match a with
    | ⟨0, _⟩ => rfl
    | ⟨1, _⟩ => rfl
  rw [val_main_v37_apply, val_main_v36_apply, val_main_v34_apply, hi, v33_at x0 x1 x2 x3 x4 x6 h0,
    val_main_v35_apply, val_main_cst_3_apply, v16_at]
  rfl

/-- The reference's score buffer at (e, hh, 0), when every index word is a node. -/
theorem score_eq (hlo : ∀ (r : Fin 2) (e : Fin 800000), 0 ≤ (x1 (ix2 r e)).toInt)
    (hhi : ∀ (r : Fin 2) (e : Fin 800000), (x1 (ix2 r e)).toInt < 50000) (e : Fin 800000) (hh : Fin 8) :
    val_main_v39 (F := Ideal) x0 x1 x2 x3 x4 x6 x7 x8 (ix3 e hh (0 : Fin 1))
      = Cert.Spec.score x0 x1 x2 x3 x4 x6 x7 x8 e hh := by
  rw [val_main_v39_apply, val_main_v38_apply, val_main_call0_v4_apply, val_main_call0_v3_apply,
    val_main_cst_5_apply, val_main_call0_v2_apply, val_main_call0_v1_apply, val_main_call0_v0_apply,
    val_main_cst_4_apply, v37_at x0 x1 x2 x3 x4 x6 x7 x8 hlo]
  rfl

/-- The reference's message buffer at (e, hh, j), when every index word is a node. -/
theorem msg_eq (hlo : ∀ (r : Fin 2) (e : Fin 800000), 0 ≤ (x1 (ix2 r e)).toInt)
    (hhi : ∀ (r : Fin 2) (e : Fin 800000), (x1 (ix2 r e)).toInt < 50000) (e : Fin 800000) (hh : Fin 8) (j : Fin 16) :
    val_main_v48 (F := Ideal) x0 x1 x2 x3 x4 x5 x6 x7 x8 (ix3 e hh j)
      = Cert.Spec.msg x0 x1 x2 x3 x4 x5 x6 x7 x8 e (Cert.Spec.lane hh j) := by
  have hi : idx_main_v47 (ix3 e hh j) = ix3 e hh (0 : Fin 1) := by
    funext a
    match a with
    | ⟨0, _⟩ => rfl
    | ⟨1, _⟩ => rfl
    | ⟨2, _⟩ => rfl
  rw [val_main_v48_apply, val_main_v47_apply, hi, score_eq x0 x1 x2 x3 x4 x6 x7 x8 hlo hhi,
    v46_at x0 x1 x5 hlo]
  unfold Cert.Spec.msg
  rw [Cert.Spec.hd_lane]
  rfl

end Cert.RefSide

end
-- ==== Proof.RefNode.lean ====
/-
  The reference's node stage: the scatter-adds, the attention output, the two normalisations and the feed-forward
  block; with the edge stage, the whole reference is the specification.
-/
import proofs.«415187_j438086664593_2_alg».proof.Proof.RefEdge

noncomputable section

namespace Cert.RefSide

open Cert.ReferenceIdeal Cert.ReferenceIdeal.Read
open Idealize.ShloMosaic Idealize.ShloMosaic.TcCoe Idealize.SL.Sem Idealize.ShloMosaic.ValueIdx

variable (x0 : (⟨S50000x128, .f32⟩ : BufTy).Contents (Elt Ideal)) (x1 : (⟨S2x800000, .i32⟩ : BufTy).Contents (Elt Ideal))
  (x2 : (⟨S800000x128, .f32⟩ : BufTy).Contents (Elt Ideal)) (x3 x4 x5 x6 : (⟨S128x128, .f32⟩ : BufTy).Contents (Elt Ideal))
  (x7 : (⟨S128x8, .f32⟩ : BufTy).Contents (Elt Ideal)) (x8 : (⟨S8, .f32⟩ : BufTy).Contents (Elt Ideal))
  (x9 : (⟨S128x256, .f32⟩ : BufTy).Contents (Elt Ideal)) (x10 : (⟨S256, .f32⟩ : BufTy).Contents (Elt Ideal))
  (x11 : (⟨S256x128, .f32⟩ : BufTy).Contents (Elt Ideal))
  (x12 x13 x14 x15 x16 x17 x18 x19 x20 : (⟨S128, .f32⟩ : BufTy).Contents (Elt Ideal))

/-! ## The scatter-adds -/

/-- The row scatter-add of the program into [50000, 8, 16], read at an entry. -/
theorem scatter16_apply (x : FVec Ideal S50000x8x16 .f32) (idx : IVec S800000x1 32) (upd : FVec Ideal S800000x8x16 .f32)
    (n : Fin 50000) (hh : Fin 8) (j : Fin 16) :
    Host.scatterAdd scatter_S50000x8x16_S800000x1_S800000x8x16_12_0_0_1 x idx upd (ix3 n hh j)
      = x (ix3 n hh j) + ∑ e : Fin 800000, if (idx (ix2 e 0)).toInt = (n.val : Int) then upd (ix3 e hh j) else 0 :=
  Cert.Lib.RowPass3.sc_apply (N := 50000) (E := 800000) (A := 8) (B := 16)
    Cert.ReferenceIdeal.Gen.scatter_S50000x8x16_S800000x1_S800000x8x16_12_0_0_1_wf x idx upd n hh j

/-- The row scatter-add of the program into [50000, 8, 1], read at an entry. -/
theorem scatter1_apply (x : FVec Ideal S50000x8x1 .f32) (idx : IVec S800000x1 32) (upd : FVec Ideal S800000x8x1 .f32)
    (n : Fin 50000) (hh : Fin 8) :
    Host.scatterAdd scatter_S50000x8x1_S800000x1_S800000x8x1_12_0_0_1 x idx upd (ix3 n hh (0 : Fin 1))
      = x (ix3 n hh (0 : Fin 1))
        + ∑ e : Fin 800000, if (idx (ix2 e 0)).toInt = (n.val : Int) then upd (ix3 e hh (0 : Fin 1)) else 0 :=
  Cert.Lib.RowPass3.sc_apply (N := 50000) (E := 800000) (A := 8) (B := 1)
    Cert.ReferenceIdeal.Gen.scatter_S50000x8x1_S800000x1_S800000x8x1_12_0_0_1_wf x idx upd n hh 0

/-- The scatter's index column at edge e is the edge's target word. -/
theorem dstcol_eq (e : Fin 800000) : val_main_v50 (F := Ideal) x1 (ix2 e 0) = x1 (ix2 1 e) := by
  rw [val_main_v50_apply, val_main_v3_apply, val_main_v2_apply]
  congr 1
  funext a
  match a with
  | ⟨0, _⟩ => rfl
  | ⟨1, _⟩ => exact Fin.ext (Nat.mod_eq_of_lt e.isLt)

theorem dstcol_eq' (e : Fin 800000) : val_main_v53 (F := Ideal) x1 (ix2 e 0) = x1 (ix2 1 e) := by
  rw [val_main_v53_apply, val_main_v3_apply, val_main_v2_apply]
  congr 1
  funext a
  match a with
  | ⟨0, _⟩ => rfl
  | ⟨1, _⟩ => exact Fin.ext (Nat.mod_eq_of_lt e.isLt)

/-- The messages summed into node n, at head hh and lane j. -/
theorem wV_eq (hlo : ∀ (r : Fin 2) (e : Fin 800000), 0 ≤ (x1 (ix2 r e)).toInt)
    (hhi : ∀ (r : Fin 2) (e : Fin 800000), (x1 (ix2 r e)).toInt < 50000) (n : Fin 50000) (hh : Fin 8) (j : Fin 16) :
    val_main_v51 (F := Ideal) x0 x1 x2 x3 x4 x5 x6 x7 x8 (ix3 n hh j)
      = Cert.Spec.wV x0 x1 x2 x3 x4 x5 x6 x7 x8 n (Cert.Spec.lane hh j) := by
  unfold val_main_v51
  refine (scatter16_apply _ _ _ n hh j).trans ?_
  rw [val_main_v49_apply, val_main_cst_8_apply, Ideal.ofBits_def, Ideal.ofBits_zero_f32, zero_add]
  unfold Cert.Spec.wV
  refine Finset.sum_congr rfl fun e _ => ?_
  rw [dstcol_eq, msg_eq x0 x1 x2 x3 x4 x5 x6 x7 x8 hlo hhi e hh j]

/-- The scores summed into node n, at head hh. -/
theorem zs_eq (hlo : ∀ (r : Fin 2) (e : Fin 800000), 0 ≤ (x1 (ix2 r e)).toInt)
    (hhi : ∀ (r : Fin 2) (e : Fin 800000), (x1 (ix2 r e)).toInt < 50000) (n : Fin 50000) (hh : Fin 8) :
    val_main_v54 (F := Ideal) x0 x1 x2 x3 x4 x6 x7 x8 (ix3 n hh (0 : Fin 1))
      = Cert.Spec.zs x0 x1 x2 x3 x4 x6 x7 x8 n hh := by
  unfold val_main_v54
  refine (scatter1_apply _ _ _ n hh).trans ?_
  rw [val_main_v52_apply, val_main_cst_9_apply, Ideal.ofBits_def, Ideal.ofBits_zero_f32, zero_add]
  unfold Cert.Spec.zs
  refine Finset.sum_congr rfl fun e _ => ?_
  rw [dstcol_eq', score_eq x0 x1 x2 x3 x4 x6 x7 x8 hlo hhi e hh]

/-! ## The attention output -/

/-- Feature d of a row of 128 is lane d mod 16 of head d / 16. -/
theorem idx59_eq (n : Fin 50000) (d : Fin 128) :
    idx_main_v59 (ix2 n d) = ix3 n (Cert.Spec.hd d) ⟨d.val % 16, Nat.mod_lt _ (by decide)⟩ := by
  funext a
  match a with
  | ⟨0, _⟩ => exact Fin.ext (by show (n.val * 128 + d.val) / 128 = n.val; have := d.isLt; omega)
  | ⟨1, _⟩ => exact Fin.ext (by show (n.val * 128 + d.val) / 16 % 8 = d.val / 16; have := d.isLt; omega)
  | ⟨2, _⟩ => exact Fin.ext (by show (n.val * 128 + d.val) % 16 = d.val % 16; omega)

theorem idx57_eq (n : Fin 50000) (hh : Fin 8) (j : Fin 16) : idx_main_v57 (ix3 n hh j) = ix3 n hh (0 : Fin 1) := by
  funext a
  match a with
  | ⟨0, _⟩ => rfl
  | ⟨1, _⟩ => rfl
  | ⟨2, _⟩ => rfl

/-- The quotient at node n, head hh, lane j. -/
theorem div_eq (hlo : ∀ (r : Fin 2) (e : Fin 800000), 0 ≤ (x1 (ix2 r e)).toInt)
    (hhi : ∀ (r : Fin 2) (e : Fin 800000), (x1 (ix2 r e)).toInt < 50000) (n : Fin 50000) (hh : Fin 8) (j : Fin 16) :
    val_main_v58 (F := Ideal) x0 x1 x2 x3 x4 x5 x6 x7 x8 (ix3 n hh j)
      = Ideal.div (Cert.Spec.wV x0 x1 x2 x3 x4 x5 x6 x7 x8 n (Cert.Spec.lane hh j)) (Cert.Spec.zs x0 x1 x2 x3 x4 x6 x7 x8 n hh + Cert.Spec.cTiny) := by
  rw [val_main_v58_apply, val_main_v57_apply, val_main_v56_apply, val_main_v55_apply, val_main_cst_10_apply,
    idx57_eq, wV_eq x0 x1 x2 x3 x4 x5 x6 x7 x8 hlo hhi n hh j, zs_eq x0 x1 x2 x3 x4 x6 x7 x8 hlo hhi n hh,
    Ideal.hostDivf_def, Ideal.addf_def, Ideal.ofBits_def]

/-- The attention output at node n, feature d. -/
theorem att_eq (hlo : ∀ (r : Fin 2) (e : Fin 800000), 0 ≤ (x1 (ix2 r e)).toInt)
    (hhi : ∀ (r : Fin 2) (e : Fin 800000), (x1 (ix2 r e)).toInt < 50000) (n : Fin 50000) (d : Fin 128) :
    val_main_v59 (F := Ideal) x0 x1 x2 x3 x4 x5 x6 x7 x8 (ix2 n d) = Cert.Spec.att x0 x1 x2 x3 x4 x5 x6 x7 x8 n d := by
  unfold Cert.Spec.att
  rw [val_main_v59_apply, idx59_eq, div_eq x0 x1 x2 x3 x4 x5 x6 x7 x8 hlo hhi, Cert.Spec.lane_hd]

/-! ## A vector along the rows -/

theorem bc62_eq (v : (⟨S128, .f32⟩ : BufTy).Contents (Elt Ideal)) (n : Fin 50000) (d : Fin 128) :
    val_main_v62 (F := Ideal) v (ix2 n d) = v (ix1 d) := by
  rw [val_main_v62_apply, val_main_v61_apply]
  congr 1
  funext a
  match a with
  | ⟨0, _⟩ => rfl

theorem bc65_eq (v : (⟨S128, .f32⟩ : BufTy).Contents (Elt Ideal)) (n : Fin 50000) (d : Fin 128) :
    val_main_v65 (F := Ideal) v (ix2 n d) = v (ix1 d) := by
  rw [val_main_v65_apply, val_main_v64_apply]
  congr 1
  funext a
  match a with
  | ⟨0, _⟩ => rfl

theorem bc74_eq (v : (⟨S128, .f32⟩ : BufTy).Contents (Elt Ideal)) (n : Fin 50000) (d : Fin 128) :
    val_main_v74 (F := Ideal) v (ix2 n d) = v (ix1 d) := by
  rw [val_main_v74_apply, val_main_v73_apply]
  congr 1
  funext a
  match a with
  | ⟨0, _⟩ => rfl

theorem bc83_eq (v : (⟨S128, .f32⟩ : BufTy).Contents (Elt Ideal)) (n : Fin 50000) (d : Fin 128) :
    val_main_v83 (F := Ideal) v (ix2 n d) = v (ix1 d) := by
  rw [val_main_v83_apply, val_main_v82_apply]
  congr 1
  funext a
  match a with
  | ⟨0, _⟩ => rfl

theorem bc87_eq (v : (⟨S128, .f32⟩ : BufTy).Contents (Elt Ideal)) (n : Fin 50000) (d : Fin 128) :
    val_main_v87 (F := Ideal) v (ix2 n d) = v (ix1 d) := by
  rw [val_main_v87_apply, val_main_v86_apply]
  congr 1
  funext a
  match a with
  | ⟨0, _⟩ => rfl

theorem bc90_eq (v : (⟨S128, .f32⟩ : BufTy).Contents (Elt Ideal)) (n : Fin 50000) (d : Fin 128) :
    val_main_v90 (F := Ideal) v (ix2 n d) = v (ix1 d) := by
  rw [val_main_v90_apply, val_main_v89_apply]
  congr 1
  funext a
  match a with
  | ⟨0, _⟩ => rfl

theorem bc99_eq (v : (⟨S128, .f32⟩ : BufTy).Contents (Elt Ideal)) (n : Fin 50000) (d : Fin 128) :
    val_main_v99 (F := Ideal) v (ix2 n d) = v (ix1 d) := by
  rw [val_main_v99_apply, val_main_v98_apply]
  congr 1
  funext a
  match a with
  | ⟨0, _⟩ => rfl

theorem bc78_eq (v : (⟨S256, .f32⟩ : BufTy).Contents (Elt Ideal)) (n : Fin 50000) (f : Fin 256) :
    val_main_v78 (F := Ideal) v (ix2 n f) = v (ix1 f) := by
  rw [val_main_v78_apply, val_main_v77_apply]
  congr 1
  funext a
  match a with
  | ⟨0, _⟩ => rfl

theorem rs71_eq (v : (⟨S128, .f32⟩ : BufTy).Contents (Elt Ideal)) (n : Fin 50000) (d : Fin 128) :
    val_main_v71 (F := Ideal) v (ix2 n d) = Ideal.rsqrt (v (ix1 d) + Cert.Spec.cEps) := by
  have h : idx_main_v70 (idx_main_v71 (ix2 n d)) = ix1 d := by
    funext a
    match a with
    | ⟨0, _⟩ => rfl
  rw [val_main_v71_apply, val_main_v70_apply, val_main_v69_apply, val_main_v68_apply, val_main_v67_apply,
    val_main_cst_11_apply, h, Ideal.hostUnary_rsqrt_def, Ideal.addf_def, Ideal.ofBits_def]

theorem rs96_eq (v : (⟨S128, .f32⟩ : BufTy).Contents (Elt Ideal)) (n : Fin 50000) (d : Fin 128) :
    val_main_v96 (F := Ideal) v (ix2 n d) = Ideal.rsqrt (v (ix1 d) + Cert.Spec.cEps) := by
  have h : idx_main_v95 (idx_main_v96 (ix2 n d)) = ix1 d := by
    funext a
    match a with
    | ⟨0, _⟩ => rfl
  rw [val_main_v96_apply, val_main_v95_apply, val_main_v94_apply, val_main_v93_apply, val_main_v92_apply,
    val_main_cst_12_apply, h, Ideal.hostUnary_rsqrt_def, Ideal.addf_def, Ideal.ofBits_def]

/-! ## The first normalisation -/

theorem x1_eq (hlo : ∀ (r : Fin 2) (e : Fin 800000), 0 ≤ (x1 (ix2 r e)).toInt)
    (hhi : ∀ (r : Fin 2) (e : Fin 800000), (x1 (ix2 r e)).toInt < 50000) (n : Fin 50000) (d : Fin 128) :
    val_main_v75 (F := Ideal) x0 x1 x2 x3 x4 x5 x6 x7 x8 x13 x14 x15 x16 (ix2 n d) = Cert.Spec.x1 x0 x1 x2 x3 x4 x5 x6 x7 x8 x13 x14 x15 x16 n d := by
  unfold Cert.Spec.x1 Cert.Spec.bn
  rw [val_main_v75_apply, val_main_v72_apply, val_main_v66_apply, val_main_v63_apply, val_main_v60_apply,
    att_eq x0 x1 x2 x3 x4 x5 x6 x7 x8 hlo hhi n d, bc62_eq x15 n d, bc65_eq x13 n d, rs71_eq x16 n d, bc74_eq x14 n d]
  simp only [Ideal.addf_def, Ideal.mulf_def, Ideal.subf_def]

/-! ## The feed-forward block -/

theorem hid_eq (hlo : ∀ (r : Fin 2) (e : Fin 800000), 0 ≤ (x1 (ix2 r e)).toInt)
    (hhi : ∀ (r : Fin 2) (e : Fin 800000), (x1 (ix2 r e)).toInt < 50000) (n : Fin 50000) (f : Fin 256) :
    val_main_v80 (F := Ideal) x0 x1 x2 x3 x4 x5 x6 x7 x8 x9 x10 x13 x14 x15 x16 (ix2 n f) = Cert.Spec.hid x0 x1 x2 x3 x4 x5 x6 x7 x8 x9 x10 x13 x14 x15 x16 n f := by
  have hl : ∀ k : Fin 128, lidx_main_v76 (ix2 n f) k = ix2 n k := fun k => by
    funext a
    match a with
    | ⟨0, _⟩ => rfl
    | ⟨1, _⟩ => rfl
  have hr : ∀ k : Fin 128, ridx_main_v76 (ix2 n f) k = ix2 k f := fun k => by
    funext a
    match a with
    | ⟨0, _⟩ => rfl
    | ⟨1, _⟩ => rfl
  have hs : (∑ k : Fin 128, val_main_v75 (F := Ideal) x0 x1 x2 x3 x4 x5 x6 x7 x8 x13 x14 x15 x16 (lidx_main_v76 (ix2 n f) k) * x9 (ridx_main_v76 (ix2 n f) k))
      = ∑ k : Fin 128, Cert.Spec.x1 x0 x1 x2 x3 x4 x5 x6 x7 x8 x13 x14 x15 x16 n k * x9 (ix2 k f) :=
    Finset.sum_congr rfl fun k _ => by rw [hl k, hr k, x1_eq x0 x1 x2 x3 x4 x5 x6 x7 x8 x13 x14 x15 x16 hlo hhi n k]
  unfold Cert.Spec.hid
  rw [val_main_v80_apply, val_main_v79_apply, val_main_v76_apply, hs, val_main_call1_v0_apply,
    val_main_call1_cst_apply, bc78_eq x10 n f, Ideal.maximumf_def, Ideal.addf_def, Ideal.ofBits_def]

theorem ff_eq (hlo : ∀ (r : Fin 2) (e : Fin 800000), 0 ≤ (x1 (ix2 r e)).toInt)
    (hhi : ∀ (r : Fin 2) (e : Fin 800000), (x1 (ix2 r e)).toInt < 50000) (n : Fin 50000) (d : Fin 128) :
    val_main_v84 (F := Ideal) x0 x1 x2 x3 x4 x5 x6 x7 x8 x9 x10 x11 x12 x13 x14 x15 x16 (ix2 n d) = Cert.Spec.ff x0 x1 x2 x3 x4 x5 x6 x7 x8 x9 x10 x11 x12 x13 x14 x15 x16 n d := by
  have hl : ∀ k : Fin 256, lidx_main_v81 (ix2 n d) k = ix2 n k := fun k => by
    funext a
    match a with
    | ⟨0, _⟩ => rfl
    | ⟨1, _⟩ => rfl
  have hr : ∀ k : Fin 256, ridx_main_v81 (ix2 n d) k = ix2 k d := fun k => by
    funext a
    match a with
    | ⟨0, _⟩ => rfl
    | ⟨1, _⟩ => rfl
  have hs : (∑ k : Fin 256, val_main_v80 (F := Ideal) x0 x1 x2 x3 x4 x5 x6 x7 x8 x9 x10 x13 x14 x15 x16 (lidx_main_v81 (ix2 n d) k) * x11 (ridx_main_v81 (ix2 n d) k))
      = ∑ k : Fin 256, Cert.Spec.hid x0 x1 x2 x3 x4 x5 x6 x7 x8 x9 x10 x13 x14 x15 x16 n k * x11 (ix2 k d) :=
    Finset.sum_congr rfl fun k _ => by rw [hl k, hr k, hid_eq x0 x1 x2 x3 x4 x5 x6 x7 x8 x9 x10 x13 x14 x15 x16 hlo hhi n k]
  unfold Cert.Spec.ff
  rw [val_main_v84_apply, val_main_v81_apply, hs, bc83_eq x12 n d, Ideal.addf_def]

/-! ## The residual and the second normalisation -/

theorem out_eq (hlo : ∀ (r : Fin 2) (e : Fin 800000), 0 ≤ (x1 (ix2 r e)).toInt)
    (hhi : ∀ (r : Fin 2) (e : Fin 800000), (x1 (ix2 r e)).toInt < 50000) (n : Fin 50000) (d : Fin 128) :
    val_main_v100 (F := Ideal) x0 x1 x2 x3 x4 x5 x6 x7 x8 x9 x10 x11 x12 x13 x14 x15 x16 x17 x18 x19 x20 (ix2 n d) = Cert.Spec.out x0 x1 x2 x3 x4 x5 x6 x7 x8 x9 x10 x11 x12 x13 x14 x15 x16 x17 x18 x19 x20 n d := by
  unfold Cert.Spec.out Cert.Spec.bn
  rw [val_main_v100_apply, val_main_v97_apply, val_main_v91_apply, val_main_v88_apply, val_main_v85_apply,
    x1_eq x0 x1 x2 x3 x4 x5 x6 x7 x8 x13 x14 x15 x16 hlo hhi n d, ff_eq x0 x1 x2 x3 x4 x5 x6 x7 x8 x9 x10 x11 x12 x13 x14 x15 x16 hlo hhi n d, bc87_eq x19 n d, bc90_eq x17 n d, rs96_eq x20 n d,
    bc99_eq x18 n d]
  simp only [Ideal.addf_def, Ideal.mulf_def, Ideal.subf_def]

/-- The reference's result is the specification, when every index word is a node. -/
theorem ref_eq (hlo : ∀ (r : Fin 2) (e : Fin 800000), 0 ≤ (x1 (ix2 r e)).toInt)
    (hhi : ∀ (r : Fin 2) (e : Fin 800000), (x1 (ix2 r e)).toInt < 50000) :
    val_main_v100 (F := Ideal) x0 x1 x2 x3 x4 x5 x6 x7 x8 x9 x10 x11 x12 x13 x14 x15 x16 x17 x18 x19 x20
      = Cert.Spec.outA x0 x1 x2 x3 x4 x5 x6 x7 x8 x9 x10 x11 x12 x13 x14 x15 x16 x17 x18 x19 x20 := by
  funext i
  obtain ⟨n, d, rfl⟩ : ∃ (n : Fin 50000) (d : Fin 128), i = ix2 n d := ⟨i 0, i 1, eq_ix2 i⟩
  exact out_eq x0 x1 x2 x3 x4 x5 x6 x7 x8 x9 x10 x11 x12 x13 x14 x15 x16 x17 x18 x19 x20 hlo hhi n d

end Cert.RefSide

end
-- ==== Proof.PreDecode.lean ====
/-
  What the precondition says of the index array: when the printed predicate is 1, every entry of the [2, 800000]
  index array, read as a signed word, is at least 0 and below 50000. The predicate is a conjunction whose last two
  conjuncts are the "all" of the element-wise comparisons with 0 and with 50000.
-/
import proofs.«415187_j438086664593_2_alg».proof.Pre_finite_inputs
import proofs.«415187_j438086664593_2_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.PreDecode

open Cert.Pre_finite_inputs Cert.Pre_finite_inputs.Gen
open Idealize.ShloMosaic Idealize.SL.Sem Idealize.ShloMosaic.ValueIdx

instance : Subsingleton S_.Idx := ⟨fun a b => funext fun d => d.elim0⟩

/-- A scalar broadcast reads the scalar. -/
theorem bc_scalar {α : Type} {t : Shape} (h : S_.BroadcastsInDim t ![]) (v : S_.Idx → α) (j : t.Idx) :
    broadcastInDim t ![] h v j = v ix0 := by
  unfold broadcastInDim
  congr 1; funext a
  exact a.elim0

set_option maxHeartbeats 2000000 in
/-- Every index word is a node. -/
theorem idx_of_pre (x0 : FVec Ideal S50000x128 .f32) (x1 : IVec S2x800000 32) (x2 : FVec Ideal S800000x128 .f32)
    (x3 x4 x5 x6 : FVec Ideal S128x128 .f32) (x7 : FVec Ideal S128x8 .f32) (x8 : FVec Ideal S8 .f32)
    (x9 : FVec Ideal S128x256 .f32) (x10 : FVec Ideal S256 .f32) (x11 : FVec Ideal S256x128 .f32)
    (x12 x13 x14 x15 x16 x17 x18 x19 x20 : FVec Ideal S128 .f32)
    (h : Cert.Pre_finite_inputs.fn (F := Ideal) x0 x1 x2 x3 x4 x5 x6 x7 x8 x9 x10 x11 x12 x13 x14 x15 x16 x17 x18 x19 x20
      = fun _ => 1#1) :
    (∀ (r : Fin 2) (e : Fin 800000), 0 ≤ (x1 (ix2 r e)).toInt)
      ∧ (∀ (r : Fin 2) (e : Fin 800000), (x1 (ix2 r e)).toInt < 50000) := by
  have h0 := congrFun h ix0
  simp only [Cert.Pre_finite_inputs.fn, fn_part1, fn_part2, fn_part3, fn_part4, fn_part5, fn_part6] at h0
  change IntOp.andi (IntOp.andi _ _) _ = 1#1 at h0
  obtain ⟨h12, h3⟩ := IntOp.andi_eq_one.mp h0
  obtain ⟨-, h2⟩ := IntOp.andi_eq_one.mp h12
  have hge := Host.reduce_andi_all _ _ _ _ _ h2
  have hlt := Host.reduce_andi_all _ _ _ _ _ h3
  refine ⟨fun r e => ?_, fun r e => ?_⟩
  · have := IntOp.cmpi_sge.mp (hge (ix2 r e))
    rw [bc_scalar] at this
    have hz : ((constantI S_ 32 0#32 : IVec S_ 32) ix0).toInt = 0 := by decide
    rw [hz] at this; exact this
  · have := IntOp.cmpi_slt.mp (hlt (ix2 r e))
    rw [bc_scalar] at this
    have hz : ((constantI S_ 32 50000#32 : IVec S_ 32) ix0).toInt = 50000 := by decide
    rw [hz] at this; exact this

end Cert.PreDecode

end
-- ==== Proof.lean ====
/-
  A graph-transformer layer on the TensorCore against its jnp reference, over the extended reals.

  The kernel program projects the node features to queries, keys and values and the edge features to edge terms and an
  edge bias (two regions), gathers the projections' rows at each edge's end points, computes per edge the clipped,
  exponentiated scores and the messages (a third region; the per-head sum and the per-head broadcast are products
  with a 0/1 grouping matrix), collects messages and scores per target node by scatter-adds, and finishes per node
  with the division, two batch normalisations in evaluation mode and the feed-forward block (a fourth region). The
  reference does the same in [nodes, heads, lanes] coordinates with a sum over the lanes.

  Both are one function of the arguments (the specification): a product with the 0/1 indicator of "feature d lies in
  head hh" summed over all features is the sum over the head's sixteen lanes, and summed over the heads it picks the
  feature's head; every other step is the same operation on both sides. The kernel program's take fills a row with a
  fill value where an index is out of range while the reference's gather clamps it, so the claim is stated for index
  arrays whose entries are nodes (0 ≤ index < 50000, the added part of the precondition), where the take's range test
  passes and both read the same row.

  The frames: each kernel program's from the generated several-regions certificate; the reference's from its
  generated run. No idealization rule fired, so the preservation claim is trivial.
-/
import proofs.«415187_j438086664593_2_alg».proof.Defs
import proofs.«415187_j438086664593_2_alg».proof.Proof.Gen.Kernel
import proofs.«415187_j438086664593_2_alg».proof.Proof.Gen.Kernel.Skeleton
import proofs.«415187_j438086664593_2_alg».proof.Proof.Gen.Kernel.Launch
import proofs.«415187_j438086664593_2_alg».proof.Proof.Gen.Kernel.Points
import proofs.«415187_j438086664593_2_alg».proof.Proof.Gen.Kernel.Frame
import proofs.«415187_j438086664593_2_alg».proof.Proof.Gen.KernelIdeal
import proofs.«415187_j438086664593_2_alg».proof.Proof.Gen.KernelIdeal.Skeleton
import proofs.«415187_j438086664593_2_alg».proof.Proof.Gen.KernelIdeal.Launch
import proofs.«415187_j438086664593_2_alg».proof.Proof.Gen.KernelIdeal.Points
import proofs.«415187_j438086664593_2_alg».proof.Proof.Gen.KernelIdeal.Frame
import proofs.«415187_j438086664593_2_alg».proof.Proof.Gen.ReferenceIdeal
import proofs.«415187_j438086664593_2_alg».proof.Proof.Gen.ReferenceIdeal.Run
import proofs.«415187_j438086664593_2_alg».proof.Proof.Gen.ReferenceIdeal.Read
import proofs.«415187_j438086664593_2_alg».proof.Proof.Gen.Pre_finite_inputs
import proofs.«415187_j438086664593_2_alg».proof.Proof.KChain
import proofs.«415187_j438086664593_2_alg».proof.Proof.KRun
import proofs.«415187_j438086664593_2_alg».proof.Proof.RefNode
import proofs.«415187_j438086664593_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the layer's result of the arguments. -/
theorem algebraic : Cert.algebraic_KernelIdeal_ReferenceIdeal := by
  intro m ρ m' ρ' hpre hagree
  have hidx := fun c : Dev Cert.KernelIdeal.nD =>
    Cert.PreDecode.idx_of_pre _ _ _ _ _ _ _ _ _ _ _ _ _ _ _ _ _ _ _ _ _ (hpre c)
  refine ⟨fun c => Cert.Spec.outA (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Chain.result_eq m ρ c (hidx c).1 (hidx c).2), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v100_eq]
    obtain ⟨a0, a1, a2, a3, a4, a5, a6, a7, a8, a9, a10, a11, a12, a13, a14, a15, a16, a17, a18, a19, a20⟩ := hagree c
    rw [a0, a1, a2, a3, a4, a5, a6, a7, a8, a9, a10, a11, a12, a13, a14, a15, a16, a17, a18, a19, a20]
    exact Cert.RefSide.ref_eq _ _ _ _ _ _ _ _ _ _ _ _ _ _ _ _ _ _ _ _ _ (hidx c).1 (hidx c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
